-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x16x1 : Shape := ⟨3, ![2048, 16, 1]⟩
abbrev S2048x16x2048x1 : Shape := ⟨4, ![2048, 16, 2048, 1]⟩
abbrev S2048x16 : Shape := ⟨2, ![2048, 16]⟩
abbrev S_ : Shape := ⟨0, ![]⟩

class Facts : Prop where
  bcast_S_S2048x16x1 : S_.BroadcastsInDim S2048x16x1 (![] : Fin 0 → Fin S2048x16x1.rank)
  reducesTo_S2048x16x1_S_d0_1_2 : S2048x16x1.ReducesTo [0, 1, 2] S_
  h_S_ : 0 < S_.numel
  bcast_S_S2048x16x2048x1 : S_.BroadcastsInDim S2048x16x2048x1 (![] : Fin 0 → Fin S2048x16x2048x1.rank)
  reducesTo_S2048x16x2048x1_S_d0_1_2_3 : S2048x16x2048x1.ReducesTo [0, 1, 2, 3] S_

variable [Facts]

def fn {F : FTy → Type} [FloatOps F] (main_arg0 : FVec F S2048x16x1 .f32) (main_arg1 : FVec F S2048x16x2048x1 .f32) (main_arg2 : IVec S2048x16 32) (main_arg3 : IVec S2048x16 32) : IVec S_ 1 :=
  let main_v0 : FVec F S2048x16x1 .f32 := Host.absf main_arg0
  let main_cst : FVec F S_ .f32 := constant S_ .f32 0x7F800000#32
  let main_v1 : FVec F S2048x16x1 .f32 := broadcastInDim S2048x16x1 ![] bcast_S_S2048x16x1 main_cst
  let main_v2 : IVec S2048x16x1 1 := cmpf .olt main_v0 main_v1
  let main_c : IVec S_ 1 := constantI S_ 1 1#1
  let main_v3 : IVec S_ 1 := (fun x v => Host.reduce IntOp.andi x v reducesTo_S2048x16x1_S_d0_1_2 h_S_) main_v2 main_c
  let main_v4 : FVec F S2048x16x2048x1 .f32 := Host.absf main_arg1
  let main_cst_0 : FVec F S_ .f32 := constant S_ .f32 0x7F800000#32
  let main_v5 : FVec F S2048x16x2048x1 .f32 := broadcastInDim S2048x16x2048x1 ![] bcast_S_S2048x16x2048x1 main_cst_0
  let main_v6 : IVec S2048x16x2048x1 1 := cmpf .olt main_v4 main_v5
  let main_c_1 : IVec S_ 1 := constantI S_ 1 1#1
  let main_v7 : IVec S_ 1 := (fun x v => Host.reduce IntOp.andi x v reducesTo_S2048x16x2048x1_S_d0_1_2_3 h_S_) main_v6 main_c_1
  let main_v8 : IVec S_ 1 := andi main_v3 main_v7
  main_v8
-- ==== Kernel.lean ====
abbrev S2048x16x1 : Shape := ⟨3, ![2048, 16, 1]⟩
abbrev S2048x16x2048x1 : Shape := ⟨4, ![2048, 16, 2048, 1]⟩
abbrev S2048x16 : Shape := ⟨2, ![2048, 16]⟩
abbrev S2048x16x2048 : Shape := ⟨3, ![2048, 16, 2048]⟩
abbrev S8x128 : Shape := ⟨2, ![8, 128]⟩
abbrev S32x16x2048 : Shape := ⟨3, ![32, 16, 2048]⟩
abbrev S32x16 : Shape := ⟨2, ![32, 16]⟩
abbrev S32x15x2048 : Shape := ⟨3, ![32, 15, 2048]⟩
abbrev S32x15 : Shape := ⟨2, ![32, 15]⟩
abbrev S32x113 : Shape := ⟨2, ![32, 113]⟩
abbrev S32x128 : Shape := ⟨2, ![32, 128]⟩
abbrev S1x32 : Shape := ⟨2, ![1, 32]⟩
abbrev S1x128 : Shape := ⟨2, ![1, 128]⟩
abbrev S7x128 : Shape := ⟨2, ![7, 128]⟩
abbrev S1x15 : Shape := ⟨2, ![1, 15]⟩
abbrev S15 : Shape := ⟨1, ![15]⟩
abbrev S_ : Shape := ⟨0, ![]⟩
abbrev S2048x15 : Shape := ⟨2, ![2048, 15]⟩

abbrev nBuf : Space → Nat
  | .hbm => 99
  | .vmem => 5
  | .smem => 0
  | _ => 0

abbrev bufTy : (tb : Table) → Fin (tcTables nBuf tb) → BufTy
  | .hbm, ⟨0, _⟩ => ⟨S2048x16x1, .f32⟩
  | .hbm, ⟨1, _⟩ => ⟨S2048x16x2048x1, .f32⟩
  | .hbm, ⟨2, _⟩ => ⟨S2048x16, .i32⟩
  | .hbm, ⟨3, _⟩ => ⟨S2048x16, .i32⟩
  | .hbm, ⟨4, _⟩ => ⟨S2048x16x2048, .f32⟩
  | .hbm, ⟨5, _⟩ => ⟨S8x128, .f32⟩
  | .hbm, ⟨6, _⟩ => ⟨S1x15, .f32⟩
  | .hbm, ⟨7, _⟩ => ⟨S15, .f32⟩
  | .hbm, ⟨8, _⟩ => ⟨S2048x16, .f32⟩
  | .hbm, ⟨9, _⟩ => ⟨S2048x16, .f32⟩
  | .hbm, ⟨10, _⟩ => ⟨S2048x16, .f32⟩
  | .hbm, ⟨11, _⟩ => ⟨S_, .f32⟩
  | .hbm, ⟨12, _⟩ => ⟨S2048x16, .f32⟩
  | .hbm, ⟨13, _⟩ => ⟨S2048x16, .f32⟩
  | .hbm, ⟨14, _⟩ => ⟨S2048x16, .f32⟩
  | .hbm, ⟨15, _⟩ => ⟨S_, .f32⟩
  | .hbm, ⟨16, _⟩ => ⟨S2048x16, .f32⟩
  | .hbm, ⟨17, _⟩ => ⟨S2048x16, .f32⟩
  | .hbm, ⟨18, _⟩ => ⟨S2048x16, .f32⟩
  | .hbm, ⟨19, _⟩ => ⟨S2048x16, .f32⟩
  | .hbm, ⟨20, _⟩ => ⟨S2048x16, .i1⟩
  | .hbm, ⟨21, _⟩ => ⟨S2048x16, .f32⟩
  | .hbm, ⟨22, _⟩ => ⟨S2048x16, .f32⟩
  | .hbm, ⟨23, _⟩ => ⟨S2048x16, .f32⟩
  | .hbm, ⟨24, _⟩ => ⟨S2048x16, .f32⟩
  | .hbm, ⟨25, _⟩ => ⟨S2048x16, .f32⟩
  | .hbm, ⟨26, _⟩ => ⟨S2048x16, .f32⟩
  | .hbm, ⟨27, _⟩ => ⟨S2048x16, .f32⟩
  | .hbm, ⟨28, _⟩ => ⟨S2048x16, .f32⟩
  | .hbm, ⟨29, _⟩ => ⟨S2048x16, .f32⟩
  | .hbm, ⟨30, _⟩ => ⟨S2048x16, .f32⟩
  | .hbm, ⟨31, _⟩ => ⟨S_, .f32⟩
  | .hbm, ⟨32, _⟩ => ⟨S2048x16, .f32⟩
  | .hbm, ⟨33, _⟩ => ⟨S2048x16, .f32⟩
  | .hbm, ⟨34, _⟩ => ⟨S2048x16, .f32⟩
  | .hbm, ⟨35, _⟩ => ⟨S2048x16, .f32⟩
  | .hbm, ⟨36, _⟩ => ⟨S_, .f32⟩
  | .hbm, ⟨37, _⟩ => ⟨S2048x16, .f32⟩
  | .hbm, ⟨38, _⟩ => ⟨S2048x16, .f32⟩
  | .hbm, ⟨39, _⟩ => ⟨S2048x16, .f32⟩
  | .hbm, ⟨40, _⟩ => ⟨S2048x16, .f32⟩
  | .hbm, ⟨41, _⟩ => ⟨S2048x16, .i1⟩
  | .hbm, ⟨42, _⟩ => ⟨S2048x16, .f32⟩
  | .hbm, ⟨43, _⟩ => ⟨S2048x16, .f32⟩
  | .hbm, ⟨44, _⟩ => ⟨S2048x16, .f32⟩
  | .hbm, ⟨45, _⟩ => ⟨S2048x16, .f32⟩
  | .hbm, ⟨46, _⟩ => ⟨S2048x16, .f32⟩
  | .hbm, ⟨47, _⟩ => ⟨S2048x16, .f32⟩
  | .hbm, ⟨48, _⟩ => ⟨S2048x16, .f32⟩
  | .hbm, ⟨49, _⟩ => ⟨S2048x16, .f32⟩
  | .hbm, ⟨50, _⟩ => ⟨S2048x16, .f32⟩
  | .hbm, ⟨51, _⟩ => ⟨S2048x16, .f32⟩
  | .hbm, ⟨52, _⟩ => ⟨S2048x16, .f32⟩
  | .hbm, ⟨53, _⟩ => ⟨S2048x16, .f32⟩
  | .hbm, ⟨54, _⟩ => ⟨S2048x16, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S2048x15, .f32⟩
  | .hbm, ⟨63, _⟩ => ⟨S_, .f32⟩
  | .hbm, ⟨64, _⟩ => ⟨S2048x15, .f32⟩
  | .hbm, ⟨65, _⟩ => ⟨S2048x15, .i1⟩
  | .hbm, ⟨66, _⟩ => ⟨S2048x15, .f32⟩
  | .hbm, ⟨67, _⟩ => ⟨S_, .f32⟩
  | .hbm, ⟨68, _⟩ => ⟨S2048x15, .f32⟩
  | .hbm, ⟨69, _⟩ => ⟨S2048x15, .i1⟩
  | .hbm, ⟨70, _⟩ => ⟨S2048x15, .i1⟩
  | .hbm, ⟨71, _⟩ => ⟨S2048x15, .i32⟩
  | .hbm, ⟨72, _⟩ => ⟨S_, .i32⟩
  | .hbm, ⟨73, _⟩ => ⟨S15, .i32⟩
  | .hbm, ⟨74, _⟩ => ⟨S15, .f32⟩
  | .hbm, ⟨75, _⟩ => ⟨S_, .f32⟩
  | .hbm, ⟨76, _⟩ => ⟨S15, .f32⟩
  | .hbm, ⟨77, _⟩ => ⟨S15, .f32⟩
  | .hbm, ⟨78, _⟩ => ⟨S15, .f32⟩
  | .hbm, ⟨79, _⟩ => ⟨S_, .f32⟩
  | .hbm, ⟨80, _⟩ => ⟨S15, .f32⟩
  | .hbm, ⟨81, _⟩ => ⟨S15, .i1⟩
  | .hbm, ⟨82, _⟩ => ⟨S15, .i32⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S_, .i1⟩
  | .hbm, ⟨87, _⟩ => ⟨S_, .f32⟩
  | .hbm, ⟨88, _⟩ => ⟨S_, .f32⟩
  | .hbm, ⟨89, _⟩ => ⟨S_, .i32⟩
  | .hbm, ⟨90, _⟩ => ⟨S_, .i32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .local _ .vmem, ⟨0, _⟩ => ⟨S32x16x2048, .f32⟩
  | .local _ .vmem, ⟨1, _⟩ => ⟨S32x16x2048, .f32⟩
  | .local _ .vmem, ⟨2, _⟩ => ⟨S32x16, .i32⟩
  | .local _ .vmem, ⟨3, _⟩ => ⟨S32x16, .i32⟩
  | .local _ .vmem, ⟨4, _⟩ => ⟨S8x128, .f32⟩
  | _, _ => ⟨S2048x16x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1 : Ref sig .tc := ⟨.hbm, 28, rfl⟩
abbrev main_v9 : Ref sig .tc := ⟨.hbm, 29, rfl⟩
abbrev main_v10 : Ref sig .tc := ⟨.hbm, 30, rfl⟩
abbrev main_cst_0 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_call1_v0 : Ref sig .tc := ⟨.hbm, 35, rfl⟩
abbrev main_call1_call0_cst : Ref sig .tc := ⟨.hbm, 36, rfl⟩
abbrev main_call1_call0_v0 : Ref sig .tc := ⟨.hbm, 37, rfl⟩
abbrev main_call1_call0_v1 : Ref sig .tc := ⟨.hbm, 38, rfl⟩
abbrev main_call1_call0_v2 : Ref sig .tc := ⟨.hbm, 39, rfl⟩
abbrev main_call1_call0_v3 : Ref sig .tc := ⟨.hbm, 40, rfl⟩
abbrev main_call1_call0_v4 : Ref sig .tc := ⟨.hbm, 41, rfl⟩
abbrev main_call1_call0_v5 : Ref sig .tc := ⟨.hbm, 42, rfl⟩
abbrev main_call1_call0_v6 : Ref sig .tc := ⟨.hbm, 43, rfl⟩
abbrev main_call1_call0_v7 : Ref sig .tc := ⟨.hbm, 44, rfl⟩
abbrev main_call1_call0_v8 : Ref sig .tc := ⟨.hbm, 45, rfl⟩
abbrev main_call1_call0_v9 : Ref sig .tc := ⟨.hbm, 46, rfl⟩
abbrev main_call1_call0_v10 : Ref sig .tc := ⟨.hbm, 47, rfl⟩
abbrev main_call1_call0_v11 : Ref sig .tc := ⟨.hbm, 48, rfl⟩
abbrev main_call1_v1 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_cst_1 : Ref sig .tc := ⟨.hbm, 55, rfl⟩
abbrev main_v19 : Ref sig .tc := ⟨.hbm, 56, rfl⟩
abbrev main_cst_2 : Ref sig .tc := ⟨.hbm, 57, rfl⟩
abbrev main_v20 : Ref sig .tc := ⟨.hbm, 58, rfl⟩
abbrev main_cst_3 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_cst_4 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_cst_5 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_c : Ref sig .tc := ⟨.hbm, 72, rfl⟩
abbrev main_v31 : Ref sig .tc := ⟨.hbm, 73, rfl⟩
abbrev main_v32 : Ref sig .tc := ⟨.hbm, 74, rfl⟩
abbrev main_cst_6 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_cst_7 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_c_8 : Ref sig .tc := ⟨.hbm, 83, rfl⟩
abbrev main_v39 : Ref sig .tc := ⟨.hbm, 84, rfl⟩
abbrev main_c_9 : Ref sig .tc := ⟨.hbm, 85, rfl⟩
abbrev main_v40 : Ref sig .tc := ⟨.hbm, 86, rfl⟩
abbrev main_cst_10 : Ref sig .tc := ⟨.hbm, 87, rfl⟩
abbrev main_v41 : Ref sig .tc := ⟨.hbm, 88, rfl⟩
abbrev main_c_11 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_cst_12 : Ref sig .tc := ⟨.hbm, 93, rfl⟩
abbrev main_call2_v0 : Ref sig .tc := ⟨.hbm, 94, rfl⟩
abbrev main_v45 : Ref sig .tc := ⟨.hbm, 95, rfl⟩
abbrev main_cst_13 : Ref sig .tc := ⟨.hbm, 96, rfl⟩
abbrev main_v46 : Ref sig .tc := ⟨.hbm, 97, rfl⟩
abbrev main_v47 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x16x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x16 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S2048x16x2048x1_S2048x16x2048 : S2048x16x2048x1.ShapeCasts S2048x16x2048
  inb_S8x128_S8x128_0_0 : ∀ a, (![0, 0] : Fin 2 → Nat) a + S8x128.size a ≤ S8x128.size a
  h_S8x128 : 0 < S8x128.numel
  inb_S32x16x2048_S32x16x2048_0_0_0 : ∀ a, (![0, 0, 0] : Fin 3 → Nat) a + S32x16x2048.size a ≤ S32x16x2048.size a
  h_S32x16x2048 : 0 < S32x16x2048.numel
  shapeCasts_S32x16x2048_S32x16x2048 : S32x16x2048.ShapeCasts S32x16x2048
  slices_S32x16x2048_o0_1_0_S32x15x2048 : S32x16x2048.Slices ![0, 1, 0] S32x15x2048
  slices_S32x16x2048_o0_0_0_S32x15x2048 : S32x16x2048.Slices ![0, 0, 0] S32x15x2048
  reduces_S32x15x2048_S32x15 : S32x15x2048.Reduces [2] S32x15
  inb_S32x16_S32x16_0_0 : ∀ a, (![0, 0] : Fin 2 → Nat) a + S32x16.size a ≤ S32x16.size a
  h_S32x16 : 0 < S32x16.numel
  slices_S32x16_o0_1_S32x15 : S32x16.Slices ![0, 1] S32x15
  slices_S32x16_o0_0_S32x15 : S32x16.Slices ![0, 0] S32x15
  natLt_1_32 : 1 < 32
  concatenates_S32x15_S32x113_S32x128_d1 : Shape.Concatenates [S32x15, S32x113] S32x128 1
  concatenates_S1x128_S7x128_S8x128_d0 : Shape.Concatenates [S1x128, S7x128] S8x128 0
  shapeCasts_S8x128_S8x128 : S8x128.ShapeCasts S8x128
  slices_S8x128_S1x15_0_0 : S8x128.Slices ![0, 0] S1x15
  shapeCasts_S1x15_S15 : S1x15.ShapeCasts S15
  shapeCasts_S2048x16x1_S2048x16 : S2048x16x1.ShapeCasts S2048x16
  bcast_S_S2048x16 : S_.BroadcastsInDim S2048x16 (![] : Fin 0 → Fin S2048x16.rank)
  reducesTo_S2048x16_S_d0_1 : S2048x16.ReducesTo [0, 1] S_
  h_S_ : 0 < S_.numel
  slices_S2048x16_S2048x15_0_1 : S2048x16.Slices ![0, 1] S2048x15
  bcast_S_S2048x15 : S_.BroadcastsInDim S2048x15 (![] : Fin 0 → Fin S2048x15.rank)
  slices_S2048x16_S2048x15_0_0 : S2048x16.Slices ![0, 0] S2048x15
  reducesTo_S2048x15_S15_d0 : S2048x15.ReducesTo [0] S15
  bcast_S_S15 : S_.BroadcastsInDim S15 (![] : Fin 0 → Fin S15.rank)
  reducesTo_S15_S_d0 : S15.ReducesTo [0] S_
  dot_S1x32_S32x128_S1x128_1_0_0_1_n_n_wf : DotDims.WF S1x32 S32x128 S1x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x16x2048.size a ≤ S2048x16x2048.size a
  hwx0_0 : ∀ i : grid0.Coords, EltTy.bits .f32 = 32 ∨ (Rect.block (s := S2048x16x2048) S32x16x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x16.size a ≤ S2048x16.size a
  hwx0_1 : ∀ i : grid0.Coords, EltTy.bits .i32 = 32 ∨ (Rect.block (s := S2048x16) S32x16.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S8x128.size a
  hwx0_2 : ∀ i : grid0.Coords, EltTy.bits .f32 = 32 ∨ (Rect.block (s := S8x128) S8x128.size (cc0_transform_2 i) (hinb0_2 i)).WholeWords (EltTy.packing .f32)

variable [Facts₀]

def dot_S1x32_S32x128_S1x128_1_0_0_1_n_n : DotDims S1x32 S32x128 S1x128 where
  lhsContracting := [1]
  rhsContracting := [0]
  lhsNonContracting := [0]
  rhsNonContracting := [1]
  lhsBatch := []
  rhsBatch := []
  wf := dot_S1x32_S32x128_S1x128_1_0_0_1_n_n_wf

abbrev win0_0 : Pipeline.Window sig grid0 :=
  Pipeline.Window.ofSpec (Memref.whole main_v0) S32x16x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S32x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x16x1 : Shape := ⟨3, ![2048, 16, 1]⟩
abbrev S2048x16x2048x1 : Shape := ⟨4, ![2048, 16, 2048, 1]⟩
abbrev S2048x16 : Shape := ⟨2, ![2048, 16]⟩
abbrev S_ : Shape := ⟨0, ![]⟩
abbrev S2048x15x1 : Shape := ⟨3, ![2048, 15, 1]⟩
abbrev S2048x15 : Shape := ⟨2, ![2048, 15]⟩
abbrev S2048x15x2048x1 : Shape := ⟨4, ![2048, 15, 2048, 1]⟩
abbrev S15 : Shape := ⟨1, ![15]⟩

abbrev nBuf : Space → Nat
  | .hbm => 118
  | .vmem => 0
  | .smem => 0
  | _ => 0

abbrev bufTy : (tb : Table) → Fin (tcTables nBuf tb) → BufTy
  | .hbm, ⟨0, _⟩ => ⟨S2048x16x1, .f32⟩
  | .hbm, ⟨1, _⟩ => ⟨S2048x16x2048x1, .f32⟩
  | .hbm, ⟨2, _⟩ => ⟨S2048x16, .i32⟩
  | .hbm, ⟨3, _⟩ => ⟨S2048x16, .i32⟩
  | .hbm, ⟨4, _⟩ => ⟨S2048x16, .f32⟩
  | .hbm, ⟨5, _⟩ => ⟨S2048x16x1, .f32⟩
  | .hbm, ⟨6, _⟩ => ⟨S2048x16, .f32⟩
  | .hbm, ⟨7, _⟩ => ⟨S2048x16x1, .f32⟩
  | .hbm, ⟨8, _⟩ => ⟨S_, .f32⟩
  | .hbm, ⟨9, _⟩ => ⟨S2048x16x1, .f32⟩
  | .hbm, ⟨10, _⟩ => ⟨S2048x16x1, .f32⟩
  | .hbm, ⟨11, _⟩ => ⟨S2048x16x1, .f32⟩
  | .hbm, ⟨12, _⟩ => ⟨S_, .f32⟩
  | .hbm, ⟨13, _⟩ => ⟨S2048x16x1, .f32⟩
  | .hbm, ⟨14, _⟩ => ⟨S2048x16x1, .f32⟩
  | .hbm, ⟨15, _⟩ => ⟨S2048x16x1, .f32⟩
  | .hbm, ⟨16, _⟩ => ⟨S2048x16x1, .f32⟩
  | .hbm, ⟨17, _⟩ => ⟨S2048x16x1, .i1⟩
  | .hbm, ⟨18, _⟩ => ⟨S2048x16x1, .f32⟩
  | .hbm, ⟨19, _⟩ => ⟨S2048x16x1, .f32⟩
  | .hbm, ⟨20, _⟩ => ⟨S2048x16x1, .f32⟩
  | .hbm, ⟨21, _⟩ => ⟨S2048x16x1, .f32⟩
  | .hbm, ⟨22, _⟩ => ⟨S2048x16x1, .f32⟩
  | .hbm, ⟨23, _⟩ => ⟨S2048x16x1, .f32⟩
  | .hbm, ⟨24, _⟩ => ⟨S2048x16x1, .f32⟩
  | .hbm, ⟨25, _⟩ => ⟨S2048x16x1, .f32⟩
  | .hbm, ⟨26, _⟩ => ⟨S2048x16x1, .f32⟩
  | .hbm, ⟨27, _⟩ => ⟨S2048x16x1, .f32⟩
  | .hbm, ⟨28, _⟩ => ⟨S_, .f32⟩
  | .hbm, ⟨29, _⟩ => ⟨S2048x16x1, .f32⟩
  | .hbm, ⟨30, _⟩ => ⟨S2048x16x1, .f32⟩
  | .hbm, ⟨31, _⟩ => ⟨S2048x16x1, .f32⟩
  | .hbm, ⟨32, _⟩ => ⟨S2048x16x1, .f32⟩
  | .hbm, ⟨33, _⟩ => ⟨S_, .f32⟩
  | .hbm, ⟨34, _⟩ => ⟨S2048x16x1, .f32⟩
  | .hbm, ⟨35, _⟩ => ⟨S2048x16x1, .f32⟩
  | .hbm, ⟨36, _⟩ => ⟨S2048x16x1, .f32⟩
  | .hbm, ⟨37, _⟩ => ⟨S2048x16x1, .f32⟩
  | .hbm, ⟨38, _⟩ => ⟨S2048x16x1, .i1⟩
  | .hbm, ⟨39, _⟩ => ⟨S2048x16x1, .f32⟩
  | .hbm, ⟨40, _⟩ => ⟨S2048x16x1, .f32⟩
  | .hbm, ⟨41, _⟩ => ⟨S2048x16x1, .f32⟩
  | .hbm, ⟨42, _⟩ => ⟨S2048x16x1, .f32⟩
  | .hbm, ⟨43, _⟩ => ⟨S2048x16x1, .f32⟩
  | .hbm, ⟨44, _⟩ => ⟨S2048x16x1, .f32⟩
  | .hbm, ⟨45, _⟩ => ⟨S2048x16x1, .f32⟩
  | .hbm, ⟨46, _⟩ => ⟨S2048x16x1, .f32⟩
  | .hbm, ⟨47, _⟩ => ⟨S2048x16x1, .f32⟩
  | .hbm, ⟨48, _⟩ => ⟨S2048x16x1, .f32⟩
  | .hbm, ⟨49, _⟩ => ⟨S2048x16x1, .f32⟩
  | .hbm, ⟨50, _⟩ => ⟨S2048x16x1, .f32⟩
  | .hbm, ⟨51, _⟩ => ⟨S2048x16x1, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S2048x15x1, .f32⟩
  | .hbm, ⟨60, _⟩ => ⟨S2048x15, .f32⟩
  | .hbm, ⟨61, _⟩ => ⟨S_, .f32⟩
  | .hbm, ⟨62, _⟩ => ⟨S2048x15, .f32⟩
  | .hbm, ⟨63, _⟩ => ⟨S2048x15, .i1⟩
  | .hbm, ⟨64, _⟩ => ⟨S2048x15x1, .f32⟩
  | .hbm, ⟨65, _⟩ => ⟨S2048x15, .f32⟩
  | .hbm, ⟨66, _⟩ => ⟨S_, .f32⟩
  | .hbm, ⟨67, _⟩ => ⟨S2048x15, .f32⟩
  | .hbm, ⟨68, _⟩ => ⟨S2048x15, .i1⟩
  | .hbm, ⟨69, _⟩ => ⟨S2048x15, .i1⟩
  | .hbm, ⟨70, _⟩ => ⟨S2048x15x2048x1, .f32⟩
  | .hbm, ⟨71, _⟩ => ⟨S2048x15x2048x1, .f32⟩
  | .hbm, ⟨72, _⟩ => ⟨S2048x15x2048x1, .f32⟩
  | .hbm, ⟨73, _⟩ => ⟨S2048x15x2048x1, .f32⟩
  | .hbm, ⟨74, _⟩ => ⟨S_, .f32⟩
  | .hbm, ⟨75, _⟩ => ⟨S2048x15x2048x1, .f32⟩
  | .hbm, ⟨76, _⟩ => ⟨S2048x15x2048x1, .f32⟩
  | .hbm, ⟨77, _⟩ => ⟨S_, .f32⟩
  | .hbm, ⟨78, _⟩ => ⟨S2048x15x2048x1, .f32⟩
  | .hbm, ⟨79, _⟩ => ⟨S2048x15x2048x1, .f32⟩
  | .hbm, ⟨80, _⟩ => ⟨S2048x15x2048x1, .f32⟩
  | .hbm, ⟨81, _⟩ => ⟨S_, .f32⟩
  | .hbm, ⟨82, _⟩ => ⟨S2048x15, .f32⟩
  | .hbm, ⟨83, _⟩ => ⟨S_, .f32⟩
  | .hbm, ⟨84, _⟩ => ⟨S2048x15, .f32⟩
  | .hbm, ⟨85, _⟩ => ⟨S2048x15, .f32⟩
  | .hbm, ⟨86, _⟩ => ⟨S2048x15, .i32⟩
  | .hbm, ⟨87, _⟩ => ⟨S_, .i32⟩
  | .hbm, ⟨88, _⟩ => ⟨S15, .i32⟩
  | .hbm, ⟨89, _⟩ => ⟨S2048x15, .f32⟩
  | .hbm, ⟨90, _⟩ => ⟨S2048x15, .f32⟩
  | .hbm, ⟨91, _⟩ => ⟨S_, .f32⟩
  | .hbm, ⟨92, _⟩ => ⟨S15, .f32⟩
  | .hbm, ⟨93, _⟩ => ⟨S_, .i32⟩
  | .hbm, ⟨94, _⟩ => ⟨S15, .i32⟩
  | .hbm, ⟨95, _⟩ => ⟨S15, .i32⟩
  | .hbm, ⟨96, _⟩ => ⟨S15, .f32⟩
  | .hbm, ⟨97, _⟩ => ⟨S15, .f32⟩
  | .hbm, ⟨98, _⟩ => ⟨S_, .i32⟩
  | .hbm, ⟨99, _⟩ => ⟨S15, .i32⟩
  | .hbm, ⟨100, _⟩ => ⟨S15, .i1⟩
  | .hbm, ⟨101, _⟩ => ⟨S15, .i32⟩
  | .hbm, ⟨102, _⟩ => ⟨S_, .i32⟩
  | .hbm, ⟨103, _⟩ => ⟨S_, .i32⟩
  | .hbm, ⟨104, _⟩ => ⟨S_, .i32⟩
  | .hbm, ⟨105, _⟩ => ⟨S_, .i1⟩
  | .hbm, ⟨106, _⟩ => ⟨S_, .f32⟩
  | .hbm, ⟨107, _⟩ => ⟨S_, .f32⟩
  | .hbm, ⟨108, _⟩ => ⟨S_, .i32⟩
  | .hbm, ⟨109, _⟩ => ⟨S_, .i32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | _, _ => ⟨S2048x16x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_call0_cst : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_v5 : Ref sig .tc := ⟨.hbm, 18, rfl⟩
abbrev main_call0_call0_v6 : Ref sig .tc := ⟨.hbm, 19, rfl⟩
abbrev main_call0_call0_v7 : Ref sig .tc := ⟨.hbm, 20, rfl⟩
abbrev main_call0_call0_v8 : Ref sig .tc := ⟨.hbm, 21, rfl⟩
abbrev main_call0_call0_v9 : Ref sig .tc := ⟨.hbm, 22, rfl⟩
abbrev main_call0_call0_v10 : Ref sig .tc := ⟨.hbm, 23, rfl⟩
abbrev main_call0_call0_v11 : Ref sig .tc := ⟨.hbm, 24, rfl⟩
abbrev main_call0_v1 : Ref sig .tc := ⟨.hbm, 25, rfl⟩
abbrev main_v6 : Ref sig .tc := ⟨.hbm, 26, rfl⟩
abbrev main_v7 : Ref sig .tc := ⟨.hbm, 27, rfl⟩
abbrev main_cst_0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_call1_v0 : Ref sig .tc := ⟨.hbm, 32, rfl⟩
abbrev main_call1_call0_cst : Ref sig .tc := ⟨.hbm, 33, rfl⟩
abbrev main_call1_call0_v0 : Ref sig .tc := ⟨.hbm, 34, rfl⟩
abbrev main_call1_call0_v1 : Ref sig .tc := ⟨.hbm, 35, rfl⟩
abbrev main_call1_call0_v2 : Ref sig .tc := ⟨.hbm, 36, rfl⟩
abbrev main_call1_call0_v3 : Ref sig .tc := ⟨.hbm, 37, rfl⟩
abbrev main_call1_call0_v4 : Ref sig .tc := ⟨.hbm, 38, rfl⟩
abbrev main_call1_call0_v5 : Ref sig .tc := ⟨.hbm, 39, rfl⟩
abbrev main_call1_call0_v6 : Ref sig .tc := ⟨.hbm, 40, rfl⟩
abbrev main_call1_call0_v7 : Ref sig .tc := ⟨.hbm, 41, rfl⟩
abbrev main_call1_call0_v8 : Ref sig .tc := ⟨.hbm, 42, rfl⟩
abbrev main_call1_call0_v9 : Ref sig .tc := ⟨.hbm, 43, rfl⟩
abbrev main_call1_call0_v10 : Ref sig .tc := ⟨.hbm, 44, rfl⟩
abbrev main_call1_call0_v11 : Ref sig .tc := ⟨.hbm, 45, rfl⟩
abbrev main_call1_v1 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_cst_1 : Ref sig .tc := ⟨.hbm, 52, rfl⟩
abbrev main_v16 : Ref sig .tc := ⟨.hbm, 53, rfl⟩
abbrev main_cst_2 : Ref sig .tc := ⟨.hbm, 54, rfl⟩
abbrev main_v17 : Ref sig .tc := ⟨.hbm, 55, rfl⟩
abbrev main_cst_3 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_cst_4 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_cst_5 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_cst_6 : Ref sig .tc := ⟨.hbm, 74, rfl⟩
abbrev main_v33 : Ref sig .tc := ⟨.hbm, 75, rfl⟩
abbrev main_v34 : Ref sig .tc := ⟨.hbm, 76, rfl⟩
abbrev main_call2_cst : Ref sig .tc := ⟨.hbm, 77, rfl⟩
abbrev main_call2_v0 : Ref sig .tc := ⟨.hbm, 78, rfl⟩
abbrev main_v35 : Ref sig .tc := ⟨.hbm, 79, rfl⟩
abbrev main_v36 : Ref sig .tc := ⟨.hbm, 80, rfl⟩
abbrev main_cst_7 : Ref sig .tc := ⟨.hbm, 81, rfl⟩
abbrev main_v37 : Ref sig .tc := ⟨.hbm, 82, rfl⟩
abbrev main_cst_8 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_c : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_cst_9 : Ref sig .tc := ⟨.hbm, 91, rfl⟩
abbrev main_v44 : Ref sig .tc := ⟨.hbm, 92, rfl⟩
abbrev main_c_10 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_c_11 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_c_12 : Ref sig .tc := ⟨.hbm, 102, rfl⟩
abbrev main_v52 : Ref sig .tc := ⟨.hbm, 103, rfl⟩
abbrev main_c_13 : Ref sig .tc := ⟨.hbm, 104, rfl⟩
abbrev main_v53 : Ref sig .tc := ⟨.hbm, 105, rfl⟩
abbrev main_cst_14 : Ref sig .tc := ⟨.hbm, 106, rfl⟩
abbrev main_v54 : Ref sig .tc := ⟨.hbm, 107, rfl⟩
abbrev main_c_15 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_cst_16 : Ref sig .tc := ⟨.hbm, 112, rfl⟩
abbrev main_call3_v0 : Ref sig .tc := ⟨.hbm, 113, rfl⟩
abbrev main_v58 : Ref sig .tc := ⟨.hbm, 114, rfl⟩
abbrev main_cst_17 : Ref sig .tc := ⟨.hbm, 115, rfl⟩
abbrev main_v59 : Ref sig .tc := ⟨.hbm, 116, rfl⟩
abbrev main_v60 : Ref sig .tc := ⟨.hbm, 117, rfl⟩

abbrev nD : Nat := 1
abbrev τ : Topo := Topo.v7x

variable {F : FTy → Type} [FloatOps F]

class Facts₀ : Prop where
  bcast_S2048x16_S2048x16x1_0_1 : S2048x16.BroadcastsInDim S2048x16x1 (![0, 1] : Fin 2 → Fin S2048x16x1.rank)
  bcast_S_S2048x16x1 : S_.BroadcastsInDim S2048x16x1 (![] : Fin 0 → Fin S2048x16x1.rank)
  reducesTo_S2048x16x1_S_d0_1_2 : S2048x16x1.ReducesTo [0, 1, 2] S_
  h_S_ : 0 < S_.numel
  slices_S2048x16x1_S2048x15x1_0_1_0 : S2048x16x1.Slices ![0, 1, 0] S2048x15x1
  shapeCasts_S2048x15x1_S2048x15 : S2048x15x1.ShapeCasts S2048x15
  bcast_S_S2048x15 : S_.BroadcastsInDim S2048x15 (![] : Fin 0 → Fin S2048x15.rank)
  slices_S2048x16x1_S2048x15x1_0_0_0 : S2048x16x1.Slices ![0, 0, 0] S2048x15x1
  slices_S2048x16x2048x1_S2048x15x2048x1_0_1_0_0 : S2048x16x2048x1.Slices ![0, 1, 0, 0] S2048x15x2048x1
  slices_S2048x16x2048x1_S2048x15x2048x1_0_0_0_0 : S2048x16x2048x1.Slices ![0, 0, 0, 0] S2048x15x2048x1
  bcast_S_S2048x15x2048x1 : S_.BroadcastsInDim S2048x15x2048x1 (![] : Fin 0 → Fin S2048x15x2048x1.rank)
  reducesTo_S2048x15x2048x1_S2048x15_d2_3 : S2048x15x2048x1.ReducesTo [2, 3] S2048x15
  natLt_1_32 : 1 < 32
  reducesTo_S2048x15_S15_d0 : S2048x15.ReducesTo [0] S15
  bcast_S_S15 : S_.BroadcastsInDim S15 (![] : Fin 0 → Fin S15.rank)
  reducesTo_S15_S_d0 : S15.ReducesTo [0] S_

variable [Facts₀]

class Facts : Prop extends Facts₀ where

variable [Facts]
-- ==== Proof.BFrameBase.lean ====
/- The frame of the word-level kernel program, first part: the host lines around the one region, the
   region-entry contents, the windows' blocks, the branch condition of the body in closed form, and the
   passage from the library's frame post to the claim that the four argument arrays end unchanged. -/
import proofs.«429960_j51273319580286_4_alg».proof.Proof.Gen.Kernel.Launch
import proofs.«429960_j51273319580286_4_alg».proof.Proof.Gen.Kernel.Skeleton
import proofs.«429960_j51273319580286_4_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- The stretches of host operations that follow the region, in order. -/
abbrev tailOps : List (List (HloOp τ sig (Elt F))) :=
  [hostOps1, hostOps1_1, hostOps1_2, hostOps1_3, hostOps1_4, hostOps1_5, hostOps1_6]

/-- The contents of core `c`'s buffers when the region is entered: the launch contents after the one reshape
    that precedes it. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- A property of every operation of every stretch, read element by element. -/
theorem forall₂_of {α : Type} {p : α → Prop} {L : List (List α)} (h : L.Forall fun l => l.Forall p) :
    ∀ l ∈ L, ∀ a ∈ l, p a :=
  fun l hl a ha => List.forall_iff_forall_mem.mp (List.forall_iff_forall_mem.mp h l hl) a ha

/-- The references whose contents the lines after the region must leave alone: the four arguments and the
    two arrays the region stages besides. -/
abbrev kept : List (Ref sig .tc) := [main_arg0, main_arg1, main_arg2, main_arg3, main_v0, main_v1]

/-- An operation whose only written buffer is `y` writes no reference of a list that omits `y`. -/
theorem not_writes_of {op : HloOp τ sig (Elt F)} {y : Ref sig .tc} (hw : op.writes = {Proc.devRef .tc y})
    (L : List (Ref sig .tc)) (hy : y ∉ L) : ∀ r ∈ L, Proc.devRef (τ := τ) .tc r ∉ op.writes := fun r hr h => by
  rw [hw, Finset.mem_singleton] at h
  exact hy (Proc.devRef_injective _ h ▸ hr)

/-- No operation of this stretch allocates. -/
theorem hostOps1_fresh : (hostOps1 : List (HloOp τ sig (Elt F))).Forall fun op => op.fresh = ∅ :=
  ⟨rfl, rfl, rfl, rfl, rfl, rfl, rfl, rfl⟩
/-- Each operation of this stretch writes its own result buffer only, which is none of the kept references. -/
theorem hostOps1_kept : (hostOps1 : List (HloOp τ sig (Elt F))).Forall fun op => ∀ r ∈ kept, Proc.devRef (τ := τ) .tc r ∉ op.writes := by
  refine ⟨?_, ?_, ?_, ?_, ?_, ?_, ?_, ?_⟩ <;> exact not_writes_of rfl _ (by decide)
/-- No operation of this stretch allocates. -/
theorem hostOps1_1_fresh : (hostOps1_1 : List (HloOp τ sig (Elt F))).Forall fun op => op.fresh = ∅ :=
  ⟨rfl, rfl, rfl, rfl, rfl, rfl, rfl, rfl, rfl, rfl, rfl, rfl, rfl, rfl, rfl, rfl⟩
/-- Each operation of this stretch writes its own result buffer only, which is none of the kept references. -/
theorem hostOps1_1_kept : (hostOps1_1 : List (HloOp τ sig (Elt F))).Forall fun op => ∀ r ∈ kept, Proc.devRef (τ := τ) .tc r ∉ op.writes := by
  refine ⟨?_, ?_, ?_, ?_, ?_, ?_, ?_, ?_, ?_, ?_, ?_, ?_, ?_, ?_, ?_, ?_⟩ <;> exact not_writes_of rfl _ (by decide)
/-- No operation of this stretch allocates. -/
theorem hostOps1_2_fresh : (hostOps1_2 : List (HloOp τ sig (Elt F))).Forall fun op => op.fresh = ∅ :=
  ⟨rfl, rfl, rfl, rfl, rfl⟩
/-- Each operation of this stretch writes its own result buffer only, which is none of the kept references. -/
theorem hostOps1_2_kept : (hostOps1_2 : List (HloOp τ sig (Elt F))).Forall fun op => ∀ r ∈ kept, Proc.devRef (τ := τ) .tc r ∉ op.writes := by
  refine ⟨?_, ?_, ?_, ?_, ?_⟩ <;> exact not_writes_of rfl _ (by decide)
/-- No operation of this stretch allocates. -/
theorem hostOps1_3_fresh : (hostOps1_3 : List (HloOp τ sig (Elt F))).Forall fun op => op.fresh = ∅ :=
  ⟨rfl, rfl, rfl, rfl, rfl, rfl, rfl, rfl, rfl, rfl, rfl, rfl, rfl, rfl, rfl, rfl⟩
/-- Each operation of this stretch writes its own result buffer only, which is none of the kept references. -/
theorem hostOps1_3_kept : (hostOps1_3 : List (HloOp τ sig (Elt F))).Forall fun op => ∀ r ∈ kept, Proc.devRef (τ := τ) .tc r ∉ op.writes := by
  refine ⟨?_, ?_, ?_, ?_, ?_, ?_, ?_, ?_, ?_, ?_, ?_, ?_, ?_, ?_, ?_, ?_⟩ <;> exact not_writes_of rfl _ (by decide)
/-- No operation of this stretch allocates. -/
theorem hostOps1_4_fresh : (hostOps1_4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- Each operation of this stretch writes its own result buffer only, which is none of the kept references. -/
theorem hostOps1_4_kept : (hostOps1_4 : List (HloOp τ sig (Elt F))).Forall fun op => ∀ r ∈ kept, Proc.devRef (τ := τ) .tc r ∉ op.writes := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact not_writes_of rfl _ (by decide)
/-- No operation of this stretch allocates. -/
theorem hostOps1_5_fresh : (hostOps1_5 : List (HloOp τ sig (Elt F))).Forall fun op => op.fresh = ∅ :=
  ⟨rfl, rfl⟩
/-- Each operation of this stretch writes its own result buffer only, which is none of the kept references. -/
theorem hostOps1_5_kept : (hostOps1_5 : List (HloOp τ sig (Elt F))).Forall fun op => ∀ r ∈ kept, Proc.devRef (τ := τ) .tc r ∉ op.writes := by
  refine ⟨?_, ?_⟩ <;> exact not_writes_of rfl _ (by decide)
/-- No operation of this stretch allocates. -/
theorem hostOps1_6_fresh : (hostOps1_6 : List (HloOp τ sig (Elt F))).Forall fun op => op.fresh = ∅ :=
  ⟨rfl, rfl, rfl⟩
/-- Each operation of this stretch writes its own result buffer only, which is none of the kept references. -/
theorem hostOps1_6_kept : (hostOps1_6 : List (HloOp τ sig (Elt F))).Forall fun op => ∀ r ∈ kept, Proc.devRef (τ := τ) .tc r ∉ op.writes := by
  refine ⟨?_, ?_, ?_⟩ <;> exact not_writes_of rfl _ (by decide)

theorem tail_sub : (tailOps : List (List (HloOp τ sig (Elt F)))).Forall fun ops => ops.Forall fun op => op.bufs ⊆ StableHlo.tcRefs τ sig :=
  ⟨hostOps1_sub, hostOps1_1_sub, hostOps1_2_sub, hostOps1_3_sub, hostOps1_4_sub, hostOps1_5_sub, hostOps1_6_sub⟩
theorem tail_fresh : (tailOps : List (List (HloOp τ sig (Elt F)))).Forall fun ops => ops.Forall fun op => op.fresh = ∅ :=
  ⟨hostOps1_fresh, hostOps1_1_fresh, hostOps1_2_fresh, hostOps1_3_fresh, hostOps1_4_fresh, hostOps1_5_fresh, hostOps1_6_fresh⟩
theorem tail_kept : (tailOps : List (List (HloOp τ sig (Elt F)))).Forall fun ops => ops.Forall fun op => ∀ r ∈ kept, Proc.devRef (τ := τ) .tc r ∉ op.writes :=
  ⟨hostOps1_kept, hostOps1_1_kept, hostOps1_2_kept, hostOps1_3_kept, hostOps1_4_kept, hostOps1_5_kept, hostOps1_6_kept⟩

/-- @main is the reshape, the region, then the later stretches: it reduces to the region continued by them, at the
    contents after the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps hostOps0_sub rfl main_chain

/-- The later lines touch unscoped TensorCore buffers only; nothing being prefetched, each such buffer is an array of
    the pipeline or one that bypasses the region. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  exact fun ops hops op hop => Pipeline.sub_ucRefs op (forall₂_of tail_sub ops hops op hop)
/-- They allocate nothing. -/
theorem sfx_fresh : ∀ ops ∈ (tailOps : List (List (HloOp τ sig (Elt F)))), ∀ op ∈ ops, op.fresh = ∅ :=
  forall₂_of tail_fresh
/-- They write no array of the pipeline: the three arrays are kept references. -/
theorem sfx_keeps : ∀ ops ∈ (tailOps : List (List (HloOp τ sig (Elt F)))), ∀ op ∈ ops,
    ∀ w, Proc.devRef .tc (Pipeline.arrRef spec0 w) ∉ op.writes := fun ops hops op hop w =>
  forall₂_of tail_kept ops hops op hop (Pipeline.arrRef spec0 w) (by fin_cases w <;> decide)

/-- The reshape before the region writes its own result only: an argument array is as launched when the region is entered. -/
theorem V_of_ne (c : Dev nD) (r : Ref sig .tc) (hr : r ≠ main_v0) : V m c r = m ((c : Thread nD τ).loc r) :=
  StableHlo.after_of_forall_not_mem _ _ fun op hop h => by
    simp only [List.flatten_cons, List.flatten_nil, List.append_nil, List.mem_singleton] at hop
    subst hop
    rw [StableHlo.reshape_writes, Finset.mem_singleton] at h
    exact hr (Proc.devRef_injective _ h)
theorem V_main_arg0 (c : Dev nD) : V m c main_arg0 = m ((c : Thread nD τ).loc main_arg0) := V_of_ne m c _ (by decide)
theorem V_main_arg1 (c : Dev nD) : V m c main_arg1 = m ((c : Thread nD τ).loc main_arg1) := V_of_ne m c _ (by decide)
theorem V_main_arg2 (c : Dev nD) : V m c main_arg2 = m ((c : Thread nD τ).loc main_arg2) := V_of_ne m c _ (by decide)
theorem V_main_arg3 (c : Dev nD) : V m c main_arg3 = m ((c : Thread nD τ).loc main_arg3) := V_of_ne m c _ (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is the
    region-entry contents and whose body leaves the block in place: window 0. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same of window 1. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The condition of the body's one conditional, from the grid coordinate. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 64 = 0 :=
  (by decide +kernel : ∀ t : Fin grid0.N, cond0_0 (grid0.coords t) ↔ t.val % 64 = 0)

/-! ## The staging memrefs -/

/-- The output window's one staging buffer, as a view: its contents are stated through it. -/
abbrev VO0_2 : View sig .tc .vmem S8x128 .f32 := (Memref.whole cc0_stg2_0 : Memref sig .tc .vmem S8x128 .f32).view
/-- Each window's current staging memref at point `t`, spelled as the pipeline passes it, and its wholeness. -/
abbrev ms0_0 (t : Fin cfg0.N) : Memref sig .tc .vmem S32x16x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x16 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128 .f32 := win0_2.stage (cfg0.slots t 2)
abbrev hs0_2 (t : Fin cfg0.N) : (ms0_2 t).IsWhole := hstage0_2 ((cfg0.slots t 2).cast nbuf0_2)

/-! ## From the frame run's post to the claim -/

/-- An argument array that bypasses the region and that no later line writes holds, after those lines, what it held at launch. -/
theorem afterTail_arg (dats : (p : Fin 1) → (c : Dev nD) → Dat τ (Elt F) Unit ℕ (UR sig nD τ) ℕ (cfgs p) c) (c : Dev nD)
    (r : Ref sig .tc) (hk : r ∈ kept) (ha : ∀ w, Pipeline.arrRef spec0 w ≠ r) (hv : r ≠ main_v0) :
    Pipeline.afterTail₀ cfgs dats 0 (V0 m) tailOps c r = m ((c.tc : Thread nD τ).loc r) := by
  unfold Pipeline.afterTail₀
  rw [StableHlo.after_of_forall_not_mem _ _ fun op hop => ?_, Pipeline.withArrays_of_ne _ c (V0 m c) _ r ha]
  · exact V_of_ne m c r hv
  · obtain ⟨ops, hops, hop'⟩ := List.mem_flatten.mp hop
    exact forall₂_of tail_kept ops hops op hop' r hk

/-- From a run to the library's frame post, read after the later lines, to the claim's post: the region's input array
    `main_arg3` is as the region found it, which is as launched; the three arguments that bypass the region are written
    by no later line. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans
        (afterTail_arg m dats c main_arg0 (by decide) (by decide) (by decide)),
      ((h c).2 main_arg1 (Pipeline.mem_restRefs_of main_arg1 (by decide) (by decide))).trans
        (afterTail_arg m dats c main_arg1 (by decide) (by decide) (by decide)),
      ((h c).2 main_arg2 (Pipeline.mem_restRefs_of main_arg2 (by decide) (by decide))).trans
        (afterTail_arg m dats c main_arg2 (by decide) (by decide) (by decide)),
      ((h c).1 1).trans (((dats 0 c).arrAt_in 1 rfl _).trans ((hA c 1).trans (V_main_arg3 m c)))⟩) h

end Cert.Kernel.Hand

end
-- ==== Proof.BFrameRunA.lean ====
/- The body of the word-level kernel run whole in the case where its conditional is taken (the first grid point): the output block is reset, then accumulated into. The pieces the
   stores leave in the output's staging buffer are the witness the run finds. -/
import proofs.«429960_j51273319580286_4_alg».proof.Proof.BFrameBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the output's staging memref, as pieces (last first), in this case, with the proof
    that on whole staging memrefs — the two inputs' at their contents `x0`, `x1`, the output's at anything — the body
    runs to the continuation holding the inputs' as they were and the output's buffer with the pieces written. -/
noncomputable def kernelRun0_A (c : Dev nD) (i : grid0.Coords) (arg1 : Memref sig .tc .vmem S32x16x2048 .f32) (harg1 : arg1.IsWhole) (arg2 : Memref sig .tc .vmem S32x16 .i32) (harg2 : arg2.IsWhole) (arg3 : Memref sig .tc .vmem S8x128 .f32) (harg3 : arg3.IsWhole) (hc0 : cond0_0 i)
    (x0 : Vec F S32x16x2048 .f32) (x1 : Vec F S32x16 .i32) :
    { L2 : List (View.Piece (Elt F) S8x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc0__smooth_kernel i arg1 harg1 arg2 harg2 arg3 harg3) K } := by
  refine ⟨?_, fun E K => ?run⟩
  case run =>
    simp only [cc0__smooth_kernel_eq_skeleton]; unfold cc0__smooth_kernel_skel
    simp only [k0_part1_eq_skeleton]
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.Kernel.Hand

end
-- ==== Proof.BFrameRunB.lean ====
/- The body of the word-level kernel run whole in the case where its conditional is not taken (every later grid point): the output block is accumulated into. The pieces the
   stores leave in the output's staging buffer are the witness the run finds. -/
import proofs.«429960_j51273319580286_4_alg».proof.Proof.BFrameRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the output's staging memref, as pieces (last first), in this case, with the proof
    that on whole staging memrefs — the two inputs' at their contents `x0`, `x1`, the output's at its running contents \`xo2\` — the body
    runs to the continuation holding the inputs' as they were and the output's buffer with the pieces written. -/
noncomputable def kernelRun0_B (c : Dev nD) (i : grid0.Coords) (arg1 : Memref sig .tc .vmem S32x16x2048 .f32) (harg1 : arg1.IsWhole) (arg2 : Memref sig .tc .vmem S32x16 .i32) (harg2 : arg2.IsWhole) (arg3 : Memref sig .tc .vmem S8x128 .f32) (harg3 : arg3.IsWhole) (hc0 : ¬cond0_0 i)
    (x0 : Vec F S32x16x2048 .f32) (x1 : Vec F S32x16 .i32) (xo2 : Vec F S8x128 .f32) :
    { L2 : List (View.Piece (Elt F) S8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare xo2
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc0__smooth_kernel i arg1 harg1 arg2 harg2 arg3 harg3) K } := by
  refine ⟨?_, fun E K => ?run⟩
  case run =>
    simp only [cc0__smooth_kernel_eq_skeleton]; unfold cc0__smooth_kernel_skel
    simp only [k0_part1_eq_skeleton]
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.Kernel.Hand

end
-- ==== Proof.BFrame.lean ====
/- The frame of the word-level kernel program, last part: what the output's staging buffer holds after each grid
   point (reset and accumulated at the first, accumulated at every later one), the pipeline's proof data, the body
   obligation at a generic point, the run of @main to the library's frame post, and the frame claim. -/
import proofs.«429960_j51273319580286_4_alg».proof.Proof.BFrameRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output's staging buffer -/

/-- In the first case the two stores each cover the whole block, so the pieces cover it. -/
theorem cover0_A_2 (c : Dev nD) (i : grid0.Coords) (arg1 : Memref sig .tc .vmem S32x16x2048 .f32) (harg1 : arg1.IsWhole) (arg2 : Memref sig .tc .vmem S32x16 .i32) (harg2 : arg2.IsWhole) (arg3 : Memref sig .tc .vmem S8x128 .f32) (harg3 : arg3.IsWhole) (hc0 : cond0_0 i)
    (x0 : Vec F S32x16x2048 .f32) (x1 : Vec F S32x16 .i32) (y : S8x128.Idx) :
    ∃ pc ∈ (kernelRun0_A c i arg1 harg1 arg2 harg2 arg3 harg3 hc0 x0 x1).1, y ∈ pc.1.set :=
  View.cover_of_tiledL (kernelRun0_A c i arg1 harg1 arg2 harg2 arg3 harg3 hc0 x0 x1).1 S8x128.size (by sl_kernel_rfl) y

/-- What the first case leaves in the output's staging buffer: its pieces read back over junk. -/
def out0_A_2 (c : Dev nD) (i : grid0.Coords) (arg1 : Memref sig .tc .vmem S32x16x2048 .f32) (harg1 : arg1.IsWhole) (arg2 : Memref sig .tc .vmem S32x16 .i32) (harg2 : arg2.IsWhole) (arg3 : Memref sig .tc .vmem S8x128 .f32) (harg3 : arg3.IsWhole) (hc0 : cond0_0 i)
    (x0 : Vec F S32x16x2048 .f32) (x1 : Vec F S32x16 .i32) : Vec F S8x128 .f32 :=
  VO0_2.read (Elt F) (VO0_2.writes (Elt F) VO0_2.junk (kernelRun0_A c i arg1 harg1 arg2 harg2 arg3 harg3 hc0 x0 x1).1)

/-- In the second case the one store covers the whole block. -/
theorem cover0_B_2 (c : Dev nD) (i : grid0.Coords) (arg1 : Memref sig .tc .vmem S32x16x2048 .f32) (harg1 : arg1.IsWhole) (arg2 : Memref sig .tc .vmem S32x16 .i32) (harg2 : arg2.IsWhole) (arg3 : Memref sig .tc .vmem S8x128 .f32) (harg3 : arg3.IsWhole) (hc0 : ¬cond0_0 i)
    (x0 : Vec F S32x16x2048 .f32) (x1 : Vec F S32x16 .i32) (xo2 : Vec F S8x128 .f32) (y : S8x128.Idx) :
    ∃ pc ∈ (kernelRun0_B c i arg1 harg1 arg2 harg2 arg3 harg3 hc0 x0 x1 xo2).1, y ∈ pc.1.set :=
  View.cover_of_tiledL (kernelRun0_B c i arg1 harg1 arg2 harg2 arg3 harg3 hc0 x0 x1 xo2).1 S8x128.size (by sl_kernel_rfl) y

/-- What the second case leaves in the output's staging buffer: its pieces read back over junk. -/
def out0_B_2 (c : Dev nD) (i : grid0.Coords) (arg1 : Memref sig .tc .vmem S32x16x2048 .f32) (harg1 : arg1.IsWhole) (arg2 : Memref sig .tc .vmem S32x16 .i32) (harg2 : arg2.IsWhole) (arg3 : Memref sig .tc .vmem S8x128 .f32) (harg3 : arg3.IsWhole) (hc0 : ¬cond0_0 i)
    (x0 : Vec F S32x16x2048 .f32) (x1 : Vec F S32x16 .i32) (xo2 : Vec F S8x128 .f32) : Vec F S8x128 .f32 :=
  VO0_2.read (Elt F) (VO0_2.writes (Elt F) VO0_2.junk (kernelRun0_B c i arg1 harg1 arg2 harg2 arg3 harg3 hc0 x0 x1 xo2).1)

/-! ## What the output holds after each point -/

/-- The accumulation: the output's staging buffer after the body at position `n` holds the first case's contents where
    the position is a multiple of the grid's length, and otherwise the second case's over what position `n - 1` left
    (the buffer is not written back in between). -/
def outsAt0 (c : Dev nD) : (n : ℕ) → n < cfg0.N → Vec F S8x128 .f32
  | 0, hn => out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk m c 0 ⟨0, hn⟩) (iblk m c 1 ⟨0, hn⟩)
  | n + 1, hn =>
    if h0 : (n + 1) % 64 = 0 then
      out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk m c 0 ⟨n + 1, hn⟩) (iblk m c 1 ⟨n + 1, hn⟩)
    else
      out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn))

/-- `outsAt0` at a point of the first case. -/
theorem outsAt0_A (c : Dev nD) (t : Fin cfg0.N) (h0 : t.val % 64 = 0) :
    outsAt0 m c t.val t.isLt = out0_A_2 c (grid0.coords t) (ms0_0 t) (hs0_0 t) (ms0_1 t) (hs0_1 t) (ms0_2 t) (hs0_2 t) ((hcond0_0 t).mpr h0) (iblk m c 0 t) (iblk m c 1 t) := by
  obtain ⟨n, hn⟩ := t
  cases n with
  | zero => exact rfl
  | succ n => exact (dif_pos h0).trans rfl

/-- `outsAt0` at a point of the second case: over what the point before left. -/
theorem outsAt0_B (c : Dev nD) (t : Fin cfg0.N) (h0 : ¬t.val % 64 = 0) :
    outsAt0 m c t.val t.isLt = out0_B_2 c (grid0.coords t) (ms0_0 t) (hs0_0 t) (ms0_1 t) (hs0_1 t) (ms0_2 t) (hs0_2 t) (fun h => h0 ((hcond0_0 t).mp h)) (iblk m c 0 t) (iblk m c 1 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them; after the body at point `t`
    each input's buffer at its block and the output's at `outsAt0`; the invariant the generator register and the
    (empty) scoped rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At a point of the second case the output's staging buffer holds what the body left at the point before: the point
    is not the first, and the buffer is written back at the last point only. -/
theorem before0_2_B (c : Dev nD) (t : Fin cfg0.N) (h0 : ¬t.val % 64 = 0) (d) :
    (dats m 0 c).before 2 t d = (outsAt0 m c (t.val - 1) (Nat.lt_of_le_of_lt (Nat.sub_le _ _) t.isLt)) := by
  have hN : t.val < 64 := lt_of_lt_of_eq t.isLt (show cfg0.N = 64 from N_0)
  rw [Dat.before_out_kept _ 2 rfl t (by omega) (Bool.eq_false_iff.mpr fun h => by have := (flush0_2 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 800000 in
/-- The body at any point: the inputs' memrefs hold their blocks; the closed form of the condition says which case the
    point is in; in the second case the output's memref holds what the point before left; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  have hN : t.val < 64 := lt_of_lt_of_eq t.isLt (show cfg0.N = 64 from N_0)
  by_cases h0 : t.val % 64 = 0
  · rw [outsAt0_A m c t h0]
    unfold out0_A_2
    iintro ⟨HΦ, Ho, ⟨%d0, H0⟩, ⟨%d1, H1⟩, ⟨%d2, H2⟩⟩
    iapply ((kernelRun0_A c (grid0.coords t) _ _ _ _ _ _ ((hcond0_0 t).mpr h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _)
  · rw [outsAt0_B m c t h0]
    simp only [before0_2_B m c t h0]
    unfold out0_B_2
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main on the TensorCores terminates, and every final
    state has each array of the pipeline at what the library computes from the proof data and every other unscoped buffer
    at what the later lines leave from the region's exit. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame claim of the word-level kernel program, at any float instance: @main runs and its four argument arrays end
    as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Hand

end
-- ==== Proof.KFrameBase.lean ====
/- The frame of the idealized kernel program, first part: the host lines around the one region, the
   region-entry contents, the windows' blocks, the branch condition of the body in closed form, and the
   passage from the library's frame post to the claim that the four argument arrays end unchanged. -/
import proofs.«429960_j51273319580286_4_alg».proof.Proof.Gen.KernelIdeal.Launch
import proofs.«429960_j51273319580286_4_alg».proof.Proof.Gen.KernelIdeal.Skeleton
import proofs.«429960_j51273319580286_4_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- The stretches of host operations that follow the region, in order. -/
abbrev tailOps : List (List (HloOp τ sig (Elt F))) :=
  [hostOps1, hostOps1_1, hostOps1_2, hostOps1_3, hostOps1_4, hostOps1_5, hostOps1_6]

/-- The contents of core `c`'s buffers when the region is entered: the launch contents after the one reshape
    that precedes it. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- A property of every operation of every stretch, read element by element. -/
theorem forall₂_of {α : Type} {p : α → Prop} {L : List (List α)} (h : L.Forall fun l => l.Forall p) :
    ∀ l ∈ L, ∀ a ∈ l, p a :=
  fun l hl a ha => List.forall_iff_forall_mem.mp (List.forall_iff_forall_mem.mp h l hl) a ha

/-- The references whose contents the lines after the region must leave alone: the four arguments and the
    two arrays the region stages besides. -/
abbrev kept : List (Ref sig .tc) := [main_arg0, main_arg1, main_arg2, main_arg3, main_v0, main_v1]

/-- An operation whose only written buffer is `y` writes no reference of a list that omits `y`. -/
theorem not_writes_of {op : HloOp τ sig (Elt F)} {y : Ref sig .tc} (hw : op.writes = {Proc.devRef .tc y})
    (L : List (Ref sig .tc)) (hy : y ∉ L) : ∀ r ∈ L, Proc.devRef (τ := τ) .tc r ∉ op.writes := fun r hr h => by
  rw [hw, Finset.mem_singleton] at h
  exact hy (Proc.devRef_injective _ h ▸ hr)

/-- No operation of this stretch allocates. -/
theorem hostOps1_fresh : (hostOps1 : List (HloOp τ sig (Elt F))).Forall fun op => op.fresh = ∅ :=
  ⟨rfl, rfl, rfl, rfl, rfl, rfl, rfl, rfl⟩
/-- Each operation of this stretch writes its own result buffer only, which is none of the kept references. -/
theorem hostOps1_kept : (hostOps1 : List (HloOp τ sig (Elt F))).Forall fun op => ∀ r ∈ kept, Proc.devRef (τ := τ) .tc r ∉ op.writes := by
  refine ⟨?_, ?_, ?_, ?_, ?_, ?_, ?_, ?_⟩ <;> exact not_writes_of rfl _ (by decide)
/-- No operation of this stretch allocates. -/
theorem hostOps1_1_fresh : (hostOps1_1 : List (HloOp τ sig (Elt F))).Forall fun op => op.fresh = ∅ :=
  ⟨rfl, rfl, rfl, rfl, rfl, rfl, rfl, rfl, rfl, rfl, rfl, rfl, rfl, rfl, rfl, rfl⟩
/-- Each operation of this stretch writes its own result buffer only, which is none of the kept references. -/
theorem hostOps1_1_kept : (hostOps1_1 : List (HloOp τ sig (Elt F))).Forall fun op => ∀ r ∈ kept, Proc.devRef (τ := τ) .tc r ∉ op.writes := by
  refine ⟨?_, ?_, ?_, ?_, ?_, ?_, ?_, ?_, ?_, ?_, ?_, ?_, ?_, ?_, ?_, ?_⟩ <;> exact not_writes_of rfl _ (by decide)
/-- No operation of this stretch allocates. -/
theorem hostOps1_2_fresh : (hostOps1_2 : List (HloOp τ sig (Elt F))).Forall fun op => op.fresh = ∅ :=
  ⟨rfl, rfl, rfl, rfl, rfl⟩
/-- Each operation of this stretch writes its own result buffer only, which is none of the kept references. -/
theorem hostOps1_2_kept : (hostOps1_2 : List (HloOp τ sig (Elt F))).Forall fun op => ∀ r ∈ kept, Proc.devRef (τ := τ) .tc r ∉ op.writes := by
  refine ⟨?_, ?_, ?_, ?_, ?_⟩ <;> exact not_writes_of rfl _ (by decide)
/-- No operation of this stretch allocates. -/
theorem hostOps1_3_fresh : (hostOps1_3 : List (HloOp τ sig (Elt F))).Forall fun op => op.fresh = ∅ :=
  ⟨rfl, rfl, rfl, rfl, rfl, rfl, rfl, rfl, rfl, rfl, rfl, rfl, rfl, rfl, rfl, rfl⟩
/-- Each operation of this stretch writes its own result buffer only, which is none of the kept references. -/
theorem hostOps1_3_kept : (hostOps1_3 : List (HloOp τ sig (Elt F))).Forall fun op => ∀ r ∈ kept, Proc.devRef (τ := τ) .tc r ∉ op.writes := by
  refine ⟨?_, ?_, ?_, ?_, ?_, ?_, ?_, ?_, ?_, ?_, ?_, ?_, ?_, ?_, ?_, ?_⟩ <;> exact not_writes_of rfl _ (by decide)
/-- No operation of this stretch allocates. -/
theorem hostOps1_4_fresh : (hostOps1_4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- Each operation of this stretch writes its own result buffer only, which is none of the kept references. -/
theorem hostOps1_4_kept : (hostOps1_4 : List (HloOp τ sig (Elt F))).Forall fun op => ∀ r ∈ kept, Proc.devRef (τ := τ) .tc r ∉ op.writes := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact not_writes_of rfl _ (by decide)
/-- No operation of this stretch allocates. -/
theorem hostOps1_5_fresh : (hostOps1_5 : List (HloOp τ sig (Elt F))).Forall fun op => op.fresh = ∅ :=
  ⟨rfl, rfl⟩
/-- Each operation of this stretch writes its own result buffer only, which is none of the kept references. -/
theorem hostOps1_5_kept : (hostOps1_5 : List (HloOp τ sig (Elt F))).Forall fun op => ∀ r ∈ kept, Proc.devRef (τ := τ) .tc r ∉ op.writes := by
  refine ⟨?_, ?_⟩ <;> exact not_writes_of rfl _ (by decide)
/-- No operation of this stretch allocates. -/
theorem hostOps1_6_fresh : (hostOps1_6 : List (HloOp τ sig (Elt F))).Forall fun op => op.fresh = ∅ :=
  ⟨rfl, rfl, rfl⟩
/-- Each operation of this stretch writes its own result buffer only, which is none of the kept references. -/
theorem hostOps1_6_kept : (hostOps1_6 : List (HloOp τ sig (Elt F))).Forall fun op => ∀ r ∈ kept, Proc.devRef (τ := τ) .tc r ∉ op.writes := by
  refine ⟨?_, ?_, ?_⟩ <;> exact not_writes_of rfl _ (by decide)

theorem tail_sub : (tailOps : List (List (HloOp τ sig (Elt F)))).Forall fun ops => ops.Forall fun op => op.bufs ⊆ StableHlo.tcRefs τ sig :=
  ⟨hostOps1_sub, hostOps1_1_sub, hostOps1_2_sub, hostOps1_3_sub, hostOps1_4_sub, hostOps1_5_sub, hostOps1_6_sub⟩
theorem tail_fresh : (tailOps : List (List (HloOp τ sig (Elt F)))).Forall fun ops => ops.Forall fun op => op.fresh = ∅ :=
  ⟨hostOps1_fresh, hostOps1_1_fresh, hostOps1_2_fresh, hostOps1_3_fresh, hostOps1_4_fresh, hostOps1_5_fresh, hostOps1_6_fresh⟩
theorem tail_kept : (tailOps : List (List (HloOp τ sig (Elt F)))).Forall fun ops => ops.Forall fun op => ∀ r ∈ kept, Proc.devRef (τ := τ) .tc r ∉ op.writes :=
  ⟨hostOps1_kept, hostOps1_1_kept, hostOps1_2_kept, hostOps1_3_kept, hostOps1_4_kept, hostOps1_5_kept, hostOps1_6_kept⟩

/-- @main is the reshape, the region, then the later stretches: it reduces to the region continued by them, at the
    contents after the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps hostOps0_sub rfl main_chain

/-- The later lines touch unscoped TensorCore buffers only; nothing being prefetched, each such buffer is an array of
    the pipeline or one that bypasses the region. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  exact fun ops hops op hop => Pipeline.sub_ucRefs op (forall₂_of tail_sub ops hops op hop)
/-- They allocate nothing. -/
theorem sfx_fresh : ∀ ops ∈ (tailOps : List (List (HloOp τ sig (Elt F)))), ∀ op ∈ ops, op.fresh = ∅ :=
  forall₂_of tail_fresh
/-- They write no array of the pipeline: the three arrays are kept references. -/
theorem sfx_keeps : ∀ ops ∈ (tailOps : List (List (HloOp τ sig (Elt F)))), ∀ op ∈ ops,
    ∀ w, Proc.devRef .tc (Pipeline.arrRef spec0 w) ∉ op.writes := fun ops hops op hop w =>
  forall₂_of tail_kept ops hops op hop (Pipeline.arrRef spec0 w) (by fin_cases w <;> decide)

/-- The reshape before the region writes its own result only: an argument array is as launched when the region is entered. -/
theorem V_of_ne (c : Dev nD) (r : Ref sig .tc) (hr : r ≠ main_v0) : V m c r = m ((c : Thread nD τ).loc r) :=
  StableHlo.after_of_forall_not_mem _ _ fun op hop h => by
    simp only [List.flatten_cons, List.flatten_nil, List.append_nil, List.mem_singleton] at hop
    subst hop
    rw [StableHlo.reshape_writes, Finset.mem_singleton] at h
    exact hr (Proc.devRef_injective _ h)
theorem V_main_arg0 (c : Dev nD) : V m c main_arg0 = m ((c : Thread nD τ).loc main_arg0) := V_of_ne m c _ (by decide)
theorem V_main_arg1 (c : Dev nD) : V m c main_arg1 = m ((c : Thread nD τ).loc main_arg1) := V_of_ne m c _ (by decide)
theorem V_main_arg2 (c : Dev nD) : V m c main_arg2 = m ((c : Thread nD τ).loc main_arg2) := V_of_ne m c _ (by decide)
theorem V_main_arg3 (c : Dev nD) : V m c main_arg3 = m ((c : Thread nD τ).loc main_arg3) := V_of_ne m c _ (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is the
    region-entry contents and whose body leaves the block in place: window 0. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same of window 1. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The condition of the body's one conditional, from the grid coordinate. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 64 = 0 :=
  (by decide +kernel : ∀ t : Fin grid0.N, cond0_0 (grid0.coords t) ↔ t.val % 64 = 0)

/-! ## The staging memrefs -/

/-- The output window's one staging buffer, as a view: its contents are stated through it. -/
abbrev VO0_2 : View sig .tc .vmem S8x128 .f32 := (Memref.whole cc0_stg2_0 : Memref sig .tc .vmem S8x128 .f32).view
/-- Each window's current staging memref at point `t`, spelled as the pipeline passes it, and its wholeness. -/
abbrev ms0_0 (t : Fin cfg0.N) : Memref sig .tc .vmem S32x16x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x16 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128 .f32 := win0_2.stage (cfg0.slots t 2)
abbrev hs0_2 (t : Fin cfg0.N) : (ms0_2 t).IsWhole := hstage0_2 ((cfg0.slots t 2).cast nbuf0_2)

/-! ## From the frame run's post to the claim -/

/-- An argument array that bypasses the region and that no later line writes holds, after those lines, what it held at launch. -/
theorem afterTail_arg (dats : (p : Fin 1) → (c : Dev nD) → Dat τ (Elt F) Unit ℕ (UR sig nD τ) ℕ (cfgs p) c) (c : Dev nD)
    (r : Ref sig .tc) (hk : r ∈ kept) (ha : ∀ w, Pipeline.arrRef spec0 w ≠ r) (hv : r ≠ main_v0) :
    Pipeline.afterTail₀ cfgs dats 0 (V0 m) tailOps c r = m ((c.tc : Thread nD τ).loc r) := by
  unfold Pipeline.afterTail₀
  rw [StableHlo.after_of_forall_not_mem _ _ fun op hop => ?_, Pipeline.withArrays_of_ne _ c (V0 m c) _ r ha]
  · exact V_of_ne m c r hv
  · obtain ⟨ops, hops, hop'⟩ := List.mem_flatten.mp hop
    exact forall₂_of tail_kept ops hops op hop' r hk

/-- From a run to the library's frame post, read after the later lines, to the claim's post: the region's input array
    `main_arg3` is as the region found it, which is as launched; the three arguments that bypass the region are written
    by no later line. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans
        (afterTail_arg m dats c main_arg0 (by decide) (by decide) (by decide)),
      ((h c).2 main_arg1 (Pipeline.mem_restRefs_of main_arg1 (by decide) (by decide))).trans
        (afterTail_arg m dats c main_arg1 (by decide) (by decide) (by decide)),
      ((h c).2 main_arg2 (Pipeline.mem_restRefs_of main_arg2 (by decide) (by decide))).trans
        (afterTail_arg m dats c main_arg2 (by decide) (by decide) (by decide)),
      ((h c).1 1).trans (((dats 0 c).arrAt_in 1 rfl _).trans ((hA c 1).trans (V_main_arg3 m c)))⟩) h

end Cert.KernelIdeal.Hand

end
-- ==== Proof.KFrameRunA.lean ====
/- The body of the idealized kernel run whole in the case where its conditional is taken (the first grid point): the output block is reset, then accumulated into. The pieces the
   stores leave in the output's staging buffer are the witness the run finds. -/
import proofs.«429960_j51273319580286_4_alg».proof.Proof.KFrameBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the output's staging memref, as pieces (last first), in this case, with the proof
    that on whole staging memrefs — the two inputs' at their contents `x0`, `x1`, the output's at anything — the body
    runs to the continuation holding the inputs' as they were and the output's buffer with the pieces written. -/
noncomputable def kernelRun0_A (c : Dev nD) (i : grid0.Coords) (arg1 : Memref sig .tc .vmem S32x16x2048 .f32) (harg1 : arg1.IsWhole) (arg2 : Memref sig .tc .vmem S32x16 .i32) (harg2 : arg2.IsWhole) (arg3 : Memref sig .tc .vmem S8x128 .f32) (harg3 : arg3.IsWhole) (hc0 : cond0_0 i)
    (x0 : Vec F S32x16x2048 .f32) (x1 : Vec F S32x16 .i32) :
    { L2 : List (View.Piece (Elt F) S8x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc0__smooth_kernel i arg1 harg1 arg2 harg2 arg3 harg3) K } := by
  refine ⟨?_, fun E K => ?run⟩
  case run =>
    simp only [cc0__smooth_kernel_eq_skeleton]; unfold cc0__smooth_kernel_skel
    simp only [k0_part1_eq_skeleton]
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.KernelIdeal.Hand

end
-- ==== Proof.KFrameRunB.lean ====
/- The body of the idealized kernel run whole in the case where its conditional is not taken (every later grid point): the output block is accumulated into. The pieces the
   stores leave in the output's staging buffer are the witness the run finds. -/
import proofs.«429960_j51273319580286_4_alg».proof.Proof.KFrameRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the output's staging memref, as pieces (last first), in this case, with the proof
    that on whole staging memrefs — the two inputs' at their contents `x0`, `x1`, the output's at its running contents \`xo2\` — the body
    runs to the continuation holding the inputs' as they were and the output's buffer with the pieces written. -/
noncomputable def kernelRun0_B (c : Dev nD) (i : grid0.Coords) (arg1 : Memref sig .tc .vmem S32x16x2048 .f32) (harg1 : arg1.IsWhole) (arg2 : Memref sig .tc .vmem S32x16 .i32) (harg2 : arg2.IsWhole) (arg3 : Memref sig .tc .vmem S8x128 .f32) (harg3 : arg3.IsWhole) (hc0 : ¬cond0_0 i)
    (x0 : Vec F S32x16x2048 .f32) (x1 : Vec F S32x16 .i32) (xo2 : Vec F S8x128 .f32) :
    { L2 : List (View.Piece (Elt F) S8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare xo2
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc0__smooth_kernel i arg1 harg1 arg2 harg2 arg3 harg3) K } := by
  refine ⟨?_, fun E K => ?run⟩
  case run =>
    simp only [cc0__smooth_kernel_eq_skeleton]; unfold cc0__smooth_kernel_skel
    simp only [k0_part1_eq_skeleton]
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.KernelIdeal.Hand

end
-- ==== Proof.KFrame.lean ====
/- The frame of the idealized kernel program, last part: what the output's staging buffer holds after each grid
   point (reset and accumulated at the first, accumulated at every later one), the pipeline's proof data, the body
   obligation at a generic point, the run of @main to the library's frame post, and the frame claim. -/
import proofs.«429960_j51273319580286_4_alg».proof.Proof.KFrameRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output's staging buffer -/

/-- In the first case the two stores each cover the whole block, so the pieces cover it. -/
theorem cover0_A_2 (c : Dev nD) (i : grid0.Coords) (arg1 : Memref sig .tc .vmem S32x16x2048 .f32) (harg1 : arg1.IsWhole) (arg2 : Memref sig .tc .vmem S32x16 .i32) (harg2 : arg2.IsWhole) (arg3 : Memref sig .tc .vmem S8x128 .f32) (harg3 : arg3.IsWhole) (hc0 : cond0_0 i)
    (x0 : Vec F S32x16x2048 .f32) (x1 : Vec F S32x16 .i32) (y : S8x128.Idx) :
    ∃ pc ∈ (kernelRun0_A c i arg1 harg1 arg2 harg2 arg3 harg3 hc0 x0 x1).1, y ∈ pc.1.set :=
  View.cover_of_tiledL (kernelRun0_A c i arg1 harg1 arg2 harg2 arg3 harg3 hc0 x0 x1).1 S8x128.size (by sl_kernel_rfl) y

/-- What the first case leaves in the output's staging buffer: its pieces read back over junk. -/
def out0_A_2 (c : Dev nD) (i : grid0.Coords) (arg1 : Memref sig .tc .vmem S32x16x2048 .f32) (harg1 : arg1.IsWhole) (arg2 : Memref sig .tc .vmem S32x16 .i32) (harg2 : arg2.IsWhole) (arg3 : Memref sig .tc .vmem S8x128 .f32) (harg3 : arg3.IsWhole) (hc0 : cond0_0 i)
    (x0 : Vec F S32x16x2048 .f32) (x1 : Vec F S32x16 .i32) : Vec F S8x128 .f32 :=
  VO0_2.read (Elt F) (VO0_2.writes (Elt F) VO0_2.junk (kernelRun0_A c i arg1 harg1 arg2 harg2 arg3 harg3 hc0 x0 x1).1)

/-- In the second case the one store covers the whole block. -/
theorem cover0_B_2 (c : Dev nD) (i : grid0.Coords) (arg1 : Memref sig .tc .vmem S32x16x2048 .f32) (harg1 : arg1.IsWhole) (arg2 : Memref sig .tc .vmem S32x16 .i32) (harg2 : arg2.IsWhole) (arg3 : Memref sig .tc .vmem S8x128 .f32) (harg3 : arg3.IsWhole) (hc0 : ¬cond0_0 i)
    (x0 : Vec F S32x16x2048 .f32) (x1 : Vec F S32x16 .i32) (xo2 : Vec F S8x128 .f32) (y : S8x128.Idx) :
    ∃ pc ∈ (kernelRun0_B c i arg1 harg1 arg2 harg2 arg3 harg3 hc0 x0 x1 xo2).1, y ∈ pc.1.set :=
  View.cover_of_tiledL (kernelRun0_B c i arg1 harg1 arg2 harg2 arg3 harg3 hc0 x0 x1 xo2).1 S8x128.size (by sl_kernel_rfl) y

/-- What the second case leaves in the output's staging buffer: its pieces read back over junk. -/
def out0_B_2 (c : Dev nD) (i : grid0.Coords) (arg1 : Memref sig .tc .vmem S32x16x2048 .f32) (harg1 : arg1.IsWhole) (arg2 : Memref sig .tc .vmem S32x16 .i32) (harg2 : arg2.IsWhole) (arg3 : Memref sig .tc .vmem S8x128 .f32) (harg3 : arg3.IsWhole) (hc0 : ¬cond0_0 i)
    (x0 : Vec F S32x16x2048 .f32) (x1 : Vec F S32x16 .i32) (xo2 : Vec F S8x128 .f32) : Vec F S8x128 .f32 :=
  VO0_2.read (Elt F) (VO0_2.writes (Elt F) VO0_2.junk (kernelRun0_B c i arg1 harg1 arg2 harg2 arg3 harg3 hc0 x0 x1 xo2).1)

/-! ## What the output holds after each point -/

/-- The accumulation: the output's staging buffer after the body at position `n` holds the first case's contents where
    the position is a multiple of the grid's length, and otherwise the second case's over what position `n - 1` left
    (the buffer is not written back in between). -/
def outsAt0 (c : Dev nD) : (n : ℕ) → n < cfg0.N → Vec F S8x128 .f32
  | 0, hn => out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk m c 0 ⟨0, hn⟩) (iblk m c 1 ⟨0, hn⟩)
  | n + 1, hn =>
    if h0 : (n + 1) % 64 = 0 then
      out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk m c 0 ⟨n + 1, hn⟩) (iblk m c 1 ⟨n + 1, hn⟩)
    else
      out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn))

/-- `outsAt0` at a point of the first case. -/
theorem outsAt0_A (c : Dev nD) (t : Fin cfg0.N) (h0 : t.val % 64 = 0) :
    outsAt0 m c t.val t.isLt = out0_A_2 c (grid0.coords t) (ms0_0 t) (hs0_0 t) (ms0_1 t) (hs0_1 t) (ms0_2 t) (hs0_2 t) ((hcond0_0 t).mpr h0) (iblk m c 0 t) (iblk m c 1 t) := by
  obtain ⟨n, hn⟩ := t
  cases n with
  | zero => exact rfl
  | succ n => exact (dif_pos h0).trans rfl

/-- `outsAt0` at a point of the second case: over what the point before left. -/
theorem outsAt0_B (c : Dev nD) (t : Fin cfg0.N) (h0 : ¬t.val % 64 = 0) :
    outsAt0 m c t.val t.isLt = out0_B_2 c (grid0.coords t) (ms0_0 t) (hs0_0 t) (ms0_1 t) (hs0_1 t) (ms0_2 t) (hs0_2 t) (fun h => h0 ((hcond0_0 t).mp h)) (iblk m c 0 t) (iblk m c 1 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them; after the body at point `t`
    each input's buffer at its block and the output's at `outsAt0`; the invariant the generator register and the
    (empty) scoped rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At a point of the second case the output's staging buffer holds what the body left at the point before: the point
    is not the first, and the buffer is written back at the last point only. -/
theorem before0_2_B (c : Dev nD) (t : Fin cfg0.N) (h0 : ¬t.val % 64 = 0) (d) :
    (dats m 0 c).before 2 t d = (outsAt0 m c (t.val - 1) (Nat.lt_of_le_of_lt (Nat.sub_le _ _) t.isLt)) := by
  have hN : t.val < 64 := lt_of_lt_of_eq t.isLt (show cfg0.N = 64 from N_0)
  rw [Dat.before_out_kept _ 2 rfl t (by omega) (Bool.eq_false_iff.mpr fun h => by have := (flush0_2 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 800000 in
/-- The body at any point: the inputs' memrefs hold their blocks; the closed form of the condition says which case the
    point is in; in the second case the output's memref holds what the point before left; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  have hN : t.val < 64 := lt_of_lt_of_eq t.isLt (show cfg0.N = 64 from N_0)
  by_cases h0 : t.val % 64 = 0
  · rw [outsAt0_A m c t h0]
    unfold out0_A_2
    iintro ⟨HΦ, Ho, ⟨%d0, H0⟩, ⟨%d1, H1⟩, ⟨%d2, H2⟩⟩
    iapply ((kernelRun0_A c (grid0.coords t) _ _ _ _ _ _ ((hcond0_0 t).mpr h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _)
  · rw [outsAt0_B m c t h0]
    simp only [before0_2_B m c t h0]
    unfold out0_B_2
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main on the TensorCores terminates, and every final
    state has each array of the pipeline at what the library computes from the proof data and every other unscoped buffer
    at what the later lines leave from the region's exit. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame claim of the idealized kernel program, at any float instance: @main runs and its four argument arrays end
    as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Hand

end
-- ==== Proof.ClassLoss.lean ====
import proofs.«429960_j51273319580286_4_alg».proof.KernelIdeal
import proofs.«429960_j51273319580286_4_alg».proof.ReferenceIdeal
import Idealize.ShloMosaic.Lib.ValueIdx
import Idealize.ShloMosaic.Lib.IdealHost
import Idealize.ShloMosaic.Lib.Pipeline.Value
import Idealize.ShloMosaic.PureOps.Ideal.Laws

/-!
# The classification loss: one weighted cross-entropy sum written at two array shapes

Both programs compute, over 2048 × 16 entries with logit `x`, label `y` and weight `w`,

  `num = ∑ -(2·y·logσ(x) + (1 - y)·logσ(-x)) · w`   and   `den = ∑ w`,

where `logσ(x) = -softplus(-x)` and `softplus` is the numerically careful chain
`max(x,0) + log1p(exp(-|x - 0|))` guarded by a self-comparison of `x - 0`.
One program holds the entries in an array of shape [2048,16] (the logits reshaped from
[2048,16,1]); the other holds them in arrays of shape [2048,16,1] (labels and weights
broadcast along a new unit axis). Entry `(b,t,0)` of the second is entry `(b,t)` of the
first, so the terms agree index by index, and the two total sums agree because dropping the
unit axis is a bijection of index sets.
-/

noncomputable section

open Idealize.ShloMosaic Idealize.ShloMosaic.ValueIdx
open scoped BigOperators

namespace Cert.Hand

variable {F : FTy → Type} [FloatOps F]

/-- The scalar shape. -/
abbrev S0 : Shape := ⟨0, ![]⟩

/-- The softplus chain at any shape: with `z` the zero scalar broadcast to the shape and
    `d = x - z`, the value is `x + z` where `d ≠ d`, and `max x z + log1p (exp (-|d|))` elsewhere. -/
def softplus {s : Shape} (hb : S0.BroadcastsInDim s (![] : Fin 0 → Fin s.rank)) (x : FVec F s .f32) : FVec F s .f32 :=
  select
    (cmpf .une (subf x (broadcastInDim s ![] hb (constant S0 .f32 0x00000000#32)))
      (subf x (broadcastInDim s ![] hb (constant S0 .f32 0x00000000#32))))
    (addf x (broadcastInDim s ![] hb (constant S0 .f32 0x00000000#32)))
    (addf (maximumf x (broadcastInDim s ![] hb (constant S0 .f32 0x00000000#32)))
      (Host.log1p (Host.exp (Host.negf (Host.absf
        (subf x (broadcastInDim s ![] hb (constant S0 .f32 0x00000000#32))))))))

/-- The log-sigmoid chain at any shape: `logσ x = -softplus (-x)`. -/
def logSigmoid {s : Shape} (hb : S0.BroadcastsInDim s (![] : Fin 0 → Fin s.rank)) (x : FVec F s .f32) : FVec F s .f32 :=
  Host.negf (softplus hb (Host.negf x))

/-- Softplus of one extended real, as the chain computes it. -/
def softplus1 (y : EReal) : EReal :=
  Scalar.select (Ideal.cmp .une (y - 0) (y - 0)) (y + 0)
    (max y 0 + Ideal.log1p (Ideal.exp (-(max (y - 0) (-(y - 0))))))

/-- Log-sigmoid of one extended real. -/
def lsig1 (x : EReal) : EReal := -(softplus1 (-x))

/-- A host negation at an index negates the element. -/
theorem hostNegf_apply {s : Shape} (a : FVec Ideal s .f32) (i : s.Idx) : Host.negf a i = -(a i) := rfl

/-- A host absolute value at an index is the larger of the element and its negation. -/
theorem hostAbsf_apply {s : Shape} (a : FVec Ideal s .f32) (i : s.Idx) : Host.absf a i = max (a i) (-(a i)) := rfl

/-- A host exponential at an index is the exponential of the element. -/
theorem hostExp_apply {s : Shape} (a : FVec Ideal s .f32) (i : s.Idx) : Host.exp a i = Ideal.exp (a i) := rfl

/-- A host `log1p` at an index is `log (1 + ·)` of the element. -/
theorem hostLog1p_apply {s : Shape} (a : FVec Ideal s .f32) (i : s.Idx) : Host.log1p a i = Ideal.log1p (a i) := rfl

/-- The zero scalar broadcast to any shape reads `0` everywhere. -/
theorem zeroSplat_apply {s : Shape} (hb : S0.BroadcastsInDim s (![] : Fin 0 → Fin s.rank)) (i : s.Idx) :
    broadcastInDim s ![] hb (constant (F := Ideal) S0 .f32 0x00000000#32) i = (0 : EReal) := by
  rw [broadcastInDim_scalar_apply]
  exact Ideal.ofBits_zero_f32

/-- Any scalar constant broadcast to any shape reads the extended real its word encodes. -/
theorem splat_apply {s : Shape} (hb : S0.BroadcastsInDim s (![] : Fin 0 → Fin s.rank)) (c : BitVec 32) (i : s.Idx) :
    broadcastInDim s ![] hb (constant (F := Ideal) S0 .f32 c) i = Ideal.ofBits .f32 c := by
  rw [broadcastInDim_scalar_apply]
  rfl

/-- The softplus chain read at an index is the scalar softplus of the element. -/
theorem softplus_apply {s : Shape} (hb : S0.BroadcastsInDim s (![] : Fin 0 → Fin s.rank)) (x : FVec Ideal s .f32)
    (i : s.Idx) : softplus hb x i = softplus1 (x i) := by
  unfold softplus softplus1
  simp only [select_apply, cmpf_apply, subf_apply, addf_apply, maximumf_apply, hostLog1p_apply, hostExp_apply,
    hostNegf_apply, hostAbsf_apply, zeroSplat_apply]
  rfl

/-- The log-sigmoid chain read at an index is the scalar log-sigmoid of the element. -/
theorem logSigmoid_apply {s : Shape} (hb : S0.BroadcastsInDim s (![] : Fin 0 → Fin s.rank)) (x : FVec Ideal s .f32)
    (i : s.Idx) : logSigmoid hb x i = lsig1 (x i) := by
  unfold logSigmoid lsig1
  rw [hostNegf_apply, softplus_apply, hostNegf_apply]

end Cert.Hand

namespace Cert.KernelIdeal.Hand

open Cert.KernelIdeal Cert.KernelIdeal.Facts₀ Cert.Hand

variable {F : FTy → Type} [FloatOps F] [Cert.KernelIdeal.Facts]

/-- The weighted cross-entropy term over arrays of shape [2048,16]: the logits `a0` reshaped from
    [2048,16,1], the labels `a2` and the weights `a3` converted to floats;
    `-(2·y·logσ x + (1 - y)·logσ (-x)) · w` entry by entry. -/
def bceK (a0 : FVec F S2048x16x1 .f32) (a2 a3 : IVec S2048x16 32) : FVec F S2048x16 .f32 :=
  mulf
    (Host.negf
      (addf
        (mulf
          (mulf (broadcastInDim S2048x16 ![] bcast_S_S2048x16 (constant S_ .f32 0x40000000#32))
            (sitofp .f32 a2 : FVec F S2048x16 .f32))
          (logSigmoid bcast_S_S2048x16 (shapeCast S2048x16 a0 shapeCasts_S2048x16x1_S2048x16)))
        (mulf
          (subf (broadcastInDim S2048x16 ![] bcast_S_S2048x16 (constant S_ .f32 0x3F800000#32))
            (sitofp .f32 a2 : FVec F S2048x16 .f32))
          (logSigmoid bcast_S_S2048x16 (Host.negf (shapeCast S2048x16 a0 shapeCasts_S2048x16x1_S2048x16))))))
    (sitofp .f32 a3 : FVec F S2048x16 .f32)

end Cert.KernelIdeal.Hand

namespace Cert.ReferenceIdeal.Hand

open Cert.ReferenceIdeal Cert.ReferenceIdeal.Facts₀ Cert.Hand

variable {F : FTy → Type} [FloatOps F] [Cert.ReferenceIdeal.Facts]

/-- The same term over arrays of shape [2048,16,1]: the logits `a0` as they are, the labels and the weights
    converted to floats and broadcast along the new unit axis. -/
def bceR (a0 : FVec F S2048x16x1 .f32) (a2 a3 : IVec S2048x16 32) : FVec F S2048x16x1 .f32 :=
  mulf
    (Host.negf
      (addf
        (mulf
          (mulf (broadcastInDim S2048x16x1 ![] bcast_S_S2048x16x1 (constant S_ .f32 0x40000000#32))
            (broadcastInDim S2048x16x1 ![0, 1] bcast_S2048x16_S2048x16x1_0_1 (sitofp .f32 a2 : FVec F S2048x16 .f32)))
          (logSigmoid bcast_S_S2048x16x1 a0))
        (mulf
          (subf (broadcastInDim S2048x16x1 ![] bcast_S_S2048x16x1 (constant S_ .f32 0x3F800000#32))
            (broadcastInDim S2048x16x1 ![0, 1] bcast_S2048x16_S2048x16x1_0_1 (sitofp .f32 a2 : FVec F S2048x16 .f32)))
          (logSigmoid bcast_S_S2048x16x1 (Host.negf a0)))))
    (broadcastInDim S2048x16x1 ![0, 1] bcast_S2048x16_S2048x16x1_0_1 (sitofp .f32 a3 : FVec F S2048x16 .f32))

end Cert.ReferenceIdeal.Hand

namespace Cert.Hand

open Cert.KernelIdeal.Hand Cert.ReferenceIdeal.Hand

variable [Cert.KernelIdeal.Facts] [Cert.ReferenceIdeal.Facts]

/-- Entry `(b,t,0)` of a [2048,16] array broadcast along a new last unit axis is its entry `(b,t)`. -/
theorem bcastUnit_apply {α : Type}
    (h : Cert.ReferenceIdeal.S2048x16.BroadcastsInDim Cert.ReferenceIdeal.S2048x16x1 ![0, 1])
    (x : Cert.ReferenceIdeal.S2048x16.Idx → α) (b : Fin 2048) (t : Fin 16) (c : Fin 1) :
    broadcastInDim Cert.ReferenceIdeal.S2048x16x1 ![0, 1] h x (ix3 b t c) = x (ix2 b t) :=
  broadcastInDim_apply _ h x _ _ fun a => match a with
    | ⟨0, _⟩ => rfl
    | ⟨1, _⟩ => rfl

/-- Entry `(b,t)` of a [2048,16,1] array reshaped to [2048,16] is its entry `(b,t,0)`: both sit at
    row-major position `16·b + t`. -/
theorem dropUnit_apply {α : Type} (h : (⟨3, ![2048, 16, 1]⟩ : Shape).ShapeCasts ⟨2, ![2048, 16]⟩)
    (x : (⟨3, ![2048, 16, 1]⟩ : Shape).Idx → α) (b : Fin 2048) (t : Fin 16) :
    shapeCast ⟨2, ![2048, 16]⟩ x h (ix2 b t) = x (ix3 b t 0) :=
  shapeCast_apply x h _ _ (by rw [Shape.rowMajor_val_three, Shape.rowMajor_val_two]; simp)

/-- The term one entry contributes, from its logit `x`, label word `y` and weight word `w`:
    `-(2·y·logσ x + (1 - y)·logσ (-x)) · w`. -/
def bce1 (x : EReal) (y w : BitVec 32) : EReal :=
  -(Ideal.ofBits .f32 0x40000000#32 * FloatOps.sitofp (F := Ideal) .f32 y * lsig1 x
      + (Ideal.ofBits .f32 0x3F800000#32 - FloatOps.sitofp (F := Ideal) .f32 y) * lsig1 (-x))
    * FloatOps.sitofp (F := Ideal) .f32 w

/-- The [2048,16] array's entry `(b,t)` is the scalar term of logit `(b,t,0)`, label `(b,t)`, weight `(b,t)`. -/
theorem bceK_apply (a0 : FVec Ideal Cert.KernelIdeal.S2048x16x1 .f32) (a2 a3 : IVec Cert.KernelIdeal.S2048x16 32)
    (b : Fin 2048) (t : Fin 16) :
    bceK a0 a2 a3 (ix2 b t) = bce1 (a0 (ix3 b t 0)) (a2 (ix2 b t)) (a3 (ix2 b t)) := by
  unfold bceK bce1
  simp only [mulf_apply, addf_apply, subf_apply, hostNegf_apply, logSigmoid_apply, dropUnit_apply, sitofp_apply]
  rw [splat_apply, splat_apply]

/-- The [2048,16,1] array's entry `(b,t,0)` is the same scalar term. -/
theorem bceR_apply (a0 : FVec Ideal Cert.ReferenceIdeal.S2048x16x1 .f32) (a2 a3 : IVec Cert.ReferenceIdeal.S2048x16 32)
    (b : Fin 2048) (t : Fin 16) :
    bceR a0 a2 a3 (ix3 b t 0) = bce1 (a0 (ix3 b t 0)) (a2 (ix2 b t)) (a3 (ix2 b t)) := by
  unfold bceR bce1
  simp only [mulf_apply, addf_apply, subf_apply, hostNegf_apply, logSigmoid_apply]
  rw [splat_apply, splat_apply, bcastUnit_apply, bcastUnit_apply]
  rfl

/-- Entry by entry the two arrays hold the same term. -/
theorem bce_apply (a0 : FVec Ideal Cert.KernelIdeal.S2048x16x1 .f32) (a2 a3 : IVec Cert.KernelIdeal.S2048x16 32)
    (b : Fin 2048) (t : Fin 16) : bceR a0 a2 a3 (ix3 b t 0) = bceK a0 a2 a3 (ix2 b t) :=
  (bceR_apply a0 a2 a3 b t).trans (bceK_apply a0 a2 a3 b t).symm

/-- Dropping a last axis of extent one is a bijection of index sets. -/
def dropUnitEquiv {n0 n1 : Nat} : (⟨3, ![n0, n1, 1]⟩ : Shape).Idx ≃ (⟨2, ![n0, n1]⟩ : Shape).Idx where
  toFun i := ix2 (i 0) (i 1)
  invFun j := ix3 (j 0) (j 1) (0 : Fin 1)
  left_inv i := by
    funext a
    match a with
    | ⟨0, _⟩ => rfl
    | ⟨1, _⟩ => rfl
    | ⟨2, h⟩ =>
      refine Fin.ext ?_
      have h2 : (i ⟨2, h⟩).val < 1 := (i ⟨2, h⟩).isLt
      show 0 = (i ⟨2, h⟩).val
      omega
  right_inv j := (eq_ix2 j).symm

/-- So a sum over a [n0,n1,1] index set is the sum over the [n0,n1] one, when the terms agree at
    `(b,t,0)` and `(b,t)`. -/
theorem sum_dropUnit {M : Type} [AddCommMonoid M] {n0 n1 : Nat} (f : (⟨3, ![n0, n1, 1]⟩ : Shape).Idx → M)
    (g : (⟨2, ![n0, n1]⟩ : Shape).Idx → M) (h : ∀ (b : Fin n0) (t : Fin n1), f (ix3 b t 0) = g (ix2 b t)) :
    ∑ i, f i = ∑ j, g j :=
  (Fintype.sum_equiv dropUnitEquiv.symm g f fun j => by
    conv_lhs => rw [eq_ix2 j]
    exact (h (j 0) (j 1)).symm).symm

/-- THE NUMERATORS AGREE: the total of the [2048,16,1] array of terms is the total of the [2048,16] one. -/
theorem class_num_eq (a0 : FVec Ideal Cert.KernelIdeal.S2048x16x1 .f32) (a2 a3 : IVec Cert.KernelIdeal.S2048x16 32) :
    Host.reduceAdd (F := Ideal) (bceR a0 a2 a3) (constant (F := Ideal) Cert.ReferenceIdeal.S_ .f32 0x00000000#32)
        Cert.ReferenceIdeal.Facts₀.reducesTo_S2048x16x1_S_d0_1_2 Cert.ReferenceIdeal.Facts₀.h_S_
      = Host.reduceAdd (F := Ideal) (bceK a0 a2 a3) (constant (F := Ideal) Cert.KernelIdeal.S_ .f32 0x00000000#32)
        Cert.KernelIdeal.Facts₀.reducesTo_S2048x16_S_d0_1 Cert.KernelIdeal.Facts₀.h_S_ := by
  funext j
  rw [hostReduceAdd_apply, hostReduceAdd_apply, Ideal.hostReduceAdd_total _ (fun b => b.elim0),
    Ideal.hostReduceAdd_total _ (fun b => b.elim0)]
  exact congrArg (_ + ·) (sum_dropUnit _ _ (bce_apply a0 a2 a3))

/-- THE DENOMINATORS AGREE: the total of the weights broadcast along the unit axis is the total of the weights. -/
theorem class_den_eq (a3 : IVec Cert.KernelIdeal.S2048x16 32) :
    Host.reduceAdd (F := Ideal)
        (broadcastInDim Cert.ReferenceIdeal.S2048x16x1 ![0, 1] Cert.ReferenceIdeal.Facts₀.bcast_S2048x16_S2048x16x1_0_1
          (sitofp .f32 a3 : FVec Ideal Cert.ReferenceIdeal.S2048x16 .f32))
        (constant (F := Ideal) Cert.ReferenceIdeal.S_ .f32 0x00000000#32)
        Cert.ReferenceIdeal.Facts₀.reducesTo_S2048x16x1_S_d0_1_2 Cert.ReferenceIdeal.Facts₀.h_S_
      = Host.reduceAdd (F := Ideal) (sitofp .f32 a3 : FVec Ideal Cert.KernelIdeal.S2048x16 .f32)
        (constant (F := Ideal) Cert.KernelIdeal.S_ .f32 0x00000000#32)
        Cert.KernelIdeal.Facts₀.reducesTo_S2048x16_S_d0_1 Cert.KernelIdeal.Facts₀.h_S_ := by
  funext j
  rw [hostReduceAdd_apply, hostReduceAdd_apply, Ideal.hostReduceAdd_total _ (fun b => b.elim0),
    Ideal.hostReduceAdd_total _ (fun b => b.elim0)]
  exact congrArg (_ + ·) (sum_dropUnit _ _ fun b t => bcastUnit_apply _ _ b t 0)

end Cert.Hand
-- ==== Proof.Spec.lean ====
/-
  The specification of the smoothness term, on the extended reals, one pair of consecutive steps at a time.
  For scores `hi r` (step t+1) and `lo r` (step t) over the regions r, the penalty of region r is the square of
  the positive part of |hi r − lo r| − 0.2; a pair's penalty is the mean of these over the regions; the pair counts
  only when both steps' mask words, read as signed integers, exceed one half; and the weighted penalty is the product
  of the mean with that 0/1 indicator. Both programs compute, for each of the 15 pairs of steps, the sum over the
  2048 samples of the weighted penalty, and the number of samples whose pair counts.
-/
import Idealize.ShloMosaic.PureOps.Ideal
import Idealize.ShloMosaic.PureOps.Ideal.Laws
import Idealize.ShloMosaic.Lib.ValueIdx

noncomputable section

namespace Cert.Spec

open Idealize.ShloMosaic

/-- The penalty of one region between two consecutive scores `a` (later) and `b` (earlier): the square of the
    positive part of |a − b| − 0.2 (the threshold and the zero as their binary patterns). -/
def pen (a b : EReal) : EReal :=
  max (max (a - b) (-(a - b)) - Ideal.ofBits .f32 0x3E4CCCCD#32) (Ideal.ofBits .f32 0x00000000#32)
    * max (max (a - b) (-(a - b)) - Ideal.ofBits .f32 0x3E4CCCCD#32) (Ideal.ofBits .f32 0x00000000#32)

/-- The mean over the regions of the penalties between a later row `hi` and an earlier row `lo` of scores: their sum
    divided by 2048 (the divisor as its binary pattern). -/
def penMean {R : ℕ} (hi lo : Fin R → EReal) : EReal :=
  Ideal.div (∑ r : Fin R, pen (hi r) (lo r)) (Ideal.ofBits .f32 0x45000000#32)

/-- A mask word counts as valid when, read as a signed integer, it exceeds one half. -/
def valid (v : BitVec 32) : BitVec 1 :=
  Ideal.cmp .ogt (((v.toInt : ℝ) : EReal)) (Ideal.ofBits .f32 0x3F000000#32)

/-- A pair of consecutive steps counts when both steps are valid. -/
def pairValid (hi lo : BitVec 32) : BitVec 1 := valid hi &&& valid lo

/-- A truth bit as the number 0 or 1. -/
def bit (p : BitVec 1) : EReal := ((p.toNat : ℝ) : EReal)

/-- The weighted penalty of one sample at one pair of steps. -/
def weighted {R : ℕ} (hi lo : Fin R → EReal) (vhi vlo : BitVec 32) : EReal :=
  penMean hi lo * bit (pairValid vhi vlo)

end Cert.Spec

end
-- ==== Proof.Counts.lean ====
/-
  Three bridges between the two programs' host lines, on the extended reals.
  The pair mask: both programs compare the mask words of steps t+1 and t, read as signed integers, with one half
  and take the conjunction; the reference does so through a trailing unit axis, which changes no element.
  The per-step divisor: the larger of the count (as a real) and one is the real of the larger of the count and
  the integer one. The non-empty-step indicator: the count, as a real, exceeds zero exactly when the count
  exceeds zero as a signed integer.
-/
import proofs.«429960_j51273319580286_4_alg».proof.KernelIdeal
import proofs.«429960_j51273319580286_4_alg».proof.ReferenceIdeal
import proofs.«429960_j51273319580286_4_alg».proof.Proof.Spec
import Idealize.ShloMosaic.Lib.ValueLayout
import Idealize.ShloMosaic.Lib.ValueIdx
import Idealize.ShloMosaic.Lib.Pipeline.Value
import Idealize.ShloMosaic.Lib.IdealHost
import Idealize.ShloMosaic.PureOps.Ideal
import Idealize.ShloMosaic.PureOps.Ideal.Laws

noncomputable section

/-! ## The pair mask as each program writes it -/

namespace Cert.KernelIdeal.Hand

open Cert.KernelIdeal Idealize.ShloMosaic
open Facts₀ Facts

variable {F : FTy → Type} [FloatOps F] [Facts]

/-- The kernel program's pair mask over the mask words: step t+1 and step t, each converted and compared with one
    half, and the conjunction of the two. -/
def maskK (a3 : IVec S2048x16 32) : IVec S2048x15 1 :=
  andi
    (cmpf .ogt
      (extractStridedSlice S2048x15 ![0, 1] (sitofp .f32 a3 : FVec F S2048x16 .f32) slices_S2048x16_S2048x15_0_1)
      (broadcastInDim S2048x15 ![] bcast_S_S2048x15 (constant (F := F) S_ .f32 0x3F000000#32)))
    (cmpf .ogt
      (extractStridedSlice S2048x15 ![0, 0] (sitofp .f32 a3 : FVec F S2048x16 .f32) slices_S2048x16_S2048x15_0_0)
      (broadcastInDim S2048x15 ![] bcast_S_S2048x15 (constant (F := F) S_ .f32 0x3F000000#32)))

end Cert.KernelIdeal.Hand

namespace Cert.ReferenceIdeal.Hand

open Cert.ReferenceIdeal Idealize.ShloMosaic
open Facts₀ Facts

variable {F : FTy → Type} [FloatOps F] [Facts]

/-- The reference's pair mask over the mask words: the converted words with a trailing unit axis, the slices of
    steps t+1 and t with that axis dropped again, each compared with one half, and the conjunction of the two. -/
def maskR (a3 : IVec S2048x16 32) : IVec S2048x15 1 :=
  andi
    (cmpf .ogt
      (fun i => shapeCast S2048x15
        (extractStridedSlice S2048x15x1 ![0, 1, 0]
          (broadcastInDim S2048x16x1 ![0, 1] bcast_S2048x16_S2048x16x1_0_1 (sitofp .f32 a3 : FVec F S2048x16 .f32))
          slices_S2048x16x1_S2048x15x1_0_1_0)
        shapeCasts_S2048x15x1_S2048x15 i)
      (broadcastInDim S2048x15 ![] bcast_S_S2048x15 (constant (F := F) S_ .f32 0x3F000000#32)))
    (cmpf .ogt
      (fun i => shapeCast S2048x15
        (extractStridedSlice S2048x15x1 ![0, 0, 0]
          (broadcastInDim S2048x16x1 ![0, 1] bcast_S2048x16_S2048x16x1_0_1 (sitofp .f32 a3 : FVec F S2048x16 .f32))
          slices_S2048x16x1_S2048x15x1_0_0_0)
        shapeCasts_S2048x15x1_S2048x15 i)
      (broadcastInDim S2048x15 ![] bcast_S_S2048x15 (constant (F := F) S_ .f32 0x3F000000#32)))

end Cert.ReferenceIdeal.Hand

namespace Cert.Hand

open Idealize.ShloMosaic Idealize.ShloMosaic.ValueIdx
open Cert.KernelIdeal.Hand Cert.ReferenceIdeal.Hand

/-! ## Index readings -/

/-- Dropping a trailing unit axis changes no element: position (i, j) of the result is position (i, j, 0). -/
theorem shapeCast_ab1_ab_apply {α : Type} {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- Adding a trailing unit axis changes no element: position (i, j, 0) of the result is position (i, j). -/
theorem bcast_ab_ab1_apply {α : Type} {a b : ℕ} (ha : a ≠ 1) (hb : b ≠ 1) (x : (⟨2, ![a, b]⟩ : Shape).Idx → α)
    (h : (⟨2, ![a, b]⟩ : Shape).BroadcastsInDim ⟨3, ![a, b, 1]⟩ ![0, 1]) (i : Fin a) (j : Fin b) (u : Fin 1) :
    broadcastInDim ⟨3, ![a, b, 1]⟩ ![0, 1] h x (ix3 i j u) = x (ix2 i j) :=
  broadcastInDim_apply _ h x _ _ (fun ax => by
    match ax with
    | ⟨0, _⟩ => exact (if_neg ha).symm
    | ⟨1, _⟩ => exact (if_neg hb).symm)

/-! ## The pair mask, element by element -/

section Mask
variable [Cert.KernelIdeal.Facts] [Cert.ReferenceIdeal.Facts]

/-- The kernel program's pair mask at sample b and pair t is the specification's pair indicator of the mask words
    of steps t+1 and t. -/
theorem maskK_apply (a3 : IVec Cert.KernelIdeal.S2048x16 32) (b : Fin 2048) (t : Fin 15) :
    maskK (F := Ideal) a3 (ix2 b t) = Cert.Spec.pairValid (a3 (ix2 b t.succ)) (a3 (ix2 b t.castSucc)) := by
  have h1 := slice2_axis1_apply 1 (sitofp .f32 a3 : FVec Ideal Cert.KernelIdeal.S2048x16 .f32)
    Cert.KernelIdeal.Facts₀.slices_S2048x16_S2048x15_0_1 b t t.succ (by rw [Fin.val_succ, Nat.add_comm])
  have h0 := slice2_axis1_apply 0 (sitofp .f32 a3 : FVec Ideal Cert.KernelIdeal.S2048x16 .f32)
    Cert.KernelIdeal.Facts₀.slices_S2048x16_S2048x15_0_0 b t t.castSucc (by rw [Fin.val_castSucc, Nat.zero_add])
  unfold maskK
  show IntOp.andi (FloatOps.cmpf .ogt (extractStridedSlice _ _ _ _ (ix2 b t)) _)
    (FloatOps.cmpf .ogt (extractStridedSlice _ _ _ _ (ix2 b t)) _) = _
  rw [h1, h0]
  rfl

/-- The reference's pair mask at sample b and pair t is the same indicator. -/
theorem maskR_apply (a3 : IVec Cert.ReferenceIdeal.S2048x16 32) (b : Fin 2048) (t : Fin 15) :
    maskR (F := Ideal) a3 (ix2 b t) = Cert.Spec.pairValid (a3 (ix2 b t.succ)) (a3 (ix2 b t.castSucc)) := by
  have e1 : shapeCast Cert.ReferenceIdeal.S2048x15
      (extractStridedSlice Cert.ReferenceIdeal.S2048x15x1 ![0, 1, 0]
        (broadcastInDim Cert.ReferenceIdeal.S2048x16x1 ![0, 1] Cert.ReferenceIdeal.Facts₀.bcast_S2048x16_S2048x16x1_0_1
          (sitofp .f32 a3 : FVec Ideal Cert.ReferenceIdeal.S2048x16 .f32))
        Cert.ReferenceIdeal.Facts₀.slices_S2048x16x1_S2048x15x1_0_1_0)
      Cert.ReferenceIdeal.Facts₀.shapeCasts_S2048x15x1_S2048x15 (ix2 b t)
      = (sitofp .f32 a3 : FVec Ideal Cert.ReferenceIdeal.S2048x16 .f32) (ix2 b t.succ) := by
    rw [shapeCast_ab1_ab_apply,
      slice3_axis1_apply 1 _ _ b t (0 : Fin 1) t.succ (by rw [Fin.val_succ, Nat.add_comm]),
      bcast_ab_ab1_apply (by decide) (by decide)]
  have e0 : shapeCast Cert.ReferenceIdeal.S2048x15
      (extractStridedSlice Cert.ReferenceIdeal.S2048x15x1 ![0, 0, 0]
        (broadcastInDim Cert.ReferenceIdeal.S2048x16x1 ![0, 1] Cert.ReferenceIdeal.Facts₀.bcast_S2048x16_S2048x16x1_0_1
          (sitofp .f32 a3 : FVec Ideal Cert.ReferenceIdeal.S2048x16 .f32))
        Cert.ReferenceIdeal.Facts₀.slices_S2048x16x1_S2048x15x1_0_0_0)
      Cert.ReferenceIdeal.Facts₀.shapeCasts_S2048x15x1_S2048x15 (ix2 b t)
      = (sitofp .f32 a3 : FVec Ideal Cert.ReferenceIdeal.S2048x16 .f32) (ix2 b t.castSucc) := by
    rw [shapeCast_ab1_ab_apply,
      slice3_axis1_apply 0 _ _ b t (0 : Fin 1) t.castSucc (by rw [Fin.val_castSucc, Nat.zero_add]),
      bcast_ab_ab1_apply (by decide) (by decide)]
  unfold maskR
  show IntOp.andi (FloatOps.cmpf .ogt (shapeCast _ _ _ (ix2 b t)) _)
    (FloatOps.cmpf .ogt (shapeCast _ _ _ (ix2 b t)) _) = _
  rw [e1, e0]
  rfl

/-- The two programs' pair masks are one array. -/
theorem maskR_eq_maskK (a3 : IVec Cert.KernelIdeal.S2048x16 32) :
    maskR (F := Ideal) a3 = maskK (F := Ideal) a3 := by
  funext j
  obtain ⟨b, t, rfl⟩ : ∃ (b : Fin 2048) (t : Fin 15), j = ix2 b t := ⟨j 0, j 1, eq_ix2 j⟩
  rw [maskR_apply, maskK_apply]

end Mask

/-! ## The divisor and the non-empty-step indicator -/

/-- The signed reading of the larger of a word and the word one is the larger of its signed reading and one. -/
theorem toInt_maxsi_one (k : BitVec 32) : (IntOp.maxsi k 1#32).toInt = max k.toInt 1 := by
  unfold IntOp.maxsi
  have h1 : (1#32 : BitVec 32).toInt = 1 := by decide
  by_cases h : (1#32 : BitVec 32).slt k = true
  · rw [if_pos h]
    have := BitVec.slt_iff_toInt_lt.mp h
    rw [h1] at this
    omega
  · rw [if_neg h, h1]
    have : ¬ ((1#32 : BitVec 32).toInt < k.toInt) := fun hh => h (BitVec.slt_iff_toInt_lt.mpr hh)
    rw [h1] at this
    omega

/-- On the extended reals the larger of a count and one is the real of the larger of the count and the integer
    one. -/
theorem max_coe_toInt_one (k : BitVec 32) :
    max (((k.toInt : ℝ)) : EReal) (Ideal.ofBits .f32 0x3F800000#32) = (((IntOp.maxsi k 1#32).toInt : ℝ) : EReal) := by
  rw [Ideal.ofBits_one_f32, toInt_maxsi_one, Int.cast_max, EReal.coe_strictMono.monotone.map_max, Int.cast_one, EReal.coe_one]

/-- A count, as a real, exceeds zero exactly when it exceeds zero as a signed integer. -/
theorem cmp_ogt_coe_toInt_zero (k : BitVec 32) :
    Ideal.cmp .ogt (((k.toInt : ℝ)) : EReal) (Ideal.ofBits .f32 0x00000000#32) = IntOp.cmpi .sgt k 0#32 := by
  rw [Ideal.ofBits_zero_f32]
  show BitVec.ofBool (decide ((0 : EReal) < ((k.toInt : ℝ) : EReal))) = BitVec.ofBool ((0#32 : BitVec 32).slt k)
  have h0 : (0#32 : BitVec 32).toInt = 0 := by decide
  have hiff : ((0 : EReal) < ((k.toInt : ℝ) : EReal)) ↔ (0#32 : BitVec 32).slt k = true := by
    rw [BitVec.slt_iff_toInt_lt, h0, EReal.coe_pos, Int.cast_pos]
  congr 1
  by_cases h : (0#32 : BitVec 32).slt k = true
  · rw [h, decide_eq_true (hiff.mpr h)]
  · rw [Bool.not_eq_true] at h
    rw [h, decide_eq_false (fun hh => by rw [hiff.mp hh] at h; exact Bool.noConfusion h)]

section Counts
/-- The per-step divisor: the kernel program's larger of the converted counts and one is the reference's
    conversion of the larger of the counts and the integer one. -/
theorem divisor_eq (hb : Cert.KernelIdeal.S_.BroadcastsInDim Cert.KernelIdeal.S15 (![] : Fin 0 → Fin Cert.KernelIdeal.S15.rank))
    (hb' : Cert.ReferenceIdeal.S_.BroadcastsInDim Cert.ReferenceIdeal.S15 (![] : Fin 0 → Fin Cert.ReferenceIdeal.S15.rank))
    (n : IVec Cert.KernelIdeal.S15 32) :
    maximumf (sitofp .f32 n : FVec Ideal Cert.KernelIdeal.S15 .f32)
        (broadcastInDim Cert.KernelIdeal.S15 ![] hb (constant (F := Ideal) Cert.KernelIdeal.S_ .f32 0x3F800000#32))
      = sitofp .f32 (maxsi n (broadcastInDim Cert.ReferenceIdeal.S15 ![] hb' (constantI Cert.ReferenceIdeal.S_ 32 1#32))) := by
  funext i
  exact max_coe_toInt_one (n i)

/-- The non-empty-step indicator: the kernel program's comparison of the converted counts with zero is the
    reference's signed comparison of the counts with the integer zero. -/
theorem nonempty_eq (hb : Cert.KernelIdeal.S_.BroadcastsInDim Cert.KernelIdeal.S15 (![] : Fin 0 → Fin Cert.KernelIdeal.S15.rank))
    (hb' : Cert.ReferenceIdeal.S_.BroadcastsInDim Cert.ReferenceIdeal.S15 (![] : Fin 0 → Fin Cert.ReferenceIdeal.S15.rank))
    (n : IVec Cert.KernelIdeal.S15 32) :
    cmpf .ogt (sitofp .f32 n : FVec Ideal Cert.KernelIdeal.S15 .f32)
        (broadcastInDim Cert.KernelIdeal.S15 ![] hb (constant (F := Ideal) Cert.KernelIdeal.S_ .f32 0x00000000#32))
      = cmpi .sgt n (broadcastInDim Cert.ReferenceIdeal.S15 ![] hb' (constantI Cert.ReferenceIdeal.S_ 32 0#32)) := by
  funext i
  exact cmp_ogt_coe_toInt_zero (n i)

end Counts

end Cert.Hand

end
-- ==== Proof.KTail.lean ====
/-
  The host lines that follow the kernel call, as one function of the call's result array and the argument arrays.
  With y the targets and v the mask as numbers, p the predictions, the classification term is
  Σ −(2·y·logσ(p) + (1 − y)·logσ(−p))·v divided by max(Σ v, 1e-8); the call's result holds in its first row the 15
  weighted penalty sums w; the pair counts n are the column sums of the pair mask; the step losses are w / max(n, 1);
  the number of steps with a positive count divides their sum (or the answer is 0 when there is none); the result is the
  classification term plus 0.2 times that.
-/
import proofs.«429960_j51273319580286_4_alg».proof.Proof.Gen.KernelIdeal.Launch
import proofs.«429960_j51273319580286_4_alg».proof.Proof.ClassLoss
import proofs.«429960_j51273319580286_4_alg».proof.Proof.Counts
import Idealize.ShloMosaic.Lib.StableHlo.Run

noncomputable section

namespace Cert.KernelIdeal.Hand

open Cert.KernelIdeal Cert.KernelIdeal.Gen
open Idealize.ShloMosaic Idealize.ShloMosaic.TcCoe Idealize.SL.Sem Idealize.ShloMosaic.StableHlo
open Cert.Hand

variable {F : FTy → Type} [FloatOps F]

/-- The classification term: the sum of the weighted cross-entropy entries −(2·y·logσ(p) + (1 − y)·logσ(−p))·v over the
    mask's sum, the latter bounded below by 1e-8. -/
def classK (a0 : FVec F S2048x16x1 .f32) (a2 a3 : IVec S2048x16 32) : FVec F S_ .f32 :=
  Host.divf
    (Host.reduceAdd (bceK a0 a2 a3) (constant S_ .f32 0x00000000#32) reducesTo_S2048x16_S_d0_1 h_S_)
    (maximumf (Host.reduceAdd (sitofp .f32 a3 : FVec F S2048x16 .f32) (constant S_ .f32 0x00000000#32) reducesTo_S2048x16_S_d0_1 h_S_)
      (constant S_ .f32 0x322BCC77#32))

/-- The number of counted samples per pair of steps. -/
def countK (a3 : IVec S2048x16 32) : IVec S15 32 :=
  Host.reduce IntOp.addi (extui 32 (maskK (F := F) a3) natLt_1_32) (constantI S_ 32 0#32) reducesTo_S2048x15_S15_d0 h_S_

/-- The 15 weighted sums the call left in the first row of its result. -/
def rowK (o : FVec F S8x128 .f32) : FVec F S15 .f32 :=
  fun i => shapeCast S15 (extractStridedSlice S1x15 ![0, 0] o slices_S8x128_S1x15_0_0) shapeCasts_S1x15_S15 i

/-- The smoothness term from the weighted sums `w` and the counts `n`: the step losses w / max(n, 1), their sum over
    the number of steps with a positive count (at least 1), or 0 when no step has one. -/
def smoothK (w : FVec F S15 .f32) (n : IVec S15 32) : FVec F S_ .f32 :=
  select
    (cmpi .sgt
      (Host.reduce IntOp.addi
        (extui 32 (cmpf .ogt (sitofp .f32 n : FVec F S15 .f32) (broadcastInDim S15 ![] bcast_S_S15 (constant S_ .f32 0x00000000#32))) natLt_1_32)
        (constantI S_ 32 0#32) reducesTo_S15_S_d0 h_S_)
      (constantI S_ 32 0#32))
    (Host.divf
      (Host.reduceAdd
        (Host.divf w (maximumf (sitofp .f32 n : FVec F S15 .f32) (broadcastInDim S15 ![] bcast_S_S15 (constant S_ .f32 0x3F800000#32))))
        (constant S_ .f32 0x00000000#32) reducesTo_S15_S_d0 h_S_)
      (sitofp .f32
        (maxsi
          (Host.reduce IntOp.addi
            (extui 32 (cmpf .ogt (sitofp .f32 n : FVec F S15 .f32) (broadcastInDim S15 ![] bcast_S_S15 (constant S_ .f32 0x00000000#32))) natLt_1_32)
            (constantI S_ 32 0#32) reducesTo_S15_S_d0 h_S_)
          (constantI S_ 32 1#32))))
    (id (constant S_ .f32 0x00000000#32))

/-- The program's result from the call's result array and the arguments. -/
def tailK (o : FVec F S8x128 .f32) (a0 : FVec F S2048x16x1 .f32) (a2 a3 : IVec S2048x16 32) : FVec F S_ .f32 :=
  addf (classK a0 a2 a3) (mulf (constant S_ .f32 0x3E4CCCCD#32) (smoothK (rowK o) (countK (F := F) a3)))

attribute [local irreducible] Host.reduce Host.reduceAdd in
set_option maxRecDepth 16384 in
set_option maxHeartbeats 1600000 in
/-- The lines after the call, run from any contents `W`, leave in the result buffer that function of the call's result
    array and of the arguments as `W` has them: the fold of the operations' results read at the result buffer. -/
theorem tail_eq (W : Valuation τ sig (Elt F)) :
    after (List.flatten [hostOps1, hostOps1_1, hostOps1_2, hostOps1_3, hostOps1_4, hostOps1_5, hostOps1_6]) W (main_v47 : DevRef τ sig)
      = tailK (W (main_v1 : DevRef τ sig)) (W (main_arg0 : DevRef τ sig)) (W (main_arg2 : DevRef τ sig)) (W (main_arg3 : DevRef τ sig)) := by
  simp only [hostOps1, hostOps1_1, hostOps1_2, hostOps1_3, hostOps1_4, hostOps1_5, hostOps1_6,
    List.flatten_cons, List.flatten_nil, List.append_nil, List.cons_append, List.nil_append, after_cons, after_nil]
  after_results_simp
  rfl

end Cert.KernelIdeal.Hand

end
-- ==== Proof.KRun.lean ====
/-
  The idealized kernel program's run, read at its result: the one region leaves the result array of the call at what
  the proof data computes, the host lines that follow turn it and the argument arrays into the program's result, and the
  four argument arrays end as they were launched.
-/
import proofs.«429960_j51273319580286_4_alg».proof.Proof.KFrame
import proofs.«429960_j51273319580286_4_alg».proof.Proof.KTail

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The contents the later lines start from: the pipeline's arrays as the region leaves them, every other buffer as the
    region found it. -/
abbrev exitW (c : Dev nD) : Valuation τ sig (Elt F) :=
  Pipeline.withArrays spec0 c (V0 m c) fun w => (dats m 0 c).arrAt w cfg0.N

/-- There the call's result array holds what the region's write-backs leave; -/
theorem exitW_v1 (c : Dev nD) : exitW m c (main_v1 : DevRef τ sig) = (dats m 0 c).arrAt 2 cfg0.N :=
  Pipeline.withArrays_arr spec0 launch0.win.arr_inj c (V0 m c) _ 2
/-- the mask array, an input of the region, is as launched; -/
theorem exitW_arg3 (c : Dev nD) : exitW m c (main_arg3 : DevRef τ sig) = m ((c : Thread nD τ).loc main_arg3) :=
  (Pipeline.withArrays_arr spec0 launch0.win.arr_inj c (V0 m c) _ 1).trans
    (((dats m 0 c).arrAt_in 1 rfl _).trans ((A_eq m c 1).trans (V_main_arg3 m c)))
/-- and the two arguments that bypass the region are as launched. -/
theorem exitW_arg0 (c : Dev nD) : exitW m c (main_arg0 : DevRef τ sig) = m ((c : Thread nD τ).loc main_arg0) :=
  (Pipeline.withArrays_of_ne spec0 c (V0 m c) _ main_arg0 (by decide)).trans (V_main_arg0 m c)
theorem exitW_arg2 (c : Dev nD) : exitW m c (main_arg2 : DevRef τ sig) = m ((c : Thread nD τ).loc main_arg2) :=
  (Pipeline.withArrays_of_ne spec0 c (V0 m c) _ main_arg2 (by decide)).trans (V_main_arg2 m c)

/-- The result buffer after the later lines: the tail function of the region's result array and the launched arguments. -/
theorem tail_value (c : Dev nD) :
    Pipeline.afterTail₀ cfgs (dats m) 0 (V0 m) tailOps c main_v47
      = tailK ((dats m 0 c).arrAt 2 cfg0.N) (m ((c : Thread nD τ).loc main_arg0)) (m ((c : Thread nD τ).loc main_arg2))
          (m ((c : Thread nD τ).loc main_arg3)) := by
  unfold Pipeline.afterTail₀
  rw [show (Pipeline.withArrays (cfgs 0).spec c (V0 m c) fun w => (dats m 0 c).arrAt w (cfgs 0).N) = exitW m c from rfl]
  rw [tail_eq, exitW_v1, exitW_arg0, exitW_arg2, exitW_arg3]

/-- The run, read: the result at the tail function, the four arguments unchanged. -/
theorem run_value : θ_run defs (onTc (τ := τ) (main (F := F))) ⟨m, fun _ => 0, ρ⟩ (fun r => ∀ c : Dev nD,
      r.2.mem ((c.tc : Thread nD τ).loc main_v47)
        = tailK ((dats m 0 c).arrAt 2 cfg0.N) (m ((c : Thread nD τ).loc main_arg0)) (m ((c : Thread nD τ).loc main_arg2))
            (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v47 (Pipeline.mem_restRefs_of main_v47 (by decide) (by decide))).trans (tail_value m c),
      ((h c).2 main_arg0 (Pipeline.mem_restRefs_of main_arg0 (by decide) (by decide))).trans
        (afterTail_arg m (dats m) c main_arg0 (by decide) (by decide) (by decide)),
      ((h c).2 main_arg1 (Pipeline.mem_restRefs_of main_arg1 (by decide) (by decide))).trans
        (afterTail_arg m (dats m) c main_arg1 (by decide) (by decide) (by decide)),
      ((h c).2 main_arg2 (Pipeline.mem_restRefs_of main_arg2 (by decide) (by decide))).trans
        (afterTail_arg m (dats m) c main_arg2 (by decide) (by decide) (by decide)),
      ((h c).1 1).trans (((dats m 0 c).arrAt_in 1 rfl _).trans ((A_eq m c 1).trans (V_main_arg3 m c)))⟩) (run_main m ρ)

end Cert.KernelIdeal.Hand

end
-- ==== Proof.KPieces.lean ====
/-
  What the body leaves in the output's staging buffer, read back as a value. At the first grid point the body stores
  the zero block, reads it back and stores the accumulation onto it; at every later point it stores the accumulation
  onto what the buffer held. In both cases the last store covers the whole block, so the buffer ends at that store's
  value, whose loads read the whole staging buffers.
-/
import proofs.«429960_j51273319580286_4_alg».proof.Proof.KFrame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A rank-2 zero offset vector is the zero function. -/
theorem hz2 : (![0, 0] : Fin 2 → Nat) = fun _ => 0 := funext fun a => by fin_cases a <;> rfl
/-- A rank-3 zero offset vector is the zero function. -/
theorem hz3 : (![0, 0, 0] : Fin 3 → Nat) = fun _ => 0 := funext fun a => by fin_cases a <;> rfl

/-- At a point after the first the body leaves, in the output's staging buffer holding `xo2`, its one store's value:
    the accumulation of the blocks `x0`, `x1` onto `xo2`. -/
theorem out_B (c : Dev nD) (i : grid0.Coords) (arg1 : Memref sig .tc .vmem S32x16x2048 .f32) (harg1 : arg1.IsWhole) (arg2 : Memref sig .tc .vmem S32x16 .i32) (harg2 : arg2.IsWhole) (arg3 : Memref sig .tc .vmem S8x128 .f32) (harg3 : arg3.IsWhole) (hc0 : ¬cond0_0 i)
    (x0 : Vec F S32x16x2048 .f32) (x1 : Vec F S32x16 .i32) (xo2 : Vec F S8x128 .f32) :
    out0_B_2 c i arg1 harg1 arg2 harg2 arg3 harg3 hc0 x0 x1 xo2 = k0_pay2 x0 x1 xo2 := by
  unfold out0_B_2
  rw [View.read_writes_eq_canon _ _ _ (cover0_B_2 c i arg1 harg1 arg2 harg2 arg3 harg3 hc0 x0 x1 xo2)]
  unfold kernelRun0_B
  dsimp only
  sl_unfold_words
  rw [View.canon_unit_zero hz2]
  simp only [View.readAt_eq_ld, harg1.read_unread, harg2.read_unread, harg3.read_unread,
    View.ld_unit_zero (S := S32x16x2048) hz3, View.ld_unit_zero (S := S32x16) hz2, View.ld_unit_zero (S := S8x128) hz2]

/-- At the first point the body stores the zero block, reads it back, and leaves the accumulation of the blocks
    `x0`, `x1` onto it. -/
theorem out_A (c : Dev nD) (i : grid0.Coords) (arg1 : Memref sig .tc .vmem S32x16x2048 .f32) (harg1 : arg1.IsWhole) (arg2 : Memref sig .tc .vmem S32x16 .i32) (harg2 : arg2.IsWhole) (arg3 : Memref sig .tc .vmem S8x128 .f32) (harg3 : arg3.IsWhole) (hc0 : cond0_0 i)
    (x0 : Vec F S32x16x2048 .f32) (x1 : Vec F S32x16 .i32) :
    out0_A_2 c i arg1 harg1 arg2 harg2 arg3 harg3 hc0 x0 x1 = k0_pay2 x0 x1 (k0_pay1 (F := F)) := by
  unfold out0_A_2
  rw [View.read_writes_eq_canon _ _ _ (cover0_A_2 c i arg1 harg1 arg2 harg2 arg3 harg3 hc0 x0 x1)]
  unfold kernelRun0_A
  dsimp only
  sl_unfold_words
  rw [View.canon_cons_unit_zero (S := S8x128) hz2]
  simp only [View.readAt_eq_ld, harg1.read_unread, harg2.read_unread, View.readCov_unit_zero (S := S8x128) _ hz2,
    View.ld_unit_zero (S := S32x16x2048) hz3, View.ld_unit_zero (S := S32x16) hz2, View.ld_unit_zero (S := S8x128) hz2]

end Cert.KernelIdeal.Hand

end
-- ==== Proof.KBlocks.lean ====
/-
  The blocks the body reads, as parts of the launch arrays. At grid point t the window over the scores holds the 32
  samples 32 t … 32 t + 31 (all 16 steps, all 2048 regions) and the window over the mask words the same samples (all 16
  steps). The scores reach the region through one reshape that drops the trailing unit axis of the launch array, so the
  block of scores at (b, s, r) is the launch array at (32 t + b, s, r, 0).
-/
import proofs.«429960_j51273319580286_4_alg».proof.Proof.KFrameBase
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

variable {F : FTy → Type} [FloatOps F]
variable (m : (ℓ : Loc nD τ sig) → Buf (Elt F) ℓ)

/-- The two input windows' blocks at point t start at block t along the samples and at 0 along the other axes. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0 :=
  (by decide +kernel : ∀ t : Fin grid0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0)

/-- The scores as the region finds them: the launch array with its trailing unit axis dropped. -/
theorem V_main_v0 (c : Dev nD) :
    (V m c main_v0 : S2048x16x2048.Idx → Elt F .f32)
      = shapeCast S2048x16x2048 (m ((c : Thread nD τ).loc main_arg1)) shapeCasts_S2048x16x2048x1_S2048x16x2048 := by
  show StableHlo.after hostOps0 (fun b => m (c, b)) (Proc.devRef .tc main_v0) = _
  after_results
  rfl

/-- The block of scores the body reads at point t. -/
abbrev xblk (c : Dev nD) (t : Fin cfg0.N) : Vec F S32x16x2048 .f32 := iblk m c 0 t
/-- The block of mask words the body reads at point t. -/
abbrev vblk (c : Dev nD) (t : Fin cfg0.N) : Vec F S32x16 .i32 := iblk m c 1 t

/-- Dropping the trailing unit axis keeps the three leading coordinates. -/
theorem reshape_scores_apply {α : Type} (x : S2048x16x2048x1.Idx → α) (B : Fin 2048) (s : Fin 16) (r : Fin 2048) :
    shapeCast S2048x16x2048 x shapeCasts_S2048x16x2048x1_S2048x16x2048 (ix3 B s r) = x (ix4 B s r (0 : Fin 1)) :=
  shapeCast_apply x _ (ix3 B s r) (ix4 B s r (0 : Fin 1)) (by
    rw [Shape.rowMajor_val_four, Shape.rowMajor_val_three]
    show ((B.val * 16 + s.val) * 2048 + r.val) * 1 + 0 = (B.val * 16 + s.val) * 2048 + r.val
    omega)

/-- The block of scores at point t, read at (b, s, r): the launch array at sample 32 t + b. -/
theorem xblk_apply (c : Dev nD) (t : Fin cfg0.N) (b : Fin 32) (s : Fin 16) (r : Fin 2048) :
    xblk m c t (ix3 b s r)
      = (m ((c : Thread nD τ).loc main_arg1) : S2048x16x2048x1.Idx → Elt F .f32)
          (ix4 (⟨32 * t.val + b.val, by have := lt_of_lt_of_eq t.isLt (show cfg0.N = 64 from N_0); omega⟩ : Fin 2048) s r (0 : Fin 1)) := by
  have hN : t.val < 64 := lt_of_lt_of_eq t.isLt (show cfg0.N = 64 from N_0)
  obtain ⟨h0, h1, h2, -, -⟩ := idx_facts t
  unfold xblk iblk
  rw [View.read_apply]
  show V m c main_v0 _ = _
  rw [V_main_v0]
  refine Eq.trans (congrArg _ ?_) (reshape_scores_apply _ ⟨32 * t.val + b.val, by omega⟩ s r)
  funext a
  apply Fin.ext
  match a with
  | ⟨0, _⟩ => show win0_0.index t 0 * 32 + 1 * b.val = 32 * t.val + b.val; rw [h0]; omega
  | ⟨1, _⟩ => show win0_0.index t 1 * 16 + 1 * s.val = s.val; rw [h1]; omega
  | ⟨2, _⟩ => show win0_0.index t 2 * 2048 + 1 * r.val = r.val; rw [h2]; omega

/-- The block of mask words at point t, read at (b, s): the launch array at sample 32 t + b. -/
theorem vblk_apply (c : Dev nD) (t : Fin cfg0.N) (b : Fin 32) (s : Fin 16) :
    vblk m c t (ix2 b s)
      = (m ((c : Thread nD τ).loc main_arg3) : S2048x16.Idx → Elt F .i32)
          (ix2 (⟨32 * t.val + b.val, by have := lt_of_lt_of_eq t.isLt (show cfg0.N = 64 from N_0); omega⟩ : Fin 2048) s) := by
  have hN : t.val < 64 := lt_of_lt_of_eq t.isLt (show cfg0.N = 64 from N_0)
  obtain ⟨-, -, -, h0, h1⟩ := idx_facts t
  unfold vblk iblk
  rw [View.read_apply]
  show V m c main_arg3 _ = _
  rw [V_main_arg3]
  refine congrArg _ ?_
  funext a
  apply Fin.ext
  match a with
  | ⟨0, _⟩ => show win0_1.index t 0 * 32 + 1 * b.val = 32 * t.val + b.val; rw [h0]; omega
  | ⟨1, _⟩ => show win0_1.index t 1 * 16 + 1 * s.val = s.val; rw [h1]; omega

end Cert.KernelIdeal.Hand

end
-- ==== Proof.KPayload.lean ====
/-
  The arithmetic of the kernel body on the extended reals, read at an index.
  The body's first stored value is the zero vector. Its second, at row 0 and column t < 15, is the previous contents
  plus the sum over the 32 samples of the block of the weighted penalty of the pair of steps (t, t + 1): per region the
  difference of the two steps' scores, its absolute value less 0.2, the positive part squared; the sum over the 2048
  regions divided by 2048; times the 0/1 indicator that both steps' mask words exceed one half. Padding with zero
  columns and rows does not touch row 0 and the columns below 15, and the product with a row of ones is the sum over
  the samples.
-/
import proofs.«429960_j51273319580286_4_alg».proof.Proof.Gen.KernelIdeal.Skeleton
import proofs.«429960_j51273319580286_4_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 65536

noncomputable section

namespace Cert.KernelIdeal.Hand

open Cert.KernelIdeal Cert.KernelIdeal.Gen Idealize.ShloMosaic Idealize.ShloMosaic.ValueIdx

/-! ## The mean penalty of one sample at one pair of steps -/

/-- The later step's slice of the scores at (b, t, r) is the score at step t + 1. -/
theorem sliceHi_apply (x : FVec Ideal S32x16x2048 .f32) (b : Fin 32) (t : Fin 15) (r : Fin 2048) :
    extractStridedSlice S32x15x2048 ![0, 1, 0] x slices_S32x16x2048_o0_1_0_S32x15x2048 (ix3 b t r) = x (ix3 b t.succ r) :=
  slice3_axis1_apply 1 x _ b t r t.succ (by rw [Fin.val_succ, Nat.add_comm])

/-- The earlier step's slice of the scores at (b, t, r) is the score at step t. -/
theorem sliceLo_apply (x : FVec Ideal S32x16x2048 .f32) (b : Fin 32) (t : Fin 15) (r : Fin 2048) :
    extractStridedSlice S32x15x2048 ![0, 0, 0] x slices_S32x16x2048_o0_0_0_S32x15x2048 (ix3 b t r) = x (ix3 b t.castSucc r) :=
  slice3_axis1_apply 0 x _ b t r t.castSucc (by rw [Fin.val_castSucc, Nat.zero_add])

/-- The squared positive part of |difference| − 0.2, at one region. -/
theorem penVec_apply (x : FVec Ideal S32x16x2048 .f32) (b : Fin 32) (t : Fin 15) (r : Fin 2048) :
    mulf
      (maximumf (subf (absf (subf (extractStridedSlice S32x15x2048 ![0, 1, 0] x slices_S32x16x2048_o0_1_0_S32x15x2048)
          (extractStridedSlice S32x15x2048 ![0, 0, 0] x slices_S32x16x2048_o0_0_0_S32x15x2048)))
          (broadcast S32x15x2048 (Scalar.ofBits (F := Ideal) .f32 0x3E4CCCCD#32)))
        (broadcast S32x15x2048 (Scalar.ofBits (F := Ideal) .f32 0x00000000#32)))
      (maximumf (subf (absf (subf (extractStridedSlice S32x15x2048 ![0, 1, 0] x slices_S32x16x2048_o0_1_0_S32x15x2048)
          (extractStridedSlice S32x15x2048 ![0, 0, 0] x slices_S32x16x2048_o0_0_0_S32x15x2048)))
          (broadcast S32x15x2048 (Scalar.ofBits (F := Ideal) .f32 0x3E4CCCCD#32)))
        (broadcast S32x15x2048 (Scalar.ofBits (F := Ideal) .f32 0x00000000#32)))
      (ix3 b t r)
    = Cert.Spec.pen (x (ix3 b t.succ r)) (x (ix3 b t.castSucc r)) := by
  rw [mulf_apply, maximumf_apply, subf_apply, broadcast_apply, broadcast_apply]
  show max (FloatOps.absf (subf _ _ (ix3 b t r)) - _) _ * max (FloatOps.absf (subf _ _ (ix3 b t r)) - _) _ = _
  rw [subf_apply, sliceHi_apply, sliceLo_apply, Ideal.absf_def]
  rfl

/-- The sum over the regions, at (b, t): the reduced index with the region inserted is (b, t, r). -/
theorem sumRegions_apply (v : FVec Ideal S32x15x2048 .f32) (b : Fin 32) (t : Fin 15) :
    multiReduction (F := Ideal) .add [2] S32x15 v 0x00000000#32 reduces_S32x15x2048_S32x15 (.inl rfl) rfl (ix2 b t)
      = ∑ r : Fin 2048, v (ix3 b t r) := by
  refine (Ideal.multiReduction_add_single v 0x00000000#32 reduces_S32x15x2048_S32x15 (.inl rfl) rfl (ix2 b t)).trans ?_
  show ∑ r : Fin 2048, v (reduces_S32x15x2048_S32x15.lift (ix2 b t) r) = _
  refine Finset.sum_congr rfl fun r _ => congrArg v ?_
  funext a
  match a with
  | ⟨0, _⟩ => exact Fin.ext rfl
  | ⟨1, _⟩ => exact Fin.ext rfl
  | ⟨2, _⟩ => exact Fin.ext rfl

/-- The mean penalty of sample b at the pair of steps (t, t + 1): the kernel's sum over the regions divided by 2048. -/
theorem meanVec_apply (x : FVec Ideal S32x16x2048 .f32) (b : Fin 32) (t : Fin 15) :
    divf
      (multiReduction (F := Ideal) .add [2] S32x15
        (mulf
          (maximumf (subf (absf (subf (extractStridedSlice S32x15x2048 ![0, 1, 0] x slices_S32x16x2048_o0_1_0_S32x15x2048)
              (extractStridedSlice S32x15x2048 ![0, 0, 0] x slices_S32x16x2048_o0_0_0_S32x15x2048)))
              (broadcast S32x15x2048 (Scalar.ofBits (F := Ideal) .f32 0x3E4CCCCD#32)))
            (broadcast S32x15x2048 (Scalar.ofBits (F := Ideal) .f32 0x00000000#32)))
          (maximumf (subf (absf (subf (extractStridedSlice S32x15x2048 ![0, 1, 0] x slices_S32x16x2048_o0_1_0_S32x15x2048)
              (extractStridedSlice S32x15x2048 ![0, 0, 0] x slices_S32x16x2048_o0_0_0_S32x15x2048)))
              (broadcast S32x15x2048 (Scalar.ofBits (F := Ideal) .f32 0x3E4CCCCD#32)))
            (broadcast S32x15x2048 (Scalar.ofBits (F := Ideal) .f32 0x00000000#32))))
        0x00000000#32 reduces_S32x15x2048_S32x15 (.inl rfl) rfl)
      (broadcast S32x15 (Scalar.ofBits (F := Ideal) .f32 0x45000000#32))
      (ix2 b t)
    = Cert.Spec.penMean (fun r : Fin 2048 => x (ix3 b t.succ r)) (fun r : Fin 2048 => x (ix3 b t.castSucc r)) := by
  rw [divf_apply, broadcast_apply, sumRegions_apply]
  unfold Cert.Spec.penMean
  refine congrArg (fun s => Ideal.div s _) (Finset.sum_congr rfl fun r _ => ?_)
  exact penVec_apply x b t r

/-! ## The indicator that both steps count -/

/-- A truth bit widened to a word and read as a signed integer is the bit as a number. -/
theorem sitofp_extui_bit (p : BitVec 1) :
    FloatOps.sitofp (F := Ideal) .f32 (p.setWidth 32) = Cert.Spec.bit p := by
  show (((p.setWidth 32).toInt : ℝ) : EReal) = ((p.toNat : ℝ) : EReal)
  have h : ∀ q : BitVec 1, (q.setWidth 32).toInt = (q.toNat : ℤ) := by decide
  rw [h p, Int.cast_natCast]

/-- The later step's slice of the mask words (as numbers) at (b, t) is the word at step t + 1. -/
theorem maskHi_apply (w : FVec Ideal S32x16 .f32) (b : Fin 32) (t : Fin 15) :
    extractStridedSlice S32x15 ![0, 1] w slices_S32x16_o0_1_S32x15 (ix2 b t) = w (ix2 b t.succ) :=
  slice2_axis1_apply 1 w _ b t t.succ (by rw [Fin.val_succ, Nat.add_comm])

/-- The earlier step's slice of the mask words at (b, t) is the word at step t. -/
theorem maskLo_apply (w : FVec Ideal S32x16 .f32) (b : Fin 32) (t : Fin 15) :
    extractStridedSlice S32x15 ![0, 0] w slices_S32x16_o0_0_S32x15 (ix2 b t) = w (ix2 b t.castSucc) :=
  slice2_axis1_apply 0 w _ b t t.castSucc (by rw [Fin.val_castSucc, Nat.zero_add])

/-- The kernel's indicator at (b, t): both steps' mask words, read as signed integers, exceed one half. -/
theorem indVec_apply (vm : Vec Ideal S32x16 .i32) (b : Fin 32) (t : Fin 15) :
    (sitofp .f32
      (extui 32
        (andi
          (cmpf .ogt (extractStridedSlice S32x15 ![0, 1] (sitofp .f32 vm : FVec Ideal S32x16 .f32) slices_S32x16_o0_1_S32x15)
            (broadcast S32x15 (Scalar.ofBits (F := Ideal) .f32 0x3F000000#32)))
          (cmpf .ogt (extractStridedSlice S32x15 ![0, 0] (sitofp .f32 vm : FVec Ideal S32x16 .f32) slices_S32x16_o0_0_S32x15)
            (broadcast S32x15 (Scalar.ofBits (F := Ideal) .f32 0x3F000000#32))))
        natLt_1_32) : FVec Ideal S32x15 .f32) (ix2 b t)
    = Cert.Spec.bit (Cert.Spec.pairValid (vm (ix2 b t.succ)) (vm (ix2 b t.castSucc))) := by
  rw [sitofp_apply, extui_apply, sitofp_extui_bit]
  congr 1
  show IntOp.andi (cmpf .ogt _ _ (ix2 b t)) (cmpf .ogt _ _ (ix2 b t)) = _
  rw [cmpf_apply, cmpf_apply, maskHi_apply, maskLo_apply, broadcast_apply, Ideal.cmpf_def, Ideal.cmpf_def]
  rfl

/-! ## The paddings and the sum over the samples -/

/-- The word 0x3F800000 is the number one. -/
theorem ofBits_one_f32 : Ideal.ofBits .f32 0x3F800000#32 = 1 := IdealRules.sign_bit.ideal_onePat .f32

/-- Padding the 15 columns with zero columns up to 128 leaves column t < 15 as it was. -/
theorem padCols_apply (v : FVec Ideal S32x15 .f32) (z : FVec Ideal S32x113 .f32) (b : Fin 32) (t : Fin 15) :
    concatenate S32x128 1 [⟨S32x15, v⟩, ⟨S32x113, z⟩] concatenates_S32x15_S32x113_S32x128_d1
        (ix2 b (⟨t.val, by omega⟩ : Fin 128))
      = v (ix2 b t) :=
  concatenate_pair_apply_left (t := S32x128) 1 v z concatenates_S32x15_S32x113_S32x128_d1 (ix2 b (⟨t.val, by omega⟩ : Fin 128)) rfl (ix2 b t) (fun a => by
    match a with
    | ⟨0, _⟩ => rfl
    | ⟨1, _⟩ => rfl)

/-- Padding the one row with seven zero rows leaves row 0 as it was. -/
theorem padRows_apply (v : FVec Ideal S1x128 .f32) (z : FVec Ideal S7x128 .f32) (c : Fin 128) :
    concatenate S8x128 0 [⟨S1x128, v⟩, ⟨S7x128, z⟩] concatenates_S1x128_S7x128_S8x128_d0 (ix2 (0 : Fin 8) c)
      = v (ix2 (0 : Fin 1) c) :=
  concatenate_pair_apply_left (t := S8x128) 0 v z concatenates_S1x128_S7x128_S8x128_d0 (ix2 (0 : Fin 8) c) rfl (ix2 (0 : Fin 1) c) (fun a => by
    match a with
    | ⟨0, _⟩ => rfl
    | ⟨1, _⟩ => rfl)

/-! The operand indices of the 1×32 by 32×128 product, axis by axis. -/

theorem lhs_dot_0 (j : S1x128.Idx) (k : dot_S1x32_S32x128_S1x128_1_0_0_1_n_n.contr.Idx) :
    (dot_S1x32_S32x128_S1x128_1_0_0_1_n_n.lhsIdx j k 0).val = (j 0).val := rfl

theorem lhs_dot_1 (j : S1x128.Idx) (k : dot_S1x32_S32x128_S1x128_1_0_0_1_n_n.contr.Idx) :
    (dot_S1x32_S32x128_S1x128_1_0_0_1_n_n.lhsIdx j k 1).val = (k ⟨0, by decide⟩).val :=
  DotDims.lhsIdx_val_of_single _ rfl j k

theorem rhs_dot_0 (j : S1x128.Idx) (k : dot_S1x32_S32x128_S1x128_1_0_0_1_n_n.contr.Idx) :
    (dot_S1x32_S32x128_S1x128_1_0_0_1_n_n.rhsIdx j k 0).val = (k ⟨0, by decide⟩).val :=
  DotDims.rhsIdx_val_of_single _ rfl j k

theorem rhs_dot_1 (j : S1x128.Idx) (k : dot_S1x32_S32x128_S1x128_1_0_0_1_n_n.contr.Idx) :
    (dot_S1x32_S32x128_S1x128_1_0_0_1_n_n.rhsIdx j k 1).val = (j 1).val := rfl

/-- The product of a 1×32 row with a 32×128 matrix onto a zero accumulator, at (0, c): the sum over the 32 rows. -/
theorem rowSum_apply (l : FVec Ideal S1x32 .f32) (m : FVec Ideal S32x128 .f32) (c : Fin 128) :
    matmul dot_S1x32_S32x128_S1x128_1_0_0_1_n_n none l m (constant (F := Ideal) S1x128 .f32 0x00000000#32) (ix2 (0 : Fin 1) c)
      = ∑ b : Fin 32, l (ix2 (0 : Fin 1) b) * m (ix2 b c) := by
  refine (Ideal.matmul_constant_zero_apply dot_S1x32_S32x128_S1x128_1_0_0_1_n_n none l m (ix2 (0 : Fin 1) c)).trans ?_
  rw [← Equiv.sum_comp (contrEquiv1 dot_S1x32_S32x128_S1x128_1_0_0_1_n_n 32 rfl rfl).symm]
  refine Finset.sum_congr rfl fun b _ => ?_
  have hk := contrEquiv1_symm_val dot_S1x32_S32x128_S1x128_1_0_0_1_n_n 32 rfl rfl b
  congr 2
  · funext a
    match a with
    | ⟨0, _⟩ => exact Fin.ext (lhs_dot_0 _ _)
    | ⟨1, _⟩ => exact Fin.ext ((lhs_dot_1 _ _).trans hk)
  · funext a
    match a with
    | ⟨0, _⟩ => exact Fin.ext ((rhs_dot_0 _ _).trans hk)
    | ⟨1, _⟩ => exact Fin.ext (rhs_dot_1 _ _)

/-! ## The two stored values -/

/-- The first stored value of the body is zero everywhere. -/
theorem pay1_apply (j : S8x128.Idx) : k0_pay1 (F := Ideal) j = 0 := by
  unfold k0_pay1
  show Ideal.ofBits .f32 0x00000000#32 = 0
  exact Ideal.ofBits_zero_f32

/-- Row 0, column t < 15 of the body's stored value: the previous contents plus the sum over the 32 samples of the
    weighted penalty of the pair of steps (t, t + 1). -/
theorem pay2_row0 (x : Vec Ideal S32x16x2048 .f32) (vm : Vec Ideal S32x16 .i32) (prev : Vec Ideal S8x128 .f32) (t : Fin 15) :
    k0_pay2 (F := Ideal) x vm prev (ix2 (0 : Fin 8) (⟨t.val, by omega⟩ : Fin 128))
      = prev (ix2 (0 : Fin 8) (⟨t.val, by omega⟩ : Fin 128))
        + ∑ b : Fin 32, Cert.Spec.weighted (fun r : Fin 2048 => x (ix3 b t.succ r)) (fun r : Fin 2048 => x (ix3 b t.castSucc r))
            (vm (ix2 b t.succ)) (vm (ix2 b t.castSucc)) := by
  unfold k0_pay2
  dsimp only
  rw [addf_apply, shapeCast_self, padRows_apply, rowSum_apply]
  refine congrArg (prev (ix2 (0 : Fin 8) (⟨t.val, by omega⟩ : Fin 128)) + ·) (Finset.sum_congr rfl fun b _ => ?_)
  rw [broadcast_apply, padCols_apply, mulf_apply, shapeCast_self, meanVec_apply, indVec_apply]
  show Ideal.ofBits .f32 0x3F800000#32 * _ = _
  rw [ofBits_one_f32, one_mul]
  rfl

end Cert.KernelIdeal.Hand

end
-- ==== Proof.KAccumMath.lean ====
/-
  Sums taken block by block. A sum over 2048 samples is the sum over the 64 blocks of 32 consecutive samples of each
  block's sum; and a quantity that starts at the first block's sum and receives one more block's sum at every later
  step is, after step n, the sum of the first n + 1 blocks' sums.
-/
import Mathlib.Algebra.BigOperators.Fin
import Mathlib.Logic.Equiv.Fin.Basic

namespace Cert.Hand

/-- The sum over the 2048 samples is the sum over the 64 blocks of the sums over each block's 32 samples. -/
theorem sum_blocks {M : Type*} [AddCommMonoid M] (f : Fin 2048 → M) :
    ∑ i : Fin 64, ∑ b : Fin 32, f ⟨32 * i.val + b.val, by have := i.isLt; have := b.isLt; omega⟩ = ∑ B : Fin 2048, f B := by
  rw [← Fintype.sum_prod_type' (f := fun (i : Fin 64) (b : Fin 32) => f ⟨32 * i.val + b.val, by have := i.isLt; have := b.isLt; omega⟩)]
  refine Fintype.sum_equiv (finProdFinEquiv (m := 64) (n := 32)) _ _ fun p => ?_
  refine congrArg f (Fin.ext ?_)
  show 32 * p.1.val + p.2.val = p.2.val + 32 * p.1.val
  omega

/-- A running total that starts at `g 0` and receives `g (n + 1)` at step n + 1 is, after step n, the sum of `g`
    over the steps up to n. -/
theorem running_total {M : Type*} [AddCommMonoid M] (a g : ℕ → M) (h0 : a 0 = g 0) (hs : ∀ n, a (n + 1) = a n + g (n + 1)) :
    ∀ n, a n = ∑ i ∈ Finset.range (n + 1), g i
  | 0 => by rw [h0, Finset.sum_range_one]
  | n + 1 => by rw [hs, running_total a g h0 hs n, Finset.sum_range_succ _ (n + 1)]

end Cert.Hand
-- ==== Proof.KValue.lean ====
/-
  The value of the kernel's result array, on the extended reals. After grid point n the output's staging buffer holds,
  at row 0 and column t < 15, the sum over the first n + 1 blocks of 32 samples of the weighted penalties of the pair of
  steps (t, t + 1): the first point resets the buffer to zero and adds its block, every later point adds its block to
  what the buffer held. The buffer is written back once, after the last of the 64 points, and its one block is the
  whole array; so the array ends, there, at the sum over all 2048 samples.
-/
import proofs.«429960_j51273319580286_4_alg».proof.Proof.KFrame
import proofs.«429960_j51273319580286_4_alg».proof.Proof.KPieces
import proofs.«429960_j51273319580286_4_alg».proof.Proof.KBlocks
import proofs.«429960_j51273319580286_4_alg».proof.Proof.KPayload
import proofs.«429960_j51273319580286_4_alg».proof.Proof.KAccumMath
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

variable (m : (ℓ : Loc nD τ sig) → Buf (Elt Ideal) ℓ)

/-- The launch array of scores on core c. -/
abbrev scores (c : Dev nD) : S2048x16x2048x1.Idx → EReal := m ((c : Thread nD τ).loc main_arg1)
/-- The launch array of mask words on core c. -/
abbrev words (c : Dev nD) : S2048x16.Idx → BitVec 32 := m ((c : Thread nD τ).loc main_arg3)

/-- The weighted penalty of sample B at the pair of steps (t, t + 1). -/
def sampleTerm (c : Dev nD) (t : Fin 15) (B : Fin 2048) : EReal :=
  Cert.Spec.weighted (fun r : Fin 2048 => scores m c (ix4 B t.succ r (0 : Fin 1)))
    (fun r : Fin 2048 => scores m c (ix4 B t.castSucc r (0 : Fin 1)))
    (words m c (ix2 B t.succ)) (words m c (ix2 B t.castSucc))

/-- The sum of the weighted penalties over the 32 samples of block i (zero past the last block). -/
def blockTerm (c : Dev nD) (t : Fin 15) (i : ℕ) : EReal :=
  if hi : i < 64 then ∑ b : Fin 32, sampleTerm m c t ⟨32 * i + b.val, by have := b.isLt; omega⟩ else 0

/-- The accumulation at grid point p, at row 0 and column t: what the buffer held plus block p's sum. -/
theorem payload_at_point (c : Dev nD) (t : Fin 15) (p : Fin cfg0.N) (prev : Vec Ideal S8x128 .f32) :
    k0_pay2 (F := Ideal) (xblk m c p) (vblk m c p) prev (ix2 (0 : Fin 8) (⟨t.val, by omega⟩ : Fin 128))
      = prev (ix2 (0 : Fin 8) (⟨t.val, by omega⟩ : Fin 128)) + blockTerm m c t p.val := by
  have hp : p.val < 64 := lt_of_lt_of_eq p.isLt (show cfg0.N = 64 from N_0)
  rw [pay2_row0]
  unfold blockTerm
  rw [dif_pos hp]
  refine congrArg (prev (ix2 (0 : Fin 8) (⟨t.val, by omega⟩ : Fin 128)) + ·) (Finset.sum_congr rfl fun b _ => ?_)
  unfold sampleTerm
  simp only [xblk_apply, vblk_apply]

/-- After grid point n the output's staging buffer holds, at row 0 and column t, the sum of the first n + 1 blocks'
    sums: by induction on the point. -/
theorem outsAt_row0 (c : Dev nD) (t : Fin 15) : ∀ (n : ℕ) (h : n < cfg0.N),
    outsAt0 m c n h (ix2 (0 : Fin 8) (⟨t.val, by omega⟩ : Fin 128)) = ∑ i ∈ Finset.range (n + 1), blockTerm m c t i
  | 0, h => by
    have e : outsAt0 m c 0 h = k0_pay2 (F := Ideal) (xblk m c ⟨0, h⟩) (vblk m c ⟨0, h⟩) (k0_pay1 (F := Ideal)) :=
      (outsAt0_A m c ⟨0, h⟩ rfl).trans (out_A ..)
    rw [e, payload_at_point, pay1_apply, zero_add, Finset.sum_range_one]
  | n + 1, h => by
    have hN : cfg0.N = 64 := N_0
    have hB : ¬(⟨n + 1, h⟩ : Fin cfg0.N).val % 64 = 0 := by dsimp only; omega
    have e : outsAt0 m c (n + 1) h
        = k0_pay2 (F := Ideal) (xblk m c ⟨n + 1, h⟩) (vblk m c ⟨n + 1, h⟩) (outsAt0 m c n (Nat.lt_of_succ_lt h)) :=
      (outsAt0_B m c ⟨n + 1, h⟩ hB).trans (out_B ..)
    rw [e, payload_at_point, outsAt_row0 c t n, Finset.sum_range_succ _ (n + 1)]

/-- The 64 blocks' sums add up to the sum over the 2048 samples. -/
theorem blocks_total (c : Dev nD) (t : Fin 15) :
    ∑ i ∈ Finset.range 64, blockTerm m c t i = ∑ B : Fin 2048, sampleTerm m c t B := by
  rw [← Fin.sum_univ_eq_sum_range (fun i => blockTerm m c t i) 64, ← Cert.Hand.sum_blocks (sampleTerm m c t)]
  refine Finset.sum_congr rfl fun i _ => ?_
  unfold blockTerm
  rw [dif_pos i.isLt]

/-- The output window's block is, at every point, the whole [8, 128] array at offset zero. -/
theorem out_facts : ∀ t : Fin cfg0.N,
    win0_2.index t (0 : Fin 2) = 0 ∧ win0_2.index t (1 : Fin 2) = 0
    ∧ win0_2.xsize (grid0.coords t) (0 : Fin 2) = 8 ∧ win0_2.xsize (grid0.coords t) (1 : Fin 2) = 128 :=
  (by decide +kernel : ∀ t : Fin grid0.N,
    win0_2.index t (0 : Fin 2) = 0 ∧ win0_2.index t (1 : Fin 2) = 0
    ∧ win0_2.xsize (grid0.coords t) (0 : Fin 2) = 8 ∧ win0_2.xsize (grid0.coords t) (1 : Fin 2) = 128)

/-- The last grid point. -/
abbrev lastPt : Fin cfg0.N := ⟨63, by rw [show cfg0.N = 64 from N_0]; decide⟩

/-- What the output's staging buffer holds after the last point, as contents of the result array. -/
abbrev result (c : Dev nD) : Buf (Elt Ideal) ((c : Thread nD τ).loc main_v1) := outsAt0 m c 63 lastPt.isLt

/-- The one write-back, after the last point, writes it: the block read through zero offsets is the array. -/
theorem flushed_eq (c : Dev nD) (t : Fin cfg0.N) (hf : (cfg0.win 2).flush t = true) :
    (dats m 0 c).flushed 2 t = ((cfg0.win 2).blk t).view.read (Elt Ideal) (result m c) := by
  have hN : cfg0.N = 64 := N_0
  have h3 : t.val = 63 := by have := (flush0_2 t).mp hf; have := t.isLt; omega
  obtain ⟨i0, i1, -, -⟩ := out_facts t
  have hres : ∀ (n : ℕ) (hn : n < cfg0.N), n = 63 → outsAt0 m c n hn = result m c := by
    intro n hn e; subst e; rfl
  show (cfg0.win 2).cut (grid0.coords t) ((dats m 0 c).after 2 t) = _
  rw [after0_2, hres _ _ h3]
  have hz' : (fun a => win0_2.index t a * main_v1.ty.shape.size a) = fun _ => 0 := funext fun a => by
    match a with
    | ⟨0, _⟩ => show win0_2.index t 0 * _ = 0; rw [i0, Nat.zero_mul]
    | ⟨1, _⟩ => show win0_2.index t 1 * _ = 0; rw [i1, Nat.zero_mul]
  exact (Memref.read_access_unit_zero (Elt Ideal) main_v1 hz' (fun a => by rw [congrFun hz' a]; simp) (result m c)).symm

/-- So the result array ends holding what the buffer held after the last point. -/
theorem final_o (c : Dev nD) : (dats m 0 c).arrAt 2 cfg0.N = result m c :=
  (dats m 0 c).arrAt_eq_of_cover 2 (result m c) (flushed_eq m c) fun i =>
    ⟨lastPt, (flush0_2 lastPt).mpr rfl, by
      obtain ⟨i0, i1, x0, x1⟩ := out_facts lastPt
      show i ∈ ((View.whole main_v1).slice (win0_2.rect lastPt)).set
      rw [View.set_slice_whole, Rect.mem_set_unit]
      intro a
      have h0 : (i 0 : Nat) < 8 := (i 0).isLt
      have h1 : (i 1 : Nat) < 128 := (i 1).isLt
      match a with
      | ⟨0, _⟩ =>
        show win0_2.index lastPt 0 * win0_2.size 0 ≤ (i 0 : Nat) ∧ (i 0 : Nat) < win0_2.index lastPt 0 * win0_2.size 0 + win0_2.xsize (grid0.coords lastPt) 0
        rw [i0, x0]; omega
      | ⟨1, _⟩ =>
        show win0_2.index lastPt 1 * win0_2.size 1 ≤ (i 1 : Nat) ∧ (i 1 : Nat) < win0_2.index lastPt 1 * win0_2.size 1 + win0_2.xsize (grid0.coords lastPt) 1
        rw [i1, x1]; omega⟩

/-- THE VALUE: row 0, column t < 15 of the result array is the sum over all 2048 samples of the weighted penalty of
    the pair of steps (t, t + 1). -/
theorem region_value (c : Dev nD) (t : Fin 15) :
    ((dats m 0 c).arrAt 2 cfg0.N : S8x128.Idx → EReal) (ix2 (0 : Fin 8) (⟨t.val, by omega⟩ : Fin 128))
      = ∑ B : Fin 2048, Cert.Spec.weighted
          (fun r : Fin 2048 => (m ((c : Thread nD τ).loc main_arg1) : S2048x16x2048x1.Idx → EReal) (ix4 B t.succ r (0 : Fin 1)))
          (fun r : Fin 2048 => (m ((c : Thread nD τ).loc main_arg1) : S2048x16x2048x1.Idx → EReal) (ix4 B t.castSucc r (0 : Fin 1)))
          ((m ((c : Thread nD τ).loc main_arg3) : S2048x16.Idx → BitVec 32) (ix2 B t.succ))
          ((m ((c : Thread nD τ).loc main_arg3) : S2048x16.Idx → BitVec 32) (ix2 B t.castSucc)) := by
  rw [final_o]
  show outsAt0 m c 63 _ (ix2 (0 : Fin 8) (⟨t.val, by omega⟩ : Fin 128)) = _
  rw [outsAt_row0, blocks_total]
  rfl

end Cert.KernelIdeal.Hand

end
-- ==== Proof.RRun.lean ====
/- The run of the idealized reference program. @main is a host program: a straight line of tensor operations, four
   of them calls of functions defined beside it (two of which call `softplus` in turn). Unfolding every call at its
   site gives one list of 114 operations; the program IS that list run in order, so every buffer ends at the fold
   of the operations' results over what it held at launch, and a buffer no operation writes — each of the four
   arguments — ends unchanged. -/
import proofs.«429960_j51273319580286_4_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The first window of @main as a list of operations, in program order. A call is replaced by its callee's
    operations over that call's own buffers: `log_sigmoid x` is `-(softplus (-x))`, sixteen operations with
    `softplus`'s fourteen in the middle; `relu` is three (the zero, its broadcast, the maximum). -/
abbrev ops0 : List (HloOp τ sig (Elt F)) :=
  [ StableHlo.unary main_arg2 main_v0 (sitofp .f32 : (⟨S2048x16, .i32⟩ : BufTy).Contents (Elt F) → (⟨S2048x16, .f32⟩ : BufTy).Contents (Elt F)),
    StableHlo.unary main_v0 main_v1 (broadcastInDim S2048x16x1 ![0, 1] bcast_S2048x16_S2048x16x1_0_1 : (⟨S2048x16, .f32⟩ : BufTy).Contents (Elt F) → (⟨S2048x16x1, .f32⟩ : BufTy).Contents (Elt F)),
    StableHlo.unary main_arg3 main_v2 (sitofp .f32 : (⟨S2048x16, .i32⟩ : BufTy).Contents (Elt F) → (⟨S2048x16, .f32⟩ : BufTy).Contents (Elt F)),
    StableHlo.unary main_v2 main_v3 (broadcastInDim S2048x16x1 ![0, 1] bcast_S2048x16_S2048x16x1_0_1 : (⟨S2048x16, .f32⟩ : BufTy).Contents (Elt F) → (⟨S2048x16x1, .f32⟩ : BufTy).Contents (Elt F)),
    StableHlo.nullary main_cst (constant S_ .f32 0x40000000#32),
    StableHlo.unary main_cst main_v4 (broadcastInDim S2048x16x1 ![] bcast_S_S2048x16x1 : (⟨S_, .f32⟩ : BufTy).Contents (Elt F) → (⟨S2048x16x1, .f32⟩ : BufTy).Contents (Elt F)),
    StableHlo.binary main_v4 main_v1 main_v5 (mulf : (⟨S2048x16x1, .f32⟩ : BufTy).Contents (Elt F) → (⟨S2048x16x1, .f32⟩ : BufTy).Contents (Elt F) → (⟨S2048x16x1, .f32⟩ : BufTy).Contents (Elt F)),
    StableHlo.TRef.unary (.of main_arg0 : StableHlo.TRef sig ⟨S2048x16x1, .f32⟩) main_call0.v0 Host.negf,
    StableHlo.TRef.nullary main_call0.call0.cst (constant S_ .f32 0x00000000#32),
    StableHlo.TRef.unary main_call0.call0.cst main_call0.call0.v0 (broadcastInDim S2048x16x1 ![] bcast_S_S2048x16x1),
    StableHlo.TRef.binary main_call0.v0 main_call0.call0.v0 main_call0.call0.v1 maximumf,
    StableHlo.TRef.unary main_call0.call0.cst main_call0.call0.v2 (broadcastInDim S2048x16x1 ![] bcast_S_S2048x16x1),
    StableHlo.TRef.binary main_call0.v0 main_call0.call0.v2 main_call0.call0.v3 subf,
    StableHlo.TRef.binary main_call0.call0.v3 main_call0.call0.v3 main_call0.call0.v4 (cmpf .une),
    StableHlo.TRef.unary main_call0.call0.cst main_call0.call0.v5 (broadcastInDim S2048x16x1 ![] bcast_S_S2048x16x1),
    StableHlo.TRef.binary main_call0.v0 main_call0.call0.v5 main_call0.call0.v6 addf,
    StableHlo.TRef.unary main_call0.call0.v3 main_call0.call0.v7 Host.absf,
    StableHlo.TRef.unary main_call0.call0.v7 main_call0.call0.v8 Host.negf,
    StableHlo.TRef.unary main_call0.call0.v8 main_call0.call0.v9 Host.exp,
    StableHlo.TRef.unary main_call0.call0.v9 main_call0.call0.v10 Host.log1p,
    StableHlo.TRef.binary main_call0.call0.v1 main_call0.call0.v10 main_call0.call0.v11 addf,
    StableHlo.TRef.ternary main_call0.call0.v4 main_call0.call0.v6 main_call0.call0.v11 main_call0.call0.v12 select,
    StableHlo.TRef.unary main_call0.call0.v12 main_call0.v2 Host.negf,
    StableHlo.binary main_v5 main_v6 main_v7 (mulf : (⟨S2048x16x1, .f32⟩ : BufTy).Contents (Elt F) → (⟨S2048x16x1, .f32⟩ : BufTy).Contents (Elt F) → (⟨S2048x16x1, .f32⟩ : BufTy).Contents (Elt F)),
    StableHlo.nullary main_cst_0 (constant S_ .f32 0x3F800000#32),
    StableHlo.unary main_cst_0 main_v8 (broadcastInDim S2048x16x1 ![] bcast_S_S2048x16x1 : (⟨S_, .f32⟩ : BufTy).Contents (Elt F) → (⟨S2048x16x1, .f32⟩ : BufTy).Contents (Elt F)),
    StableHlo.binary main_v8 main_v1 main_v9 (subf : (⟨S2048x16x1, .f32⟩ : BufTy).Contents (Elt F) → (⟨S2048x16x1, .f32⟩ : BufTy).Contents (Elt F) → (⟨S2048x16x1, .f32⟩ : BufTy).Contents (Elt F)),
    StableHlo.unary main_arg0 main_v10 (Host.negf : (⟨S2048x16x1, .f32⟩ : BufTy).Contents (Elt F) → (⟨S2048x16x1, .f32⟩ : BufTy).Contents (Elt F)),
    StableHlo.TRef.unary (.of main_v10 : StableHlo.TRef sig ⟨S2048x16x1, .f32⟩) main_call1.v0 Host.negf,
    StableHlo.TRef.nullary main_call1.call0.cst (constant S_ .f32 0x00000000#32),
    StableHlo.TRef.unary main_call1.call0.cst main_call1.call0.v0 (broadcastInDim S2048x16x1 ![] bcast_S_S2048x16x1),
    StableHlo.TRef.binary main_call1.v0 main_call1.call0.v0 main_call1.call0.v1 maximumf,
    StableHlo.TRef.unary main_call1.call0.cst main_call1.call0.v2 (broadcastInDim S2048x16x1 ![] bcast_S_S2048x16x1),
    StableHlo.TRef.binary main_call1.v0 main_call1.call0.v2 main_call1.call0.v3 subf,
    StableHlo.TRef.binary main_call1.call0.v3 main_call1.call0.v3 main_call1.call0.v4 (cmpf .une),
    StableHlo.TRef.unary main_call1.call0.cst main_call1.call0.v5 (broadcastInDim S2048x16x1 ![] bcast_S_S2048x16x1),
    StableHlo.TRef.binary main_call1.v0 main_call1.call0.v5 main_call1.call0.v6 addf,
    StableHlo.TRef.unary main_call1.call0.v3 main_call1.call0.v7 Host.absf,
    StableHlo.TRef.unary main_call1.call0.v7 main_call1.call0.v8 Host.negf,
    StableHlo.TRef.unary main_call1.call0.v8 main_call1.call0.v9 Host.exp,
    StableHlo.TRef.unary main_call1.call0.v9 main_call1.call0.v10 Host.log1p,
    StableHlo.TRef.binary main_call1.call0.v1 main_call1.call0.v10 main_call1.call0.v11 addf,
    StableHlo.TRef.ternary main_call1.call0.v4 main_call1.call0.v6 main_call1.call0.v11 main_call1.call0.v12 select,
    StableHlo.TRef.unary main_call1.call0.v12 main_call1.v2 Host.negf,
    StableHlo.binary main_v9 main_v11 main_v12 (mulf : (⟨S2048x16x1, .f32⟩ : BufTy).Contents (Elt F) → (⟨S2048x16x1, .f32⟩ : BufTy).Contents (Elt F) → (⟨S2048x16x1, .f32⟩ : BufTy).Contents (Elt F)),
    StableHlo.binary main_v7 main_v12 main_v13 (addf : (⟨S2048x16x1, .f32⟩ : BufTy).Contents (Elt F) → (⟨S2048x16x1, .f32⟩ : BufTy).Contents (Elt F) → (⟨S2048x16x1, .f32⟩ : BufTy).Contents (Elt F)),
    StableHlo.unary main_v13 main_v14 (Host.negf : (⟨S2048x16x1, .f32⟩ : BufTy).Contents (Elt F) → (⟨S2048x16x1, .f32⟩ : BufTy).Contents (Elt F)),
    StableHlo.binary main_v14 main_v3 main_v15 (mulf : (⟨S2048x16x1, .f32⟩ : BufTy).Contents (Elt F) → (⟨S2048x16x1, .f32⟩ : BufTy).Contents (Elt F) → (⟨S2048x16x1, .f32⟩ : BufTy).Contents (Elt F)),
    StableHlo.nullary main_cst_1 (constant S_ .f32 0x00000000#32),
    StableHlo.binary main_v15 main_cst_1 main_v16 ((fun x v => Host.reduceAdd x v reducesTo_S2048x16x1_S_d0_1_2 h_S_) : (⟨S2048x16x1, .f32⟩ : BufTy).Contents (Elt F) → (⟨S_, .f32⟩ : BufTy).Contents (Elt F) → (⟨S_, .f32⟩ : BufTy).Contents (Elt F)),
    StableHlo.nullary main_cst_2 (constant S_ .f32 0x00000000#32),
    StableHlo.binary main_v3 main_cst_2 main_v17 ((fun x v => Host.reduceAdd x v reducesTo_S2048x16x1_S_d0_1_2 h_S_) : (⟨S2048x16x1, .f32⟩ : BufTy).Contents (Elt F) → (⟨S_, .f32⟩ : BufTy).Contents (Elt F) → (⟨S_, .f32⟩ : BufTy).Contents (Elt F)),
    StableHlo.nullary main_cst_3 (constant S_ .f32 0x322BCC77#32),
    StableHlo.binary main_v17 main_cst_3 main_v18 (maximumf : (⟨S_, .f32⟩ : BufTy).Contents (Elt F) → (⟨S_, .f32⟩ : BufTy).Contents (Elt F) → (⟨S_, .f32⟩ : BufTy).Contents (Elt F)),
    StableHlo.binary main_v16 main_v18 main_v19 (Host.divf : (⟨S_, .f32⟩ : BufTy).Contents (Elt F) → (⟨S_, .f32⟩ : BufTy).Contents (Elt F) → (⟨S_, .f32⟩ : BufTy).Contents (Elt F)),
    StableHlo.unary main_v3 main_v20 ((extractStridedSlice S2048x15x1 ![0, 1, 0] · slices_S2048x16x1_S2048x15x1_0_1_0) : (⟨S2048x16x1, .f32⟩ : BufTy).Contents (Elt F) → (⟨S2048x15x1, .f32⟩ : BufTy).Contents (Elt F)),
    StableHlo.reshape main_v20 main_v21 rfl shapeCasts_S2048x15x1_S2048x15,
    StableHlo.nullary main_cst_4 (constant S_ .f32 0x3F000000#32),
    StableHlo.unary main_cst_4 main_v22 (broadcastInDim S2048x15 ![] bcast_S_S2048x15 : (⟨S_, .f32⟩ : BufTy).Contents (Elt F) → (⟨S2048x15, .f32⟩ : BufTy).Contents (Elt F)),
    StableHlo.binary main_v21 main_v22 main_v23 (cmpf .ogt : (⟨S2048x15, .f32⟩ : BufTy).Contents (Elt F) → (⟨S2048x15, .f32⟩ : BufTy).Contents (Elt F) → (⟨S2048x15, .i1⟩ : BufTy).Contents (Elt F)),
    StableHlo.unary main_v3 main_v24 ((extractStridedSlice S2048x15x1 ![0, 0, 0] · slices_S2048x16x1_S2048x15x1_0_0_0) : (⟨S2048x16x1, .f32⟩ : BufTy).Contents (Elt F) → (⟨S2048x15x1, .f32⟩ : BufTy).Contents (Elt F)),
    StableHlo.reshape main_v24 main_v25 rfl shapeCasts_S2048x15x1_S2048x15,
    StableHlo.nullary main_cst_5 (constant S_ .f32 0x3F000000#32),
    StableHlo.unary main_cst_5 main_v26 (broadcastInDim S2048x15 ![] bcast_S_S2048x15 : (⟨S_, .f32⟩ : BufTy).Contents (Elt F) → (⟨S2048x15, .f32⟩ : BufTy).Contents (Elt F)),
    StableHlo.binary main_v25 main_v26 main_v27 (cmpf .ogt : (⟨S2048x15, .f32⟩ : BufTy).Contents (Elt F) → (⟨S2048x15, .f32⟩ : BufTy).Contents (Elt F) → (⟨S2048x15, .i1⟩ : BufTy).Contents (Elt F)),
    StableHlo.binary main_v23 main_v27 main_v28 (andi : (⟨S2048x15, .i1⟩ : BufTy).Contents (Elt F) → (⟨S2048x15, .i1⟩ : BufTy).Contents (Elt F) → (⟨S2048x15, .i1⟩ : BufTy).Contents (Elt F)),
    StableHlo.unary main_arg1 main_v29 ((extractStridedSlice S2048x15x2048x1 ![0, 1, 0, 0] · slices_S2048x16x2048x1_S2048x15x2048x1_0_1_0_0) : (⟨S2048x16x2048x1, .f32⟩ : BufTy).Contents (Elt F) → (⟨S2048x15x2048x1, .f32⟩ : BufTy).Contents (Elt F)),
    StableHlo.unary main_arg1 main_v30 ((extractStridedSlice S2048x15x2048x1 ![0, 0, 0, 0] · slices_S2048x16x2048x1_S2048x15x2048x1_0_0_0_0) : (⟨S2048x16x2048x1, .f32⟩ : BufTy).Contents (Elt F) → (⟨S2048x15x2048x1, .f32⟩ : BufTy).Contents (Elt F)),
    StableHlo.binary main_v29 main_v30 main_v31 (subf : (⟨S2048x15x2048x1, .f32⟩ : BufTy).Contents (Elt F) → (⟨S2048x15x2048x1, .f32⟩ : BufTy).Contents (Elt F) → (⟨S2048x15x2048x1, .f32⟩ : BufTy).Contents (Elt F)),
    StableHlo.unary main_v31 main_v32 (Host.absf : (⟨S2048x15x2048x1, .f32⟩ : BufTy).Contents (Elt F) → (⟨S2048x15x2048x1, .f32⟩ : BufTy).Contents (Elt F)),
    StableHlo.nullary main_cst_6 (constant S_ .f32 0x3E4CCCCD#32),
    StableHlo.unary main_cst_6 main_v33 (broadcastInDim S2048x15x2048x1 ![] bcast_S_S2048x15x2048x1 : (⟨S_, .f32⟩ : BufTy).Contents (Elt F) → (⟨S2048x15x2048x1, .f32⟩ : BufTy).Contents (Elt F)),
    StableHlo.binary main_v32 main_v33 main_v34 (subf : (⟨S2048x15x2048x1, .f32⟩ : BufTy).Contents (Elt F) → (⟨S2048x15x2048x1, .f32⟩ : BufTy).Contents (Elt F) → (⟨S2048x15x2048x1, .f32⟩ : BufTy).Contents (Elt F)),
    StableHlo.TRef.nullary main_call2.cst (constant S_ .f32 0x00000000#32),
    StableHlo.TRef.unary main_call2.cst main_call2.v0 (broadcastInDim S2048x15x2048x1 ![] bcast_S_S2048x15x2048x1),
    StableHlo.TRef.binary (.of main_v34 : StableHlo.TRef sig ⟨S2048x15x2048x1, .f32⟩) main_call2.v0 main_call2.v1 maximumf,
    StableHlo.binary main_v35 main_v35 main_v36 (mulf : (⟨S2048x15x2048x1, .f32⟩ : BufTy).Contents (Elt F) → (⟨S2048x15x2048x1, .f32⟩ : BufTy).Contents (Elt F) → (⟨S2048x15x2048x1, .f32⟩ : BufTy).Contents (Elt F)),
    StableHlo.nullary main_cst_7 (constant S_ .f32 0x00000000#32),
    StableHlo.binary main_v36 main_cst_7 main_v37 ((fun x v => Host.reduceAdd x v reducesTo_S2048x15x2048x1_S2048x15_d2_3 h_S_) : (⟨S2048x15x2048x1, .f32⟩ : BufTy).Contents (Elt F) → (⟨S_, .f32⟩ : BufTy).Contents (Elt F) → (⟨S2048x15, .f32⟩ : BufTy).Contents (Elt F)),
    StableHlo.nullary main_cst_8 (constant S_ .f32 0x45000000#32),
    StableHlo.unary main_cst_8 main_v38 (broadcastInDim S2048x15 ![] bcast_S_S2048x15 : (⟨S_, .f32⟩ : BufTy).Contents (Elt F) → (⟨S2048x15, .f32⟩ : BufTy).Contents (Elt F)),
    StableHlo.binary main_v37 main_v38 main_v39 (Host.divf : (⟨S2048x15, .f32⟩ : BufTy).Contents (Elt F) → (⟨S2048x15, .f32⟩ : BufTy).Contents (Elt F) → (⟨S2048x15, .f32⟩ : BufTy).Contents (Elt F)),
    StableHlo.unary main_v28 main_v40 ((extui 32 · natLt_1_32) : (⟨S2048x15, .i1⟩ : BufTy).Contents (Elt F) → (⟨S2048x15, .i32⟩ : BufTy).Contents (Elt F)),
    StableHlo.nullary main_c (constantI S_ 32 0#32),
    StableHlo.binary main_v40 main_c main_v41 ((fun x v => Host.reduce IntOp.addi x v reducesTo_S2048x15_S15_d0 h_S_) : (⟨S2048x15, .i32⟩ : BufTy).Contents (Elt F) → (⟨S_, .i32⟩ : BufTy).Contents (Elt F) → (⟨S15, .i32⟩ : BufTy).Contents (Elt F)),
    StableHlo.unary main_v28 main_v42 (uitofp .f32 : (⟨S2048x15, .i1⟩ : BufTy).Contents (Elt F) → (⟨S2048x15, .f32⟩ : BufTy).Contents (Elt F)),
    StableHlo.binary main_v39 main_v42 main_v43 (mulf : (⟨S2048x15, .f32⟩ : BufTy).Contents (Elt F) → (⟨S2048x15, .f32⟩ : BufTy).Contents (Elt F) → (⟨S2048x15, .f32⟩ : BufTy).Contents (Elt F)),
    StableHlo.nullary main_cst_9 (constant S_ .f32 0x00000000#32),
    StableHlo.binary main_v43 main_cst_9 main_v44 ((fun x v => Host.reduceAdd x v reducesTo_S2048x15_S15_d0 h_S_) : (⟨S2048x15, .f32⟩ : BufTy).Contents (Elt F) → (⟨S_, .f32⟩ : BufTy).Contents (Elt F) → (⟨S15, .f32⟩ : BufTy).Contents (Elt F)),
    StableHlo.nullary main_c_10 (constantI S_ 32 1#32),
    StableHlo.unary main_c_10 main_v45 (broadcastInDim S15 ![] bcast_S_S15 : (⟨S_, .i32⟩ : BufTy).Contents (Elt F) → (⟨S15, .i32⟩ : BufTy).Contents (Elt F)),
    StableHlo.binary main_v41 main_v45 main_v46 (maxsi : (⟨S15, .i32⟩ : BufTy).Contents (Elt F) → (⟨S15, .i32⟩ : BufTy).Contents (Elt F) → (⟨S15, .i32⟩ : BufTy).Contents (Elt F)) ]

/-- The second window: the tail of @main, with `_where`'s two operations (the copy of the else-value, the select)
    in place of its call. -/
abbrev ops1 : List (HloOp τ sig (Elt F)) :=
  [ StableHlo.unary main_v46 main_v47 (sitofp .f32 : (⟨S15, .i32⟩ : BufTy).Contents (Elt F) → (⟨S15, .f32⟩ : BufTy).Contents (Elt F)),
    StableHlo.binary main_v44 main_v47 main_v48 (Host.divf : (⟨S15, .f32⟩ : BufTy).Contents (Elt F) → (⟨S15, .f32⟩ : BufTy).Contents (Elt F) → (⟨S15, .f32⟩ : BufTy).Contents (Elt F)),
    StableHlo.nullary main_c_11 (constantI S_ 32 0#32),
    StableHlo.unary main_c_11 main_v49 (broadcastInDim S15 ![] bcast_S_S15 : (⟨S_, .i32⟩ : BufTy).Contents (Elt F) → (⟨S15, .i32⟩ : BufTy).Contents (Elt F)),
    StableHlo.binary main_v41 main_v49 main_v50 (cmpi .sgt : (⟨S15, .i32⟩ : BufTy).Contents (Elt F) → (⟨S15, .i32⟩ : BufTy).Contents (Elt F) → (⟨S15, .i1⟩ : BufTy).Contents (Elt F)),
    StableHlo.unary main_v50 main_v51 ((extui 32 · natLt_1_32) : (⟨S15, .i1⟩ : BufTy).Contents (Elt F) → (⟨S15, .i32⟩ : BufTy).Contents (Elt F)),
    StableHlo.nullary main_c_12 (constantI S_ 32 0#32),
    StableHlo.binary main_v51 main_c_12 main_v52 ((fun x v => Host.reduce IntOp.addi x v reducesTo_S15_S_d0 h_S_) : (⟨S15, .i32⟩ : BufTy).Contents (Elt F) → (⟨S_, .i32⟩ : BufTy).Contents (Elt F) → (⟨S_, .i32⟩ : BufTy).Contents (Elt F)),
    StableHlo.nullary main_c_13 (constantI S_ 32 0#32),
    StableHlo.binary main_v52 main_c_13 main_v53 (cmpi .sgt : (⟨S_, .i32⟩ : BufTy).Contents (Elt F) → (⟨S_, .i32⟩ : BufTy).Contents (Elt F) → (⟨S_, .i1⟩ : BufTy).Contents (Elt F)),
    StableHlo.nullary main_cst_14 (constant S_ .f32 0x00000000#32),
    StableHlo.binary main_v48 main_cst_14 main_v54 ((fun x v => Host.reduceAdd x v reducesTo_S15_S_d0 h_S_) : (⟨S15, .f32⟩ : BufTy).Contents (Elt F) → (⟨S_, .f32⟩ : BufTy).Contents (Elt F) → (⟨S_, .f32⟩ : BufTy).Contents (Elt F)),
    StableHlo.nullary main_c_15 (constantI S_ 32 1#32),
    StableHlo.binary main_v52 main_c_15 main_v55 (maxsi : (⟨S_, .i32⟩ : BufTy).Contents (Elt F) → (⟨S_, .i32⟩ : BufTy).Contents (Elt F) → (⟨S_, .i32⟩ : BufTy).Contents (Elt F)),
    StableHlo.unary main_v55 main_v56 (sitofp .f32 : (⟨S_, .i32⟩ : BufTy).Contents (Elt F) → (⟨S_, .f32⟩ : BufTy).Contents (Elt F)),
    StableHlo.binary main_v54 main_v56 main_v57 (Host.divf : (⟨S_, .f32⟩ : BufTy).Contents (Elt F) → (⟨S_, .f32⟩ : BufTy).Contents (Elt F) → (⟨S_, .f32⟩ : BufTy).Contents (Elt F)),
    StableHlo.nullary main_cst_16 (constant S_ .f32 0x00000000#32),
    StableHlo.TRef.unary (.of main_cst_16 : StableHlo.TRef sig ⟨S_, .f32⟩) main_call3.v0 id,
    StableHlo.TRef.ternary (.of main_v53 : StableHlo.TRef sig ⟨S_, .i1⟩) (.of main_v57 : StableHlo.TRef sig ⟨S_, .f32⟩) main_call3.v0 main_call3.v1 select,
    StableHlo.nullary main_cst_17 (constant S_ .f32 0x3E4CCCCD#32),
    StableHlo.binary main_cst_17 main_v58 main_v59 (mulf : (⟨S_, .f32⟩ : BufTy).Contents (Elt F) → (⟨S_, .f32⟩ : BufTy).Contents (Elt F) → (⟨S_, .f32⟩ : BufTy).Contents (Elt F)),
    StableHlo.binary main_v19 main_v59 main_v60 (addf : (⟨S_, .f32⟩ : BufTy).Contents (Elt F) → (⟨S_, .f32⟩ : BufTy).Contents (Elt F) → (⟨S_, .f32⟩ : BufTy).Contents (Elt F)) ]

/-- @main's operations: the two windows, in order. -/
abbrev ops : List (HloOp τ sig (Elt F)) := ops0 ++ ops1

set_option maxRecDepth 8192 in
set_option maxHeartbeats 4000000 in
/-- The first window is the straight line `ops0`: the callees' definitions unfolded at their calls, both sides
    are one chain of steps once sequencing is reassociated. -/
theorem part0_eq (c : Dev nD) : main_part0 (F := F) c = seq ops0 := by
  simp only [main_part0, fn_log_sigmoid.body, fn_log_sigmoid_0.body, fn_softplus.body, fn_relu.body, seq, bind_assoc,
    pure_bind]
  rfl

set_option maxRecDepth 4096 in
/-- The second window is the straight line `ops1`. -/
theorem part1_eq (c : Dev nD) : main_part1 (F := F) c = seq ops1 := by
  simp only [main_part1, fn_where.body, seq, bind_assoc, pure_bind]

/-- @main runs its two windows one after the other, which is the concatenated line run as one. -/
theorem main_eq (c : Dev nD) : main (F := F) c = seq ops := by
  rw [seq_append, ← part0_eq c, ← part1_eq c]; rfl

/-- No TensorCore buffer of this signature is scoped. -/
theorem scopedRefs_eq : (Finset.univ.filter fun b : Ref sig .tc => b.isScoped) = ∅ := by decide
/-- No semaphore of this signature is scoped. -/
theorem scopedSems_eq : (Finset.univ.filter fun sm : SemLoc sig => sm.isScoped .tc) = ∅ := by decide

/-- Every operation of the first window touches TensorCore buffers only. -/
theorem ops0_sub : (ops0 : List (HloOp τ sig (Elt F))).Forall fun op => op.bufs ⊆ tcRefs τ sig :=
  ⟨unary_bufs_sub .., unary_bufs_sub .., unary_bufs_sub .., unary_bufs_sub .., nullary_bufs_sub .., unary_bufs_sub ..,
    binary_bufs_sub .., unary_bufs_sub .., nullary_bufs_sub .., unary_bufs_sub .., binary_bufs_sub .., unary_bufs_sub ..,
    binary_bufs_sub .., binary_bufs_sub .., unary_bufs_sub .., binary_bufs_sub .., unary_bufs_sub .., unary_bufs_sub ..,
    unary_bufs_sub .., unary_bufs_sub .., binary_bufs_sub .., ternary_bufs_sub .., unary_bufs_sub .., binary_bufs_sub ..,
    nullary_bufs_sub .., unary_bufs_sub .., binary_bufs_sub .., unary_bufs_sub .., unary_bufs_sub .., nullary_bufs_sub ..,
    unary_bufs_sub .., binary_bufs_sub .., unary_bufs_sub .., binary_bufs_sub .., binary_bufs_sub .., unary_bufs_sub ..,
    binary_bufs_sub .., unary_bufs_sub .., unary_bufs_sub .., unary_bufs_sub .., unary_bufs_sub .., binary_bufs_sub ..,
    ternary_bufs_sub .., unary_bufs_sub .., binary_bufs_sub .., binary_bufs_sub .., unary_bufs_sub .., binary_bufs_sub ..,
    nullary_bufs_sub .., binary_bufs_sub .., nullary_bufs_sub .., binary_bufs_sub .., nullary_bufs_sub .., binary_bufs_sub ..,
    binary_bufs_sub .., unary_bufs_sub .., reshape_bufs_sub .., nullary_bufs_sub .., unary_bufs_sub .., binary_bufs_sub ..,
    unary_bufs_sub .., reshape_bufs_sub .., nullary_bufs_sub .., unary_bufs_sub .., binary_bufs_sub .., binary_bufs_sub ..,
    unary_bufs_sub .., unary_bufs_sub .., binary_bufs_sub .., unary_bufs_sub .., nullary_bufs_sub .., unary_bufs_sub ..,
    binary_bufs_sub .., nullary_bufs_sub .., unary_bufs_sub .., binary_bufs_sub .., binary_bufs_sub .., nullary_bufs_sub ..,
    binary_bufs_sub .., nullary_bufs_sub .., unary_bufs_sub .., binary_bufs_sub .., unary_bufs_sub .., nullary_bufs_sub ..,
    binary_bufs_sub .., unary_bufs_sub .., binary_bufs_sub .., nullary_bufs_sub .., binary_bufs_sub .., nullary_bufs_sub ..,
    unary_bufs_sub .., binary_bufs_sub ..⟩

/-- Every operation of the second window touches TensorCore buffers only. -/
theorem ops1_sub : (ops1 : List (HloOp τ sig (Elt F))).Forall fun op => op.bufs ⊆ tcRefs τ sig :=
  ⟨unary_bufs_sub .., binary_bufs_sub .., nullary_bufs_sub .., unary_bufs_sub .., binary_bufs_sub .., unary_bufs_sub ..,
    nullary_bufs_sub .., binary_bufs_sub .., nullary_bufs_sub .., binary_bufs_sub .., nullary_bufs_sub .., binary_bufs_sub ..,
    nullary_bufs_sub .., binary_bufs_sub .., unary_bufs_sub .., binary_bufs_sub .., nullary_bufs_sub .., unary_bufs_sub ..,
    ternary_bufs_sub .., nullary_bufs_sub .., binary_bufs_sub .., binary_bufs_sub ..⟩

/-- Every operation of @main touches TensorCore buffers only. -/
theorem ops_sub : (ops : List (HloOp τ sig (Elt F))).Forall fun op => op.bufs ⊆ tcRefs τ sig :=
  List.forall_iff_forall_mem.mpr fun op h => (List.mem_append.mp h).elim
    (List.forall_iff_forall_mem.mp ops0_sub op) (List.forall_iff_forall_mem.mp ops1_sub op)

/-- Running the two windows in turn folds the second over what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- At the compiled mesh, for any float values, from any memory with zero counters: every weakly fair execution of
    @main terminates, and every final state has each TensorCore buffer at the fold of the operations' results over
    the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after ops (launchContents m d) (Proc.devRef .tc b) :=
  run_seq scopedRefs_eq scopedSems_eq defs main (fun _ => ops) main_eq (fun _ => ops_sub) m ρ

/-- No operation writes argument 0's buffer: it holds after the line what it held before. -/
theorem arg0_eq (V : Valuation τ sig (Elt F)) :
    after ops V (Proc.devRef .tc main_arg0) = V (Proc.devRef .tc main_arg0) := by
  refine (congrFun (after_append ops0 ops1 V) _).trans ?_
  after_results_simp

/-- No operation writes argument 1's buffer: it holds after the line what it held before. -/
theorem arg1_eq (V : Valuation τ sig (Elt F)) :
    after ops V (Proc.devRef .tc main_arg1) = V (Proc.devRef .tc main_arg1) := by
  refine (congrFun (after_append ops0 ops1 V) _).trans ?_
  after_results_simp

/-- No operation writes argument 2's buffer: it holds after the line what it held before. -/
theorem arg2_eq (V : Valuation τ sig (Elt F)) :
    after ops V (Proc.devRef .tc main_arg2) = V (Proc.devRef .tc main_arg2) := by
  refine (congrFun (after_append ops0 ops1 V) _).trans ?_
  after_results_simp

/-- No operation writes argument 3's buffer: it holds after the line what it held before. -/
theorem arg3_eq (V : Valuation τ sig (Elt F)) :
    after ops V (Proc.devRef .tc main_arg3) = V (Proc.devRef .tc main_arg3) := by
  refine (congrFun (after_append ops0 ops1 V) _).trans ?_
  after_results_simp

/-- @main runs, and leaves its four argument arrays as they were. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_arg0).trans (arg0_eq _), (h c main_arg1).trans (arg1_eq _),
      (h c main_arg2).trans (arg2_eq _), (h c main_arg3).trans (arg3_eq _)⟩)
    (run_all m ρ)

end Cert.ReferenceIdeal.Hand

end
-- ==== Proof.SmoothRef.lean ====
/-
  The reference's smoothness sums, read at an index on the extended reals.
  For the array of scores a1 over (sample, step, region, 1) the reference forms, for each sample b, each pair of
  consecutive steps (t, t+1) and each region r, the square of the positive part of |a1(b,t+1,r) − a1(b,t,r)| − 0.2;
  sums these over the regions and divides by 2048 (the pair's mean penalty); multiplies by the pair's 0/1 mask;
  and sums over the samples. Below, the terms are written out as the reference states them, and then read at an
  index: the mean penalty is the specification's penMean of the two rows of scores, and the masked sum over the
  samples is the sum of the mean penalties times the mask bits.
-/
import proofs.«429960_j51273319580286_4_alg».proof.ReferenceIdeal
import proofs.«429960_j51273319580286_4_alg».proof.Proof.Spec
import Idealize.ShloMosaic.PureOps.Ideal
import Idealize.ShloMosaic.PureOps.Ideal.Laws
import Idealize.ShloMosaic.PureOps.Reduce
import Idealize.ShloMosaic.Lib.ValueIdx
import Idealize.ShloMosaic.Lib.ValueLayout
import Idealize.ShloMosaic.Lib.IdealHost

noncomputable section

namespace Cert.ReferenceIdeal.Hand

open Cert.ReferenceIdeal Cert.ReferenceIdeal.Facts₀ Cert.ReferenceIdeal.Facts
open Idealize.ShloMosaic Idealize.ShloMosaic.ValueIdx
open scoped BigOperators

variable [Cert.ReferenceIdeal.Facts]

/-! ## The terms, as the reference states them -/

section Terms
variable {F : FTy → Type} [FloatOps F]

/-- The squared positive part of |later − earlier| − 0.2 at every (sample, pair of steps, region): the later steps
    are the slice of the scores along the step axis from 1, the earlier ones the slice from 0. -/
def sqR (a1 : FVec F S2048x16x2048x1 .f32) : FVec F S2048x15x2048x1 .f32 :=
  mulf
    (maximumf
      (subf
        (Host.absf
          (subf (extractStridedSlice S2048x15x2048x1 ![0, 1, 0, 0] a1 slices_S2048x16x2048x1_S2048x15x2048x1_0_1_0_0)
            (extractStridedSlice S2048x15x2048x1 ![0, 0, 0, 0] a1 slices_S2048x16x2048x1_S2048x15x2048x1_0_0_0_0)))
        (broadcastInDim S2048x15x2048x1 ![] bcast_S_S2048x15x2048x1 (constant S_ .f32 0x3E4CCCCD#32)))
      (broadcastInDim S2048x15x2048x1 ![] bcast_S_S2048x15x2048x1 (constant S_ .f32 0x00000000#32)))
    (maximumf
      (subf
        (Host.absf
          (subf (extractStridedSlice S2048x15x2048x1 ![0, 1, 0, 0] a1 slices_S2048x16x2048x1_S2048x15x2048x1_0_1_0_0)
            (extractStridedSlice S2048x15x2048x1 ![0, 0, 0, 0] a1 slices_S2048x16x2048x1_S2048x15x2048x1_0_0_0_0)))
        (broadcastInDim S2048x15x2048x1 ![] bcast_S_S2048x15x2048x1 (constant S_ .f32 0x3E4CCCCD#32)))
      (broadcastInDim S2048x15x2048x1 ![] bcast_S_S2048x15x2048x1 (constant S_ .f32 0x00000000#32)))

/-- The mean penalty of every (sample, pair of steps): the sum of the squares over the regions (and the unit axis),
    from zero, divided by 2048. -/
def penMeanR (a1 : FVec F S2048x16x2048x1 .f32) : FVec F S2048x15 .f32 :=
  Host.divf
    (Host.reduceAdd (sqR a1) (constant S_ .f32 0x00000000#32) reducesTo_S2048x15x2048x1_S2048x15_d2_3 h_S_)
    (broadcastInDim S2048x15 ![] bcast_S_S2048x15 (constant S_ .f32 0x45000000#32))

/-- The masked sum over the samples, for every pair of steps: the mean penalties times the mask bits read as
    numbers, summed over the samples from zero. -/
def wsumR (a1 : FVec F S2048x16x2048x1 .f32) (p : IVec S2048x15 1) : FVec F S15 .f32 :=
  Host.reduceAdd (mulf (penMeanR a1) (uitofp .f32 p)) (constant S_ .f32 0x00000000#32) reducesTo_S2048x15_S15_d0 h_S_

end Terms

/-! ## Read at an index, on the extended reals -/

/-- The square at one (sample, pair, region) is the specification's penalty of the two scores. -/
theorem sqR_apply (a1 : FVec Ideal S2048x16x2048x1 .f32) (b : Fin 2048) (t : Fin 15) (r : Fin 2048) (e : Fin 1) :
    sqR a1 (ix4 b t r e) = Cert.Spec.pen (a1 (ix4 b t.succ r e)) (a1 (ix4 b t.castSucc r e)) := by
  have hhi : extractStridedSlice S2048x15x2048x1 ![0, 1, 0, 0] a1 slices_S2048x16x2048x1_S2048x15x2048x1_0_1_0_0 (ix4 b t r e)
      = a1 (ix4 b t.succ r e) :=
    slice4_axis1_apply 1 a1 _ b t r e t.succ (by rw [Fin.val_succ, Nat.add_comm])
  have hlo : extractStridedSlice S2048x15x2048x1 ![0, 0, 0, 0] a1 slices_S2048x16x2048x1_S2048x15x2048x1_0_0_0_0 (ix4 b t r e)
      = a1 (ix4 b t.castSucc r e) :=
    slice4_axis1_apply 0 a1 _ b t r e t.castSucc (by rw [Fin.val_castSucc, Nat.zero_add])
  have habs : ∀ (x : FVec Ideal S2048x15x2048x1 .f32) (i : S2048x15x2048x1.Idx), Host.absf x i = max (x i) (-(x i)) :=
    fun _ _ => rfl
  unfold sqR
  rw [mulf_apply, maximumf_apply, subf_apply, habs, subf_apply, hhi, hlo, broadcastInDim_scalar_apply,
    broadcastInDim_scalar_apply, constant_apply, constant_apply]
  rfl

/-! ## The two sums over index sets -/

section Sums
variable {M : Type*} [AddCommMonoid M]

/-- Dropping the region axis and the unit axis of an index (sample, pair, region, 1) leaves (sample, pair): the
    first coordinate. -/
theorem drop23_val0 (i : S2048x15x2048x1.Idx) :
    ((reducesTo_S2048x15x2048x1_S2048x15_d2_3.drop i) (0 : Fin 2)).val = (i (0 : Fin 4)).val :=
  Shape.ReducesTo.drop_apply_val_of_eq reducesTo_S2048x15x2048x1_S2048x15_d2_3 i (0 : Fin 2) (0 : Fin 4)

/-- … and the second coordinate. -/
theorem drop23_val1 (i : S2048x15x2048x1.Idx) :
    ((reducesTo_S2048x15x2048x1_S2048x15_d2_3.drop i) (1 : Fin 2)).val = (i (1 : Fin 4)).val :=
  Shape.ReducesTo.drop_apply_val_of_eq reducesTo_S2048x15x2048x1_S2048x15_d2_3 i (1 : Fin 2) (1 : Fin 4)

theorem drop23_ix4 (a : Fin 2048) (c : Fin 15) (r : Fin 2048) (e : Fin 1) :
    reducesTo_S2048x15x2048x1_S2048x15_d2_3.drop (ix4 a c r e) = ix2 a c := by
  funext k
  match k with
  | ⟨0, _⟩ => exact Fin.ext (drop23_val0 _)
  | ⟨1, _⟩ => exact Fin.ext (drop23_val1 _)

/-- The indices (sample, pair, region, 1) that reduce to (b, t) are (b, t, r, 0) over the regions r: a sum over
    them is a sum over the regions. -/
theorem sum_filter_drop23 (f : S2048x15x2048x1.Idx → M) (b : Fin 2048) (t : Fin 15) :
    ∑ i ∈ Finset.univ.filter (fun i => reducesTo_S2048x15x2048x1_S2048x15_d2_3.drop i = ix2 b t), f i
      = ∑ r : Fin 2048, f (ix4 b t r 0) := by
  symm
  refine Finset.sum_bij (fun r _ => ix4 b t r 0) ?_ ?_ ?_ (fun _ _ => rfl)
  · intro r _
    exact Finset.mem_filter.mpr ⟨Finset.mem_univ _, drop23_ix4 b t r 0⟩
  · intro r₁ _ r₂ _ h
    exact congrFun h (2 : Fin 4)
  · intro i hi
    obtain ⟨a, c, r, e, rfl⟩ : ∃ (a : Fin 2048) (c : Fin 15) (r : Fin 2048) (e : Fin 1), i = ix4 a c r e :=
      ⟨i 0, i 1, i 2, i 3, eq_ix4 i⟩
    have h := (Finset.mem_filter.mp hi).2
    rw [drop23_ix4] at h
    have ha : a = b := congrFun h (0 : Fin 2)
    have hc : c = t := congrFun h (1 : Fin 2)
    subst ha hc
    exact ⟨r, Finset.mem_univ _, by rw [Subsingleton.elim e 0]⟩

theorem drop0_val0 (i : S2048x15.Idx) :
    ((reducesTo_S2048x15_S15_d0.drop i) (0 : Fin 1)).val = (i (1 : Fin 2)).val :=
  Shape.ReducesTo.drop_apply_val_of_eq reducesTo_S2048x15_S15_d0 i (0 : Fin 1) (1 : Fin 2)

theorem drop0_ix2 (a : Fin 2048) (c : Fin 15) : reducesTo_S2048x15_S15_d0.drop (ix2 a c) = ix1 c := by
  funext k
  match k with
  | ⟨0, _⟩ => exact Fin.ext (drop0_val0 _)

/-- The indices (sample, pair) that reduce to the pair t are (b, t) over the samples b. -/
theorem sum_filter_drop0 (f : S2048x15.Idx → M) (t : Fin 15) :
    ∑ i ∈ Finset.univ.filter (fun i => reducesTo_S2048x15_S15_d0.drop i = ix1 t), f i
      = ∑ b : Fin 2048, f (ix2 b t) := by
  symm
  refine Finset.sum_bij (fun b _ => ix2 b t) ?_ ?_ ?_ (fun _ _ => rfl)
  · intro b _
    exact Finset.mem_filter.mpr ⟨Finset.mem_univ _, drop0_ix2 b t⟩
  · intro b₁ _ b₂ _ h
    exact congrFun h (0 : Fin 2)
  · intro i hi
    obtain ⟨a, c, rfl⟩ : ∃ (a : Fin 2048) (c : Fin 15), i = ix2 a c := ⟨i 0, i 1, eq_ix2 i⟩
    have h := (Finset.mem_filter.mp hi).2
    rw [drop0_ix2] at h
    have hc : c = t := congrFun h (0 : Fin 1)
    subst hc
    exact ⟨a, Finset.mem_univ _, rfl⟩

end Sums

/-! ## The mean penalty and the masked sum at an index -/

/-- The host's sum at a reduced index: the initial value plus the sum over the indices that reduce to it. -/
theorem hostReduceAdd_eq {s t : Shape} {axes : List (Fin s.rank)} (h : s.ReducesTo axes t) (x : s.Idx → EReal) (init : EReal)
    (j : t.Idx) : Ideal.hostReduceAdd h x init j = init + ∑ i ∈ Finset.univ.filter (fun i => h.drop i = j), x i := rfl

/-- A mask bit converted to a number is the bit's value. -/
theorem uitofp_bit_apply (p : IVec S2048x15 1) (i : S2048x15.Idx) :
    (uitofp .f32 p : FVec Ideal S2048x15 .f32) i = Cert.Spec.bit (p i) := rfl

/-- The mean penalty at (sample b, pair t) is the specification's mean penalty of the rows of scores at steps t+1 and t. -/
theorem penMeanR_apply (a1 : FVec Ideal S2048x16x2048x1 .f32) (b : Fin 2048) (t : Fin 15) :
    penMeanR a1 (ix2 b t)
      = Cert.Spec.penMean (fun r : Fin 2048 => a1 (ix4 b t.succ r 0)) (fun r : Fin 2048 => a1 (ix4 b t.castSucc r 0)) := by
  unfold penMeanR Cert.Spec.penMean
  rw [hostDivf_apply, hostReduceAdd_apply, hostReduceAdd_eq, sum_filter_drop23, broadcastInDim_scalar_apply, constant_apply,
    constant_apply, Ideal.ofBits_zero_f32, zero_add]
  exact congrArg (fun s => Ideal.div s (Ideal.ofBits .f32 0x45000000#32))
    (Finset.sum_congr rfl fun r _ => sqR_apply a1 b t r 0)

/-- The masked sum at the pair t is the sum over the samples of the mean penalty times the mask bit. -/
theorem wsumR_apply (a1 : FVec Ideal S2048x16x2048x1 .f32) (p : IVec S2048x15 1) (t : Fin 15) :
    wsumR a1 p (ix1 t)
      = ∑ b : Fin 2048,
          Cert.Spec.penMean (fun r : Fin 2048 => a1 (ix4 b t.succ r 0)) (fun r : Fin 2048 => a1 (ix4 b t.castSucc r 0))
            * Cert.Spec.bit (p (ix2 b t)) := by
  unfold wsumR
  rw [hostReduceAdd_apply, hostReduceAdd_eq, sum_filter_drop0, constant_apply, Ideal.ofBits_zero_f32, zero_add]
  refine Finset.sum_congr rfl fun b _ => ?_
  rw [mulf_apply, penMeanR_apply, uitofp_bit_apply]

end Cert.ReferenceIdeal.Hand

end
-- ==== Proof.RTail.lean ====
/-
  The reference's result as one function of the argument arrays. With y the targets and v the mask as numbers (each
  carried along a trailing unit axis) and p the predictions, the classification term is
  Σ −(2·y·logσ(p) + (1 − y)·logσ(−p))·v divided by max(Σ v, 1e-8); the weighted penalty sums w are the column sums of
  the mean penalties times the pair mask; the pair counts n are the column sums of the pair mask; the step losses are
  w / max(n, 1) with the maximum taken on the integers; the number of steps with a positive count divides their sum (or
  the answer is 0 when there is none); the result is the classification term plus 0.2 times that.
-/
import proofs.«429960_j51273319580286_4_alg».proof.Proof.ClassLoss
import proofs.«429960_j51273319580286_4_alg».proof.Proof.Counts
import proofs.«429960_j51273319580286_4_alg».proof.Proof.SmoothRef

noncomputable section

namespace Cert.ReferenceIdeal.Hand

open Cert.ReferenceIdeal Cert.ReferenceIdeal.Facts₀
open Idealize.ShloMosaic
open Cert.Hand

variable {F : FTy → Type} [FloatOps F] [Cert.ReferenceIdeal.Facts]

/-- The classification term: the entries' sum over the mask's sum, the latter bounded below by 1e-8. -/
def classR (a0 : FVec F S2048x16x1 .f32) (a2 a3 : IVec S2048x16 32) : FVec F S_ .f32 :=
  Host.divf
    (Host.reduceAdd (bceR a0 a2 a3) (constant S_ .f32 0x00000000#32) reducesTo_S2048x16x1_S_d0_1_2 h_S_)
    (maximumf
      (Host.reduceAdd (broadcastInDim S2048x16x1 ![0, 1] bcast_S2048x16_S2048x16x1_0_1 (sitofp .f32 a3 : FVec F S2048x16 .f32))
        (constant S_ .f32 0x00000000#32) reducesTo_S2048x16x1_S_d0_1_2 h_S_)
      (constant S_ .f32 0x322BCC77#32))

/-- The number of counted samples per pair of steps. -/
def countR (a3 : IVec S2048x16 32) : IVec S15 32 :=
  Host.reduce IntOp.addi (extui 32 (maskR (F := F) a3) natLt_1_32) (constantI S_ 32 0#32) reducesTo_S2048x15_S15_d0 h_S_

/-- The number of steps whose count is positive. -/
def stepsR (n : IVec S15 32) : IVec S_ 32 :=
  Host.reduce IntOp.addi
    (extui 32 (cmpi .sgt n (broadcastInDim S15 ![] bcast_S_S15 (constantI S_ 32 0#32))) natLt_1_32)
    (constantI S_ 32 0#32) reducesTo_S15_S_d0 h_S_

/-- The smoothness term from the weighted sums `w` and the counts `n`. -/
def smoothR (w : FVec F S15 .f32) (n : IVec S15 32) : FVec F S_ .f32 :=
  select
    (cmpi .sgt (stepsR n) (constantI S_ 32 0#32))
    (Host.divf
      (Host.reduceAdd
        (Host.divf w (sitofp .f32 (maxsi n (broadcastInDim S15 ![] bcast_S_S15 (constantI S_ 32 1#32))) : FVec F S15 .f32))
        (constant S_ .f32 0x00000000#32) reducesTo_S15_S_d0 h_S_)
      (sitofp .f32 (maxsi (stepsR n) (constantI S_ 32 1#32))))
    (id (constant S_ .f32 0x00000000#32))

/-- The reference's result from the arguments. -/
def tailR (a0 : FVec F S2048x16x1 .f32) (a1 : FVec F S2048x16x2048x1 .f32) (a2 a3 : IVec S2048x16 32) : FVec F S_ .f32 :=
  addf (classR a0 a2 a3)
    (mulf (constant S_ .f32 0x3E4CCCCD#32) (smoothR (wsumR a1 (maskR (F := F) a3)) (countR (F := F) a3)))

end Cert.ReferenceIdeal.Hand

end
-- ==== Proof.RRead.lean ====
/- What the reference program's buffers hold after its run, as terms of the four arguments. The run leaves every buffer
   at the fold of the 114 operations' results; reading the fold at the result buffer, operation by operation back to
   the arguments, gives one closed term: the class term (a weighted sum over a floor-clamped total weight) plus a
   fifth of the smoothness term (the mean, over the pairs of consecutive steps that have any masked sample, of each
   pair's masked mean penalty; zero when no pair has one). -/
import proofs.«429960_j51273319580286_4_alg».proof.Proof.RRun
import proofs.«429960_j51273319580286_4_alg».proof.Proof.RTail
import Idealize.ShloMosaic.Lib.StableHlo.Run

noncomputable section

namespace Cert.ReferenceIdeal.Hand

open Cert.ReferenceIdeal Cert.ReferenceIdeal.Facts₀ Idealize.ShloMosaic Idealize.ShloMosaic.TcCoe Idealize.SL.Sem Idealize.ShloMosaic.StableHlo

variable {F : FTy → Type} [FloatOps F]

/-- Carrying a value to a typed reference's buffer type and back is the identity. -/
theorem ofBuf_toBuf {T : BufTy} (x : TRef sig T) (v : T.Contents (Elt F)) : x.ofBuf (x.toBuf v) = v := by
  obtain ⟨r, rfl, _, _⟩ := x
  rfl

/-- Reading a fold at a buffer: each operation's result at its own buffer is its function of its operands' contents,
    at any other buffer what was there; a value written and read through a call's typed references is carried there
    and back unchanged. What is left relates terms of the contents the fold started from. -/
macro "read_fold" : tactic =>
  `(tactic| (after_results_simp
             try simp only [ofBuf_toBuf]))

/-! ## After the first window -/

attribute [local irreducible] Host.reduce Host.reduceAdd in
set_option maxRecDepth 16384 in
set_option maxHeartbeats 1600000 in
/-- The class term's buffer: the weighted entries' sum over the total weight, the latter at least 1e-8. -/
theorem v19_eq (V : Valuation τ sig (Elt F)) :
    StableHlo.after ops0 V (main_v19 : DevRef τ sig)
      = classR (V (main_arg0 : DevRef τ sig)) (V (main_arg2 : DevRef τ sig)) (V (main_arg3 : DevRef τ sig)) := by
  read_fold
  rfl

attribute [local irreducible] Host.reduce Host.reduceAdd in
set_option maxRecDepth 16384 in
set_option maxHeartbeats 1600000 in
/-- The pair counts' buffer. -/
theorem v41_eq (V : Valuation τ sig (Elt F)) :
    StableHlo.after ops0 V (main_v41 : DevRef τ sig) = countR (F := F) (V (main_arg3 : DevRef τ sig)) := by
  read_fold
  rfl

attribute [local irreducible] Host.reduce Host.reduceAdd in
set_option maxRecDepth 16384 in
set_option maxHeartbeats 1600000 in
/-- The masked penalty sums' buffer. -/
theorem v44_eq (V : Valuation τ sig (Elt F)) :
    StableHlo.after ops0 V (main_v44 : DevRef τ sig)
      = wsumR (V (main_arg1 : DevRef τ sig)) (maskR (F := F) (V (main_arg3 : DevRef τ sig))) := by
  read_fold
  rfl

attribute [local irreducible] Host.reduce Host.reduceAdd in
set_option maxRecDepth 16384 in
set_option maxHeartbeats 1600000 in
/-- The divisors' buffer: the pair counts, at least one. -/
theorem v46_eq (V : Valuation τ sig (Elt F)) :
    StableHlo.after ops0 V (main_v46 : DevRef τ sig)
      = maxsi (countR (F := F) (V (main_arg3 : DevRef τ sig))) (broadcastInDim S15 ![] bcast_S_S15 (constantI S_ 32 1#32)) := by
  read_fold
  rfl

/-! ## After the second window, from any contents -/

attribute [local irreducible] Host.reduce Host.reduceAdd in
set_option maxRecDepth 16384 in
set_option maxHeartbeats 1600000 in
/-- The second window reads four buffers the first one wrote — the class term, the pair counts, the masked penalty
    sums and the divisors — and leaves at the result buffer the class term plus 0.2 times the mean of the step
    losses over the pairs with a positive count (zero when there is none). -/
theorem tail_eq (W : Valuation τ sig (Elt F)) :
    StableHlo.after ops1 W (main_v60 : DevRef τ sig)
      = addf (W (main_v19 : DevRef τ sig)) (mulf (constant S_ .f32 0x3E4CCCCD#32)
          (select (cmpi .sgt (stepsR (W (main_v41 : DevRef τ sig))) (constantI S_ 32 0#32))
            (Host.divf
              (Host.reduceAdd
                (Host.divf (W (main_v44 : DevRef τ sig)) (sitofp .f32 (W (main_v46 : DevRef τ sig)) : FVec F S15 .f32))
                (constant S_ .f32 0x00000000#32) reducesTo_S15_S_d0 h_S_)
              (sitofp .f32 (maxsi (stepsR (W (main_v41 : DevRef τ sig))) (constantI S_ 32 1#32))))
            (id (constant S_ .f32 0x00000000#32)))) := by
  read_fold
  rfl

/-! ## The result -/

/-- The result buffer after the run, as a term of the four arguments' contents: the second window's reading, at what
    the first window leaves in the four buffers it reads. -/
theorem result_eq (V : Valuation τ sig (Elt F)) :
    StableHlo.after ops V (main_v60 : DevRef τ sig)
      = tailR (V (main_arg0 : DevRef τ sig)) (V (main_arg1 : DevRef τ sig)) (V (main_arg2 : DevRef τ sig))
          (V (main_arg3 : DevRef τ sig)) := by
  refine (congrFun (after_append ops0 ops1 V) _).trans ?_
  rw [tail_eq (after ops0 V), v19_eq V, v41_eq V, v44_eq V, v46_eq V]
  rfl

end Cert.ReferenceIdeal.Hand

end
-- ==== Proof.Bridge.lean ====
/-
  The two programs' results are one function of the arguments, on the extended reals. The classification terms agree
  because the two weighted cross-entropy sums and the two mask sums agree. The smoothness terms agree because the pair
  masks agree entry by entry (so the counts agree), because the kernel's 15 weighted sums — the first row of the call's
  result — are, like the reference's, the sums over the samples of the mean penalty times the pair indicator, because
  the largest of a count and 1 is the same taken on the integers or on the numbers, and because a count is positive as a
  number exactly when it is as an integer.
-/
import proofs.«429960_j51273319580286_4_alg».proof.Proof.KTail
import proofs.«429960_j51273319580286_4_alg».proof.Proof.RTail
import Idealize.ShloMosaic.Lib.ValueLayout

noncomputable section

namespace Cert.Hand

open Idealize.ShloMosaic Idealize.ShloMosaic.ValueIdx
open Cert.KernelIdeal.Hand Cert.ReferenceIdeal.Hand

variable [Cert.KernelIdeal.Facts] [Cert.ReferenceIdeal.Facts]

/-- The classification terms agree: equal numerators, equal denominators. -/
theorem class_eq (a0 : FVec Ideal Cert.KernelIdeal.S2048x16x1 .f32) (a2 a3 : IVec Cert.KernelIdeal.S2048x16 32) :
    classK (F := Ideal) a0 a2 a3 = classR (F := Ideal) a0 a2 a3 := by
  unfold classK classR
  rw [class_num_eq, class_den_eq]

/-- The counts agree: the two pair masks are one array. -/
theorem count_eq (a3 : IVec Cert.KernelIdeal.S2048x16 32) : countK (F := Ideal) a3 = countR (F := Ideal) a3 := by
  unfold countK countR
  rw [maskR_eq_maskK]

/-- The smoothness terms agree on equal weighted sums and counts: the divisor max(n, 1) and the indicator n > 0 are the
    same taken on the numbers or on the integers. -/
theorem smooth_eq (w : FVec Ideal Cert.KernelIdeal.S15 .f32) (n : IVec Cert.KernelIdeal.S15 32) :
    smoothK (F := Ideal) w n = smoothR (F := Ideal) w n := by
  unfold smoothK smoothR stepsR
  rw [nonempty_eq Cert.KernelIdeal.Facts₀.bcast_S_S15 Cert.ReferenceIdeal.Facts₀.bcast_S_S15,
    divisor_eq Cert.KernelIdeal.Facts₀.bcast_S_S15 Cert.ReferenceIdeal.Facts₀.bcast_S_S15]

/-- Entry t of the first row of the call's result, as the host lines extract it. -/
theorem row_apply (o : FVec Ideal Cert.KernelIdeal.S8x128 .f32) (t : Fin 15) :
    rowK (F := Ideal) o (ix1 t) = o (ix2 (0 : Fin 8) (⟨t.val, by omega⟩ : Fin 128)) := by
  unfold rowK
  rw [shapeCast_1a_a_apply]
  exact extractStridedSlice_apply _ _ _ _ _ (fun ax => by
    match ax with
    | ⟨0, _⟩ => rfl
    | ⟨1, _⟩ => exact (Nat.zero_add _).symm)

/-- The kernel's weighted sums are the reference's, once the first row of the call's result holds, at each pair of
    steps, the sum over the samples of the weighted penalty. -/
theorem wsum_eq (o : FVec Ideal Cert.KernelIdeal.S8x128 .f32) (a1 : FVec Ideal Cert.ReferenceIdeal.S2048x16x2048x1 .f32)
    (a3 : IVec Cert.KernelIdeal.S2048x16 32)
    (ho : ∀ t : Fin 15, o (ix2 (0 : Fin 8) (⟨t.val, by omega⟩ : Fin 128))
      = ∑ B : Fin 2048, Cert.Spec.weighted (fun r : Fin 2048 => a1 (ix4 B t.succ r 0)) (fun r => a1 (ix4 B t.castSucc r 0))
          (a3 (ix2 B t.succ)) (a3 (ix2 B t.castSucc))) :
    rowK (F := Ideal) o = wsumR (F := Ideal) a1 (maskR (F := Ideal) a3) := by
  funext i
  obtain ⟨t, rfl⟩ : ∃ t : Fin 15, i = ix1 t := ⟨i 0, eq_ix1 i⟩
  rw [row_apply, ho, wsumR_apply]
  refine Finset.sum_congr rfl fun B _ => ?_
  rw [maskR_apply]
  rfl

/-- THE BRIDGE: the kernel program's tail function of such a result array is the reference's function of the arguments. -/
theorem tail_bridge (o : FVec Ideal Cert.KernelIdeal.S8x128 .f32) (a0 : FVec Ideal Cert.KernelIdeal.S2048x16x1 .f32)
    (a1 : FVec Ideal Cert.ReferenceIdeal.S2048x16x2048x1 .f32) (a2 a3 : IVec Cert.KernelIdeal.S2048x16 32)
    (ho : ∀ t : Fin 15, o (ix2 (0 : Fin 8) (⟨t.val, by omega⟩ : Fin 128))
      = ∑ B : Fin 2048, Cert.Spec.weighted (fun r : Fin 2048 => a1 (ix4 B t.succ r 0)) (fun r => a1 (ix4 B t.castSucc r 0))
          (a3 (ix2 B t.succ)) (a3 (ix2 B t.castSucc))) :
    tailK (F := Ideal) o a0 a2 a3 = tailR (F := Ideal) a0 a1 a2 a3 := by
  unfold tailK tailR
  rw [class_eq, count_eq, wsum_eq o a1 a3 ho, smooth_eq]

end Cert.Hand

end
-- ==== Proof.lean ====
/-
  The certificate's claim. The kernel computes, block of 32 samples by block, the sums over the samples of the mean
  smoothness penalty times the pair indicator, accumulating them over the 64 grid points in one result block; the host
  lines around it compute the classification term and turn those sums and the pair counts into the smoothness term.
  The reference computes the same two terms with plain array operations. Frames: the word-level and the idealized
  kernel programs run through one region between host lines and leave their arguments alone; the reference is a straight
  line of host operations. The idealization rewrote nothing. On the extended reals the two results are one function of
  the arguments: the kernel's accumulated row is the reference's column sums (sums over samples regrouped by blocks), and
  the remaining lines differ only in where a unit axis sits and in taking a maximum and a comparison on integers or on
  numbers.
-/
import proofs.«429960_j51273319580286_4_alg».proof.Defs
import proofs.«429960_j51273319580286_4_alg».proof.Proof.Gen.Kernel
import proofs.«429960_j51273319580286_4_alg».proof.Proof.Gen.KernelIdeal
import proofs.«429960_j51273319580286_4_alg».proof.Proof.Gen.ReferenceIdeal
import proofs.«429960_j51273319580286_4_alg».proof.Proof.Gen.Pre_finite_inputs
import proofs.«429960_j51273319580286_4_alg».proof.Proof.BFrame
import proofs.«429960_j51273319580286_4_alg».proof.Proof.KRun
import proofs.«429960_j51273319580286_4_alg».proof.Proof.KValue
import proofs.«429960_j51273319580286_4_alg».proof.Proof.RRead
import proofs.«429960_j51273319580286_4_alg».proof.Proof.Bridge
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference is a straight line of host operations none of which writes an argument. -/
theorem frame_ri : Cert.frame_ReferenceIdeal := fun m ρ _ => Cert.ReferenceIdeal.Hand.frame m ρ

/-- The idealization rewrote no operation. -/
theorem preserves : Cert.preserves_Kernel_KernelIdeal := trivial

/-- On the extended reals, from memories that agree on the arguments, both programs end at one value: the kernel
    program's result is the tail function of the region's result array, whose first row holds the weighted sums; the
    reference's is its own function of the arguments; the bridge identifies them. -/
theorem algebraic : Cert.algebraic_KernelIdeal_ReferenceIdeal := by
  intro m ρ m' ρ' _ hagree
  refine ⟨_, Cert.KernelIdeal.Hand.run_value (F := Ideal) m ρ, ?_⟩
  refine (θ_run Cert.ReferenceIdeal.defs _ _).mono (fun _ h c => ⟨?_, (h c Cert.ReferenceIdeal.main_arg0).trans (Cert.ReferenceIdeal.Hand.arg0_eq _),
      (h c Cert.ReferenceIdeal.main_arg1).trans (Cert.ReferenceIdeal.Hand.arg1_eq _),
      (h c Cert.ReferenceIdeal.main_arg2).trans (Cert.ReferenceIdeal.Hand.arg2_eq _),
      (h c Cert.ReferenceIdeal.main_arg3).trans (Cert.ReferenceIdeal.Hand.arg3_eq _)⟩)
    (Cert.ReferenceIdeal.Hand.run_all (F := Ideal) m' ρ')
  refine (h c Cert.ReferenceIdeal.main_v60).trans ((Cert.ReferenceIdeal.Hand.result_eq _).trans ?_)
  show Cert.ReferenceIdeal.Hand.tailR (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)) = _
  rw [(hagree c).1, (hagree c).2.1, (hagree c).2.2.1, (hagree c).2.2.2]
  exact (Cert.Hand.tail_bridge ((Cert.KernelIdeal.Hand.dats m 0 c).arrAt 2 Cert.KernelIdeal.cfg0.N)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (Cert.KernelIdeal.Hand.region_value m c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
